-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 8192, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 512]⟩ ⟨3, ![4, 8192, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x1024x512 : Shape := ⟨3, ![4, 1024, 512]⟩
abbrev S4x512 : Shape := ⟨2, ![4, 512]⟩
abbrev S_ : Shape := ⟨0, ![]⟩

class Facts : Prop where
  bcast_S_S4x1024x512 : S_.BroadcastsInDim S4x1024x512 (![] : Fin 0 → Fin S4x1024x512.rank)
  reducesTo_S4x1024x512_S_d0_1_2 : S4x1024x512.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S4x1024x512 .f32) (main_arg1 : FVec F S4x512 .f32) : IVec S_ 1 :=
  let main_v0 : FVec F S4x1024x512 .f32 := Host.absf main_arg0
  let main_cst : FVec F S_ .f32 := constant S_ .f32 0x7F800000#32
  let main_v1 : FVec F S4x1024x512 .f32 := broadcastInDim S4x1024x512 ![] bcast_S_S4x1024x512 main_cst
  let main_v2 : IVec S4x1024x512 1 := cmpf .olt main_v0 main_v1
  let main_c : IVec S_ 1 := constantI S_ 1 1#1
  let main_v3 : IVec S_ 1 := (fun x v => Host.reduce IntOp.andi x v reducesTo_S4x1024x512_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  main_v8
-- ==== Pre_finite_inputs_ReferenceIdeal.lean ====
abbrev S4x8192x512 : Shape := ⟨3, ![4, 8192, 512]⟩
abbrev S4x512 : Shape := ⟨2, ![4, 512]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S4x8192x512 .f32) (main_arg1 : FVec F S4x512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  main_v8
-- ==== Kernel.lean ====
abbrev S4x1024x512 : Shape := ⟨3, ![4, 1024, 512]⟩
abbrev S4x512 : Shape := ⟨2, ![4, 512]⟩
abbrev S4x3x512 : Shape := ⟨3, ![4, 3, 512]⟩
abbrev S_ : Shape := ⟨0, ![]⟩
abbrev S4x512x512 : Shape := ⟨3, ![4, 512, 512]⟩
abbrev S4x515x512 : Shape := ⟨3, ![4, 515, 512]⟩
abbrev S1x512 : Shape := ⟨2, ![1, 512]⟩
abbrev S512 : Shape := ⟨1, ![512]⟩
abbrev S1x1x512 : Shape := ⟨3, ![1, 1, 512]⟩
abbrev S4x1x512 : Shape := ⟨3, ![4, 1, 512]⟩
abbrev S4x4x512 : Shape := ⟨3, ![4, 4, 512]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S4x1024x512, .bf16⟩
  | .local _ .vmem, ⟨0, _⟩ => ⟨S4x1024x512, .f32⟩
  | .local _ .vmem, ⟨1, _⟩ => ⟨S4x512, .f32⟩
  | .local _ .vmem, ⟨2, _⟩ => ⟨S4x1024x512, .bf16⟩
  | .local _ .vmem, ⟨3, _⟩ => ⟨S4x3x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v101 : BitVec 32 := Scalar.subi v2 c1_i32_25
  let c1_i32_27 : BitVec 32 := 1#32
  let v102 : BitVec 32 := Scalar.muli v101 c1_i32_27
  let v103 : BitVec 32 := Scalar.addi c0_i32_28 v102
  v103.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v53 : BitVec 1 := Scalar.cmpi .slt v2 c7_i32
  let v54 : BitVec 32 := Scalar.extui v53
  let c0_i32_13 : BitVec 32 := 0#32
  let v55 : BitVec 1 := Scalar.cmpi .ne v54 c0_i32_13
  v55

def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v51 : BitVec 32 := Scalar.addi v2 c1_i32_11
  let c8_i32_12 : BitVec 32 := 8#32
  let v52 : BitVec 32 := Scalar.remsi v51 c8_i32_12
  let c1_i32_26 : BitVec 32 := 1#32
  let v101 : BitVec 32 := Scalar.muli v52 c1_i32_26
  let v102 : BitVec 32 := Scalar.addi c0_i32_27 v101
  v102.toNat
abbrev stage0_0 : Fin 1 → Memref sig .tc .vmem S4x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S4x512_S4x512_0_0 : ∀ a, (![0, 0] : Fin 2 → Nat) a + S4x512.size a ≤ S4x512.size a
  h_S4x512 : 0 < S4x512.numel
  shapeCasts_S4x512_S4x512 : S4x512.ShapeCasts S4x512
  bitsLt_bf16_f32 : FTy.bits .bf16 < FTy.bits .f32
  inb_S4x1024x512_S4x512x512_0_0_0 : ∀ a, (![0, 0, 0] : Fin 3 → Nat) a + S4x512x512.size a ≤ S4x1024x512.size a
  h_S4x512x512 : 0 < S4x512x512.numel
  shapeCasts_S4x512x512_S4x512x512 : S4x512x512.ShapeCasts S4x512x512
  concatenates_S4x3x512_S4x512x512_S4x515x512_d1 : Shape.Concatenates [S4x3x512, S4x512x512] S4x515x512 1
  slices_S4x515x512_o0_0_0_S4x512x512 : S4x515x512.Slices ![0, 0, 0] S4x512x512
  slices_S4x512_o0_0_S1x512 : S4x512.Slices ![0, 0] S1x512
  shapeCasts_S1x512_S512 : S1x512.ShapeCasts S512
  shapeCasts_S512_S1x1x512 : S512.ShapeCasts S1x1x512
  broadcasts_S1x1x512_S4x512x512 : S1x1x512.Broadcasts S4x512x512
  slices_S4x515x512_o0_1_0_S4x512x512 : S4x515x512.Slices ![0, 1, 0] S4x512x512
  slices_S4x512_o1_0_S1x512 : S4x512.Slices ![1, 0] S1x512
  slices_S4x515x512_o0_2_0_S4x512x512 : S4x515x512.Slices ![0, 2, 0] S4x512x512
  slices_S4x512_o2_0_S1x512 : S4x512.Slices ![2, 0] S1x512
  slices_S4x515x512_o0_3_0_S4x512x512 : S4x515x512.Slices ![0, 3, 0] S4x512x512
  slices_S4x512_o3_0_S1x512 : S4x512.Slices ![3, 0] S1x512
  packedbf16_S4x1024x512_S4x512x512_0_0_0 : (Rect.unit (s := S4x1024x512) ![0, 0, 0] S4x512x512.size inb_S4x1024x512_S4x512x512_0_0_0).PackedRows (EltTy.packing .bf16)
  inb_S4x1024x512_S4x3x512_0_1021_0 : ∀ a, (![0, 1021, 0] : Fin 3 → Nat) a + S4x3x512.size a ≤ S4x1024x512.size a
  inb_S4x1024x512_S4x515x512_0_509_0 : ∀ a, (![0, 509, 0] : Fin 3 → Nat) a + S4x515x512.size a ≤ S4x1024x512.size a
  h_S4x515x512 : 0 < S4x515x512.numel
  shapeCasts_S4x515x512_S4x515x512 : S4x515x512.ShapeCasts S4x515x512
  inb_S4x1024x512_S4x512x512_0_512_0 : ∀ a, (![0, 512, 0] : Fin 3 → Nat) a + S4x512x512.size a ≤ S4x1024x512.size a
  packedbf16_S4x1024x512_S4x512x512_0_512_0 : (Rect.unit (s := S4x1024x512) ![0, 512, 0] S4x512x512.size inb_S4x1024x512_S4x512x512_0_512_0).PackedRows (EltTy.packing .bf16)
  inb_S4x3x512_S4x3x512_0_0_0 : ∀ a, (![0, 0, 0] : Fin 3 → Nat) a + S4x3x512.size a ≤ S4x3x512.size a
  h_S4x3x512 : 0 < S4x3x512.numel
  slices_S4x3x512_o0_0_0_S4x1x512 : S4x3x512.Slices ![0, 0, 0] S4x1x512
  shapeCasts_S4x1x512_S4x512 : S4x1x512.ShapeCasts S4x512
  shapeCasts_S512_S1x512 : S512.ShapeCasts S1x512
  broadcasts_S1x512_S4x512 : S1x512.Broadcasts S4x512
  slices_S4x3x512_o0_1_0_S4x1x512 : S4x3x512.Slices ![0, 1, 0] S4x1x512
  slices_S4x3x512_o0_2_0_S4x1x512 : S4x3x512.Slices ![0, 2, 0] S4x1x512
  shapeCasts_S4x512_S4x1x512 : S4x512.ShapeCasts S4x1x512
  concatenates_S4x1x512_S4x1x512_S4x1x512_S4x3x512_d1 : Shape.Concatenates [S4x1x512, S4x1x512, S4x1x512] S4x3x512 1
  slices_S4x512x512_o0_0_0_S4x3x512 : S4x512x512.Slices ![0, 0, 0] S4x3x512
  inb_S4x1024x512_S4x3x512_0_0_0 : ∀ a, (![0, 0, 0] : Fin 3 → Nat) a + S4x3x512.size a ≤ S4x1024x512.size a
  inb_S4x1024x512_S4x4x512_0_0_0 : ∀ a, (![0, 0, 0] : Fin 3 → Nat) a + S4x4x512.size a ≤ S4x1024x512.size a
  h_S4x4x512 : 0 < S4x4x512.numel
  slices_S4x4x512_S4x3x512_0_0_0 : S4x4x512.Slices ![0, 0, 0] S4x3x512
  packedbf16_S4x1024x512_S4x4x512_0_0_0 : (Rect.unit (s := S4x1024x512) ![0, 0, 0] S4x4x512.size inb_S4x1024x512_S4x4x512_0_0_0).PackedRows (EltTy.packing .bf16)
  hcc0_scratch1 : 3 + S_.numel ≤ 5
  hcc0_scratch2 : 4 + S_.numel ≤ 5
  k0_dev1_lt : ∀ d0 : Dev nD, ∀ (k0_h1 : k0_cond1 d0 = 1#1), (k0_dev1 d0) < nD
  k0_dev2_lt : ∀ d0 : Dev nD, ∀ (k0_h2 : k0_cond2 d0 = 1#1), (k0_dev2 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S_ := SemArray.consecutive 3 S_ hcc0_scratch1
abbrev cc0_scratch2 : DmaSems sig S_ := SemArray.consecutive 4 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x512 : Shape := ⟨3, ![4, 8192, 512]⟩
abbrev S4x512 : Shape := ⟨2, ![4, 512]⟩
abbrev S_ : Shape := ⟨0, ![]⟩
abbrev S4x3x512 : Shape := ⟨3, ![4, 3, 512]⟩
abbrev S4x8195x512 : Shape := ⟨3, ![4, 8195, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x512, .f32⟩
  | .hbm, ⟨2, _⟩ => ⟨S_, .f32⟩
  | .hbm, ⟨3, _⟩ => ⟨S4x3x512, .f32⟩
  | .hbm, ⟨4, _⟩ => ⟨S4x8195x512, .f32⟩
  | .hbm, ⟨5, _⟩ => ⟨S_, .f32⟩
  | .hbm, ⟨6, _⟩ => ⟨S4x8192x512, .f32⟩
  | .hbm, ⟨7, _⟩ => ⟨S4x8192x512, .f32⟩
  | .hbm, ⟨8, _⟩ => ⟨S1x512, .f32⟩
  | .hbm, ⟨9, _⟩ => ⟨S512, .f32⟩
  | .hbm, ⟨10, _⟩ => ⟨S1x1x512, .f32⟩
  | .hbm, ⟨11, _⟩ => ⟨S4x8192x512, .f32⟩
  | .hbm, ⟨12, _⟩ => ⟨S4x8192x512, .f32⟩
  | .hbm, ⟨13, _⟩ => ⟨S4x8192x512, .f32⟩
  | .hbm, ⟨14, _⟩ => ⟨S4x8192x512, .f32⟩
  | .hbm, ⟨15, _⟩ => ⟨S1x512, .f32⟩
  | .hbm, ⟨16, _⟩ => ⟨S512, .f32⟩
  | .hbm, ⟨17, _⟩ => ⟨S1x1x512, .f32⟩
  | .hbm, ⟨18, _⟩ => ⟨S4x8192x512, .f32⟩
  | .hbm, ⟨19, _⟩ => ⟨S4x8192x512, .f32⟩
  | .hbm, ⟨20, _⟩ => ⟨S4x8192x512, .f32⟩
  | .hbm, ⟨21, _⟩ => ⟨S4x8192x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S4x8192x512, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x512, .f32⟩
  | .hbm, ⟨37, _⟩ => ⟨S_, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]

class Facts₀ : Prop where
  bcast_S_S4x3x512 : S_.BroadcastsInDim S4x3x512 (![] : Fin 0 → Fin S4x3x512.rank)
  concatenates_S4x3x512_S4x8192x512_S4x8195x512_d1 : Shape.Concatenates [S4x3x512, S4x8192x512] S4x8195x512 1
  bcast_S_S4x8192x512 : S_.BroadcastsInDim S4x8192x512 (![] : Fin 0 → Fin S4x8192x512.rank)
  slices_S4x8195x512_S4x8192x512_0_0_0 : S4x8195x512.Slices ![0, 0, 0] S4x8192x512
  slices_S4x512_S1x512_0_0 : S4x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S4x8192x512_0_1_2 : S1x1x512.BroadcastsInDim S4x8192x512 (![0, 1, 2] : Fin 3 → Fin S4x8192x512.rank)
  slices_S4x8195x512_S4x8192x512_0_1_0 : S4x8195x512.Slices ![0, 1, 0] S4x8192x512
  slices_S4x512_S1x512_1_0 : S4x512.Slices ![1, 0] S1x512
  slices_S4x8195x512_S4x8192x512_0_2_0 : S4x8195x512.Slices ![0, 2, 0] S4x8192x512
  slices_S4x512_S1x512_2_0 : S4x512.Slices ![2, 0] S1x512
  slices_S4x8195x512_S4x8192x512_0_3_0 : S4x8195x512.Slices ![0, 3, 0] S4x8192x512
  slices_S4x512_S1x512_3_0 : S4x512.Slices ![3, 0] S1x512
  bitsLt_bf16_f32 : FTy.bits .bf16 < FTy.bits .f32

variable [Facts₀]

class Facts : Prop extends Facts₀ where

variable [Facts]
-- ==== Proof.Stores.lean ====
/-
  The staging buffers read and written at an index, for any float instance.

  The body loads rows 0 to 511 and rows 509 to 1023 of the shard, sends its rows 1021 to 1023, and
  stores the first half of the result, then the second half, then (on a shard with a left
  neighbour) rows 0 to 2 again through a read-modify-write of rows 0 to 3. Whatever the result
  buffer held before, after the first two stores it is `out2`: the first payload on rows below
  512 and the second above; after the third it is `out3`: the halo payload on rows 0 to 2 and
  `out2` elsewhere.
-/
import proofs.«900528_g7700000000000529_dist_gconv1d_seqshard_i_b4_s1024_c512_v7x_i8_bf16_1_alg».proof.Proof.Gen.KernelIdeal
import Idealize.ShloMosaic.Lib.ValueIdx
import Idealize.ShloMosaic.Lib.Pipeline.Value

noncomputable section

namespace Cert.KernelIdeal.Stores

open Idealize.ShloMosaic Idealize.ShloMosaic.ValueIdx Cert.KernelIdeal Cert.KernelIdeal.Gen

variable {F : FTy → Type} [FloatOps F]

abbrev xM : Memref sig .tc .vmem S4x1024x512 .f32 := Memref.whole cc0_stg0_0
abbrev oM : Memref sig .tc .vmem S4x1024x512 .bf16 := Memref.whole cc0_stg2_0
abbrev hM : Memref sig .tc .vmem S4x3x512 .f32 := Memref.whole cc0_scratch0

/-- Rows 0 to 511; rows 512 to 1023; rows 509 to 1023; rows 0 to 3; rows 1021 to 1023; the whole halo buffer. -/
abbrev rLo : Rect S4x1024x512 := Rect.unit (s := S4x1024x512) ![0, 0, 0] S4x512x512.size inb_S4x1024x512_S4x512x512_0_0_0
abbrev rHi : Rect S4x1024x512 := Rect.unit (s := S4x1024x512) ![0, 512, 0] S4x512x512.size inb_S4x1024x512_S4x512x512_0_512_0
abbrev rMid : Rect S4x1024x512 := Rect.unit (s := S4x1024x512) ![0, 509, 0] S4x515x512.size inb_S4x1024x512_S4x515x512_0_509_0
abbrev rFix : Rect S4x1024x512 := Rect.unit (s := S4x1024x512) ![0, 0, 0] S4x4x512.size inb_S4x1024x512_S4x4x512_0_0_0
abbrev rTail : Rect S4x1024x512 := Rect.unit (s := S4x1024x512) ![0, 1021, 0] S4x3x512.size inb_S4x1024x512_S4x3x512_0_1021_0
abbrev rH : Rect S4x3x512 := Rect.unit (s := S4x3x512) ![0, 0, 0] S4x3x512.size inb_S4x3x512_S4x3x512_0_0_0

/-- The shard's rows 1021 to 1023 as a memref: the source of the transfer. -/
abbrev tailM : Memref sig .tc .vmem S4x3x512 .f32 := xM.slice rTail (fun _ => rfl)

/-- The result buffer after the two half stores. -/
def out2 (pA pB : Vec F S4x512x512 .bf16) : Vec F S4x1024x512 .bf16 := fun i =>
  if h : (i 1).val < 512 then pA (ix3 (i 0) ⟨(i 1).val, h⟩ (i 2))
  else pB (ix3 (i 0) ⟨(i 1).val - 512, by have h1 : (i 1).val < 1024 := (i 1).isLt; omega⟩ (i 2))

/-- and after rows 0 to 2 are stored again. -/
def out3 (pA pB : Vec F S4x512x512 .bf16) (pC : Vec F S4x3x512 .bf16) : Vec F S4x1024x512 .bf16 := fun i =>
  if h : (i 1).val < 3 then pC (ix3 (i 0) ⟨(i 1).val, h⟩ (i 2)) else out2 pA pB i

/-- The first store, then the second. -/
def W1 (f0 : (cc0_stg2_0 : Ref sig .tc).ty.Contents (Elt F)) (pA : Vec F S4x512x512 .bf16) : (cc0_stg2_0 : Ref sig .tc).ty.Contents (Elt F) :=
  ((oM : Memref sig .tc .vmem S4x1024x512 .bf16).access rLo : View sig .tc _ _ _).write (Elt F) f0 pA Finset.univ
def W2 (f0 : (cc0_stg2_0 : Ref sig .tc).ty.Contents (Elt F)) (pA pB : Vec F S4x512x512 .bf16) : (cc0_stg2_0 : Ref sig .tc).ty.Contents (Elt F) :=
  ((oM : Memref sig .tc .vmem S4x1024x512 .bf16).access rHi : View sig .tc _ _ _).write (Elt F) (W1 f0 pA) pB Finset.univ
/-- The read-modify-write of rows 0 to 3 that replaces rows 0 to 2 by `pC`. -/
def W3 (g : (cc0_stg2_0 : Ref sig .tc).ty.Contents (Elt F)) (pC : Vec F S4x3x512 .bf16) : (cc0_stg2_0 : Ref sig .tc).ty.Contents (Elt F) :=
  ((oM : Memref sig .tc .vmem S4x1024x512 .bf16).access rFix : View sig .tc _ _ _).write (Elt F) g
    (updateSlice ((oM : Memref sig .tc .vmem S4x1024x512 .bf16).view.readAt (Elt F) rFix.toLoadRect g) pC ![0, 0, 0] slices_S4x4x512_S4x3x512_0_0_0) Finset.univ

/-- `updateSlice` at an index inside the window reads the update at the index less the start. -/
theorem updateSlice_of_mem {α : Type} {s u : Shape} (x : s.Idx → α) (upd : u.Idx → α) (start : Fin s.rank → Nat)
    (h : s.Slices start u) (i : s.Idx) (k : u.Idx)
    (hk : ∀ a : Fin s.rank, (i a).val = start a + (k (a.cast h.1.symm)).val) :
    updateSlice x upd start h i = upd k := by
  unfold updateSlice
  have hin : ∀ a : Fin s.rank, start a ≤ (i a).val ∧ (i a).val < start a + u.size (a.cast h.1.symm) := fun a => by
    have h1 := hk a
    have h2 := (k (a.cast h.1.symm)).isLt
    omega
  rw [dif_pos hin]
  refine congrArg upd (funext fun b => Fin.ext ?_)
  have h1 := hk (b.cast h.1)
  have e : (b.cast h.1).cast h.1.symm = b := rfl
  rw [e] at h1
  show (i (b.cast h.1)).val - start (b.cast h.1) = (k b).val
  omega

/-- `updateSlice` at an index outside the window on some axis reads the old array. -/
theorem updateSlice_of_not_mem {α : Type} {s u : Shape} (x : s.Idx → α) (upd : u.Idx → α) (start : Fin s.rank → Nat)
    (h : s.Slices start u) (i : s.Idx) (a : Fin s.rank)
    (ha : (i a).val < start a ∨ start a + u.size (a.cast h.1.symm) ≤ (i a).val) :
    updateSlice x upd start h i = x i := by
  unfold updateSlice
  rw [dif_neg (fun hin => by have h1 := hin a; omega)]

/-- The three store rectangles as windows of the result buffer's shape. -/
theorem sl_lo : S4x1024x512.Slices ![0, 0, 0] S4x512x512 := ⟨rfl, inb_S4x1024x512_S4x512x512_0_0_0⟩
theorem sl_hi : S4x1024x512.Slices ![0, 512, 0] S4x512x512 := ⟨rfl, inb_S4x1024x512_S4x512x512_0_512_0⟩
theorem sl_fix : S4x1024x512.Slices ![0, 0, 0] S4x4x512 := ⟨rfl, inb_S4x1024x512_S4x4x512_0_0_0⟩

/-- Each unmasked store through a rectangle of the whole buffer replaces the window at the rectangle's offsets. -/
theorem W1_upd (f0 : (cc0_stg2_0 : Ref sig .tc).ty.Contents (Elt F)) (pA : Vec F S4x512x512 .bf16) :
    W1 f0 pA = updateSlice (s := S4x1024x512) (u := S4x512x512) f0 pA ![0, 0, 0] sl_lo :=
  View.write_whole_slice_unit cc0_stg2_0 _ _ _ f0 pA

theorem W2_upd (f0 : (cc0_stg2_0 : Ref sig .tc).ty.Contents (Elt F)) (pA pB : Vec F S4x512x512 .bf16) :
    W2 f0 pA pB = updateSlice (s := S4x1024x512) (u := S4x512x512) (W1 f0 pA) pB ![0, 512, 0] sl_hi :=
  View.write_whole_slice_unit cc0_stg2_0 _ _ _ (W1 f0 pA) pB

theorem W3_upd (g : (cc0_stg2_0 : Ref sig .tc).ty.Contents (Elt F)) (pC : Vec F S4x3x512 .bf16) :
    W3 g pC = updateSlice (s := S4x1024x512) (u := S4x4x512) g
      (updateSlice (s := S4x4x512) (u := S4x3x512)
        ((oM : Memref sig .tc .vmem S4x1024x512 .bf16).view.readAt (Elt F) rFix.toLoadRect g) pC ![0, 0, 0]
        slices_S4x4x512_S4x3x512_0_0_0) ![0, 0, 0] sl_fix :=
  View.write_whole_slice_unit cc0_stg2_0 _ _ _ g _

theorem W2_eq (f0 : (cc0_stg2_0 : Ref sig .tc).ty.Contents (Elt F)) (pA pB : Vec F S4x512x512 .bf16) : W2 f0 pA pB = out2 pA pB := by
  have key : ∀ i : S4x1024x512.Idx, W2 f0 pA pB i = out2 pA pB i := fun i => by
    have hi1 : (i 1).val < 1024 := (i 1).isLt
    rw [W2_upd]
    unfold out2
    by_cases h : (i 1).val < 512
    · -- below row 512: outside the second rectangle, inside the first
      rw [dif_pos h]
      refine (updateSlice_of_not_mem (s := S4x1024x512) (u := S4x512x512) (W1 f0 pA) pB ![0, 512, 0] sl_hi i 1
        (Or.inl (show (i 1).val < 512 from h))).trans ?_
      rw [W1_upd]
      refine updateSlice_of_mem (s := S4x1024x512) (u := S4x512x512) f0 pA ![0, 0, 0] sl_lo i
        (ix3 (i 0) (⟨(i 1).val, h⟩ : Fin 512) (i 2)) (fun a => ?_)
      match a with
      | ⟨0, _⟩ => show (i 0).val = 0 + (i 0).val; omega
      | ⟨1, _⟩ => show (i 1).val = 0 + (i 1).val; omega
      | ⟨2, _⟩ => show (i 2).val = 0 + (i 2).val; omega
    · -- from row 512 on: inside the second rectangle
      rw [dif_neg h]
      refine updateSlice_of_mem (s := S4x1024x512) (u := S4x512x512) (W1 f0 pA) pB ![0, 512, 0] sl_hi i
        (ix3 (i 0) (⟨(i 1).val - 512, by omega⟩ : Fin 512) (i 2)) (fun a => ?_)
      match a with
      | ⟨0, _⟩ => show (i 0).val = 0 + (i 0).val; omega
      | ⟨1, _⟩ => show (i 1).val = 512 + ((i 1).val - 512); omega
      | ⟨2, _⟩ => show (i 2).val = 0 + (i 2).val; omega
  exact funext key

theorem W3_eq (pA pB : Vec F S4x512x512 .bf16) (pC : Vec F S4x3x512 .bf16) : W3 (out2 pA pB) pC = out3 pA pB pC := by
  have key : ∀ i : S4x1024x512.Idx, W3 (out2 pA pB) pC i = out3 pA pB pC i := fun i => by
    have hi1 : (i 1).val < 1024 := (i 1).isLt
    rw [W3_upd]
    unfold out3
    by_cases h4 : (i 1).val < 4
    · -- rows 0 to 3: inside the rewritten rectangle, at the same coordinates
      refine (updateSlice_of_mem (s := S4x1024x512) (u := S4x4x512) (out2 pA pB) _ ![0, 0, 0] sl_fix i
        (ix3 (i 0) (⟨(i 1).val, h4⟩ : Fin 4) (i 2)) (fun a => by
          match a with
          | ⟨0, _⟩ => show (i 0).val = 0 + (i 0).val; omega
          | ⟨1, _⟩ => show (i 1).val = 0 + (i 1).val; omega
          | ⟨2, _⟩ => show (i 2).val = 0 + (i 2).val; omega)).trans ?_
      by_cases h3 : (i 1).val < 3
      · -- rows 0 to 2: the new rows
        rw [dif_pos h3]
        refine updateSlice_of_mem (s := S4x4x512) (u := S4x3x512) _ pC ![0, 0, 0] slices_S4x4x512_S4x3x512_0_0_0
          (ix3 (i 0) (⟨(i 1).val, h4⟩ : Fin 4) (i 2)) (ix3 (i 0) (⟨(i 1).val, h3⟩ : Fin 3) (i 2)) (fun a => ?_)
        match a with
        | ⟨0, _⟩ => show (i 0).val = 0 + (i 0).val; omega
        | ⟨1, _⟩ => show (i 1).val = 0 + (i 1).val; omega
        | ⟨2, _⟩ => show (i 2).val = 0 + (i 2).val; omega
      · -- row 3: the row read back, unchanged
        rw [dif_neg h3]
        refine (updateSlice_of_not_mem (s := S4x4x512) (u := S4x3x512) _ pC ![0, 0, 0] slices_S4x4x512_S4x3x512_0_0_0
          (ix3 (i 0) (⟨(i 1).val, h4⟩ : Fin 4) (i 2)) 1 (Or.inr (show 0 + 3 ≤ (i 1).val by omega))).trans ?_
        refine congrArg (out2 pA pB) (funext fun a => Fin.ext ?_)
        match a with
        | ⟨0, _⟩ => show 0 + 1 * (i 0).val = (i 0).val; omega
        | ⟨1, _⟩ => show 0 + 1 * (i 1).val = (i 1).val; omega
        | ⟨2, _⟩ => show 0 + 1 * (i 2).val = (i 2).val; omega
    · -- rows 4 and on: outside the rewritten rectangle
      rw [dif_neg (show ¬ (i 1).val < 3 by omega)]
      exact updateSlice_of_not_mem (s := S4x1024x512) (u := S4x4x512) (out2 pA pB) _ ![0, 0, 0] sl_fix i 1
        (Or.inr (show 0 + 4 ≤ (i 1).val by omega))
  exact funext key

/-- The three loads of the shard and of the halo buffer, at an index. -/
theorem read_lo (x : (cc0_stg0_0 : Ref sig .tc).ty.Contents (Elt F)) (b : Fin 4) (r : Fin 512) (ch : Fin 512) :
    (xM : Memref sig .tc .vmem S4x1024x512 .f32).view.readAt (Elt F) rLo.toLoadRect x (ix3 b r ch) = x (ix3 b ⟨r.val, by omega⟩ ch) := by
  refine congrArg x (funext fun a => Fin.ext ?_)
  match a with
  | ⟨0, _⟩ => show 0 + 1 * b.val = b.val; omega
  | ⟨1, _⟩ => show 0 + 1 * r.val = r.val; omega
  | ⟨2, _⟩ => show 0 + 1 * ch.val = ch.val; omega

theorem read_mid (x : (cc0_stg0_0 : Ref sig .tc).ty.Contents (Elt F)) (b : Fin 4) (j : Fin 515) (ch : Fin 512) :
    (xM : Memref sig .tc .vmem S4x1024x512 .f32).view.readAt (Elt F) rMid.toLoadRect x (ix3 b j ch) = x (ix3 b ⟨509 + j.val, by omega⟩ ch) := by
  refine congrArg x (funext fun a => Fin.ext ?_)
  match a with
  | ⟨0, _⟩ => show 0 + 1 * b.val = b.val; omega
  | ⟨1, _⟩ => show 509 + 1 * j.val = 509 + j.val; omega
  | ⟨2, _⟩ => show 0 + 1 * ch.val = ch.val; omega

theorem read_tail (x : (cc0_stg0_0 : Ref sig .tc).ty.Contents (Elt F)) (b : Fin 4) (j : Fin 3) (ch : Fin 512) :
    (tailM : Memref sig .tc .vmem S4x3x512 .f32).view.read (Elt F) x (ix3 b j ch) = x (ix3 b ⟨1021 + j.val, by omega⟩ ch) := by
  refine congrArg x (funext fun a => Fin.ext ?_)
  match a with
  | ⟨0, _⟩ => show 0 + 1 * b.val = b.val; omega
  | ⟨1, _⟩ => show 1021 + 1 * j.val = 1021 + j.val; omega
  | ⟨2, _⟩ => show 0 + 1 * ch.val = ch.val; omega

/-- A whole-buffer write into the halo buffer leaves exactly what was written; a whole-buffer load reads it back. -/
theorem write_halo (fd v : (cc0_scratch0 : Ref sig .tc).ty.Contents (Elt F)) :
    (hM : Memref sig .tc .vmem S4x3x512 .f32).view.write (Elt F) fd v Finset.univ = v := by
  exact View.write_whole_univ cc0_scratch0 fd v

theorem read_halo (h : (cc0_scratch0 : Ref sig .tc).ty.Contents (Elt F)) :
    (hM : Memref sig .tc .vmem S4x3x512 .f32).view.readAt (Elt F) rH.toLoadRect h = h := by
  have hz : (![0, 0, 0] : Fin 3 → Nat) = fun _ => 0 := by
    funext a; match a with | ⟨0, _⟩ => rfl | ⟨1, _⟩ => rfl | ⟨2, _⟩ => rfl
  exact Memref.readAt_unit_zero (Elt F) cc0_scratch0 hz inb_S4x3x512_S4x3x512_0_0_0 h

end Cert.KernelIdeal.Stores

end
-- ==== Proof.Proto.lean ====
/-
  The halo exchange as a protocol of rounds, for any float instance.

  Eight shards stand in a line. A shard with a right neighbour sends it its last three rows; a shard
  with a left neighbour receives them into its halo buffer. Before sending, a shard waits for one
  unit on its barrier semaphore, which its right neighbour signals as soon as it has entered: that
  unit carries the neighbour's halo buffer, so the rows can only land after the neighbour is inside.
  Each of the three semaphores of a shard is one cell with at most one duty, in round 0: the barrier
  cell of a shard with a right neighbour (paid by that neighbour's signal), the send cell of such a
  shard (paid when the source rows are read, handing the lent share of them back), and the receive
  cell of a shard with a left neighbour (paid when the rows have landed, handing over the halo
  buffer holding them). The first shard's receive cell and the last shard's barrier and send cells
  have no duty and are never waited on.
-/
import proofs.«900528_g7700000000000529_dist_gconv1d_seqshard_i_b4_s1024_c512_v7x_i8_bf16_1_alg».proof.Proof.Gen.KernelIdeal
import proofs.«900528_g7700000000000529_dist_gconv1d_seqshard_i_b4_s1024_c512_v7x_i8_bf16_1_alg».proof.Proof.Gen.KernelIdeal.Skeleton
import proofs.«900528_g7700000000000529_dist_gconv1d_seqshard_i_b4_s1024_c512_v7x_i8_bf16_1_alg».proof.Proof.Gen.KernelIdeal.Launch
import proofs.«900528_g7700000000000529_dist_gconv1d_seqshard_i_b4_s1024_c512_v7x_i8_bf16_1_alg».proof.Proof.Gen.KernelIdeal.Points
import proofs.«900528_g7700000000000529_dist_gconv1d_seqshard_i_b4_s1024_c512_v7x_i8_bf16_1_alg».proof.Proof.Stores
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Stores

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-! ## The resource algebra: the pipeline's copy and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The line of shards -/

def nxt (c : Dev nD) : Dev nD := ⟨(c.val + 1) % 8, Nat.mod_lt _ (by decide)⟩
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_val (c : Dev nD) (h : c.val < 7) : (nxt c).val = c.val + 1 := by revert c; decide
theorem prv_val (c : Dev nD) (h : 0 < c.val) : (prv c).val = c.val - 1 := by revert c; decide

def ring : Dev nD ≃ Dev nD := ⟨nxt, prv, prv_nxt, nxt_prv⟩

/-- The two printed conditions in closed form: "has a left neighbour", "has a right neighbour". -/
theorem cond1_iff : ∀ c : Dev nD, k0_cond1 c = 1#1 ↔ 0 < c.val := by decide +kernel
theorem cond2_iff : ∀ c : Dev nD, k0_cond2 c = 1#1 ↔ c.val < 7 := by decide +kernel

/-- The signal names the left neighbour, the transfer the right one. -/
theorem dev1_eq : ∀ (c : Dev nD) (h : k0_cond1 c = 1#1), (⟨k0_dev1 c, k0_dev1_lt c h⟩ : Dev nD) = prv c := by decide +kernel
theorem dev2_eq : ∀ (c : Dev nD) (h : k0_cond2 c = 1#1), (⟨k0_dev2 c, k0_dev2_lt c h⟩ : Dev nD) = nxt c := by decide +kernel

/-! ## The memrefs and cells -/

abbrev kM : Memref sig .tc .vmem S4x512 .f32 := Memref.whole cc0_stg1_0

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (hM : Memref sig .tc .vmem S4x3x512 .f32).view.dmaCredit
theorem N_pos : 0 < N := View.dmaCredit_pos _ (by decide)

/-- The share of the shard's rows lent to the transfer, and the share kept for the loads. -/
abbrev qS : PosShare TreeShare := fullShare.right
abbrev qK : PosShare TreeShare := fullShare.left

/-! ## Contents -/

/-- The shard and the filter as the pipeline stages them. -/
def xstg (c : Dev nD) : (cc0_stg0_0 : Ref sig .tc).ty.Contents (Elt F) :=
  (win0_0.blk (0 : Fin 1)).view.read (Elt F) (m ((c : Thread nD τ).loc main_arg0))
def kstg (c : Dev nD) : (cc0_stg1_0 : Ref sig .tc).ty.Contents (Elt F) :=
  (win0_1.blk (0 : Fin 1)).view.read (Elt F) (m ((c : Thread nD τ).loc main_arg1))

/-- What lands in a shard's halo buffer: its left neighbour's last three rows. -/
def landed (c : Dev nD) : Buf (Elt F) ((hM : Memref sig .tc .vmem S4x3x512 .f32).view.loc (c : Thread nD τ)) :=
  (tailM : Memref sig .tc .vmem S4x3x512 .f32).view.read (Elt F) (xstg m (prv c))

def scrPts (c : Dev nD) (f : Buf (Elt F) ((hM : Memref sig .tc .vmem S4x3x512 .f32).view.loc (c : Thread nD τ))) : sProp 𝕄 :=
  (hM : Memref sig .tc .vmem S4x3x512 .f32).view.loc (c : Thread nD τ) ↦[(hM : Memref sig .tc .vmem S4x3x512 .f32).view.set]{fullShare} f
/-- The lent share of the shard's last three rows. -/
def tailPts (c : Dev nD) : sProp 𝕄 :=
  (tailM : Memref sig .tc .vmem S4x3x512 .f32).view.loc (c : Thread nD τ) ↦[(tailM : Memref sig .tc .vmem S4x3x512 .f32).view.set]{qS} xstg m c

omit [FloatOps F] in
instance scrPts_storable (c : Dev nD) (f) : BI.Storable (upEmb : UEmb _ 𝕄) (scrPts (F := F) c f) := by unfold scrPts; infer_instance
omit [FloatOps F] in
instance tailPts_storable (c : Dev nD) : BI.Storable (upEmb : UEmb _ 𝕄) (tailPts (F := F) m c) := by unfold tailPts; infer_instance

omit [FloatOps F] in
theorem scr_set : (hM : Memref sig .tc .vmem S4x3x512 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The schedule -/

/-- What the right neighbour's signal hands a shard: that neighbour's halo buffer, and that the neighbour's receive
    cell stands at round 0. -/
def barPay (c : Dev nD) : sProp 𝕄 := iprop((∃ f, scrPts (nxt c) f) ∗ reached ER (recvCell (nxt c)) 0)
def recvPay (c : Dev nD) : sProp 𝕄 := scrPts c (landed m c)
def sendPay (c : Dev nD) : sProp 𝕄 := tailPts m c

/-- Which cells have their one duty: barrier and send cells of shards with a right neighbour, receive cells of shards with
    a left one. -/
abbrev HasDuty (g : GSem nD τ sig) : Prop :=
  g.1.2 = .tc ∧ ((g.2 = .reg barS ∧ g.1.1.val < 7) ∨ (g.2 = .dma sendS.sem ∧ g.1.1.val < 7) ∨ (g.2 = .dma recvS.sem ∧ 0 < g.1.1.val))

def haloRd : Rounds.Schedule (GSem nD τ sig) Unit 𝕄 where
  duties g r := if r = 0 ∧ HasDuty g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Unit) :
    BI.Storable (upEmb : UEmb _ 𝕄) ((haloRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar (h : c.val < 7) : (haloRd (F := F) m).duties (barCell c) 0 = {()} := by
  dsimp only [haloRd]; exact if_pos ⟨rfl, rfl, .inl ⟨rfl, h⟩⟩
omit [FloatOps F] in
theorem duties_send (h : c.val < 7) : (haloRd (F := F) m).duties (sendCell c) 0 = {()} := by
  dsimp only [haloRd]; exact if_pos ⟨rfl, rfl, .inr (.inl ⟨rfl, h⟩)⟩
omit [FloatOps F] in
theorem duties_recv (h : 0 < c.val) : (haloRd (F := F) m).duties (recvCell c) 0 = {()} := by
  dsimp only [haloRd]; exact if_pos ⟨rfl, rfl, .inr (.inr ⟨rfl, h⟩)⟩
omit [FloatOps F] in
theorem duties_send_none (h : ¬ c.val < 7) : (haloRd (F := F) m).duties (sendCell c) 0 = ∅ := by
  dsimp only [haloRd]
  refine if_neg fun hh => ?_
  rcases hh.2.2 with h1 | h1 | h1
  · exact send_ne_bar h1.1
  · exact h h1.2
  · exact send_ne_recv h1.1
omit [FloatOps F] in
theorem duties_recv_none (h : ¬ 0 < c.val) : (haloRd (F := F) m).duties (recvCell c) 0 = ∅ := by
  dsimp only [haloRd]
  refine if_neg fun hh => ?_
  rcases hh.2.2 with h1 | h1 | h1
  · exact recv_ne_bar h1.1
  · exact recv_ne_send h1.1
  · exact h h1.2
omit [FloatOps F] in
theorem duties_later (g : GSem nD τ sig) : ∀ r, 1 ≤ r → (haloRd (F := F) m).duties g r = ∅ :=
  fun r hr => by dsimp only [haloRd]; rw [if_neg fun h => by omega]

omit [FloatOps F] in
theorem amount_bar (d : Unit) : (haloRd (F := F) m).amount (barCell c) 0 d = 1 := by dsimp only [haloRd]; exact if_pos rfl
omit [FloatOps F] in
theorem amount_send (d : Unit) : (haloRd (F := F) m).amount (sendCell c) 0 d = N := by dsimp only [haloRd]; exact if_neg send_ne_bar
omit [FloatOps F] in
theorem amount_recv (d : Unit) : (haloRd (F := F) m).amount (recvCell c) 0 d = N := by dsimp only [haloRd]; exact if_neg recv_ne_bar

omit [FloatOps F] in
theorem expect_bar (h : c.val < 7) : (haloRd (F := F) m).expect (barCell c) 0 = 1 := by
  unfold Schedule.expect Schedule.amountOf; rw [duties_bar m c h, Finset.sum_singleton, amount_bar]
omit [FloatOps F] in
theorem expect_send (h : c.val < 7) : (haloRd (F := F) m).expect (sendCell c) 0 = N := by
  unfold Schedule.expect Schedule.amountOf; rw [duties_send m c h, Finset.sum_singleton, amount_send]
omit [FloatOps F] in
theorem expect_recv (h : 0 < c.val) : (haloRd (F := F) m).expect (recvCell c) 0 = N := by
  unfold Schedule.expect Schedule.amountOf; rw [duties_recv m c h, Finset.sum_singleton, amount_recv]

omit [FloatOps F] in
theorem payload_bar (d : Unit) : (haloRd (F := F) m).payload (barCell c) 0 d = barPay c := by dsimp only [haloRd]; rw [if_pos rfl]
omit [FloatOps F] in
theorem payload_send (d : Unit) : (haloRd (F := F) m).payload (sendCell c) 0 d = sendPay m c := by
  dsimp only [haloRd]; rw [if_neg send_ne_bar, if_neg send_ne_recv, if_pos rfl]
omit [FloatOps F] in
theorem payload_recv (d : Unit) : (haloRd (F := F) m).payload (recvCell c) 0 d = recvPay m c := by
  dsimp only [haloRd]; rw [if_neg recv_ne_bar, if_pos rfl]

omit [FloatOps F] in
theorem rest_bar (h : c.val < 7) : bigSep ((haloRd (F := F) m).duties (barCell c) 0 \ ∅) (fun d => (haloRd (F := F) m).payload (barCell c) 0 d) = barPay c := by
  rw [Finset.sdiff_empty, duties_bar m c h, bigSep_singleton, payload_bar]
omit [FloatOps F] in
theorem rest_send (h : c.val < 7) : bigSep ((haloRd (F := F) m).duties (sendCell c) 0 \ ∅) (fun d => (haloRd (F := F) m).payload (sendCell c) 0 d) = sendPay m c := by
  rw [Finset.sdiff_empty, duties_send m c h, bigSep_singleton, payload_send]
omit [FloatOps F] in
theorem rest_recv (h : 0 < c.val) : bigSep ((haloRd (F := F) m).duties (recvCell c) 0 \ ∅) (fun d => (haloRd (F := F) m).payload (recvCell c) 0 d) = recvPay m c := by
  rw [Finset.sdiff_empty, duties_recv m c h, bigSep_singleton, payload_recv]

end Sched

/-! ## What each shard owes at launch; the levels -/

/-- What a shard owes its right neighbour's receive cell (the rows, if there is such a neighbour) and its left
    neighbour's barrier cell (one unit, if there is one). -/
def rAmt (c : Dev nD) : ℕ := if c.val < 7 then N else 0
def bAmt (c : Dev nD) : ℕ := if 0 < c.val then 1 else 0

/-- Summed so that the signal, which comes first, peels the last summand. -/
def O₁ (c : Dev nD) : CellTallies nD τ sig Unit := tallyAt (recvCell (nxt c)) () (rAmt c)
def O₀ (c : Dev nD) : CellTallies nD τ sig Unit := O₁ c + tallyAt (barCell (prv c)) () (bAmt c)

def L (g : GSem nD τ sig) : Finset Unit := if g.1.2 = .tc then {()} else ∅
/-- Barrier cells at 1, receive cells at 2, everything else (staging, send) at 0: a shard waits on its barrier cell while
    it owes a receive cell, and on staging cells while it owes both. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nxt c) ∨ g = barCell (prv c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a shard owes its right neighbour's receive cell only: above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by
      unfold O₁ at hg; rw [tallyAt_apply] at hg
      by_cases h : g = recvCell (nxt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      unfold O₁ at hg; rw [tallyAt_apply] at hg
      by_cases h : g = recvCell (nxt c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev rK : Rect S4x512 := Rect.unit (s := S4x512) ![0, 0] S4x512.size inb_S4x512_S4x512_0_0

/-- What the body loads: the filter, the shard's rows 0 to 511 and 509 to 1023, the halo buffer once the rows have landed. -/
def vK (c : Dev nD) : Vec F S4x512 .f32 := (kM : Memref sig .tc .vmem S4x512 .f32).view.readAt (Elt F) rK.toLoadRect (kstg m c)
def vLo (c : Dev nD) : Vec F S4x512x512 .f32 := (xM : Memref sig .tc .vmem S4x1024x512 .f32).view.readAt (Elt F) rLo.toLoadRect (xstg m c)
def vMid (c : Dev nD) : Vec F S4x515x512 .f32 := (xM : Memref sig .tc .vmem S4x1024x512 .f32).view.readAt (Elt F) rMid.toLoadRect (xstg m c)
def vH (c : Dev nD) : Vec F S4x3x512 .f32 := (hM : Memref sig .tc .vmem S4x3x512 .f32).view.readAt (Elt F) rH.toLoadRect (landed m c)

/-- What it stores: the first half, the second half, and rows 0 to 2 again on a shard with a left neighbour. -/
def pA (c : Dev nD) : Vec F S4x512x512 .bf16 := k0_pay12 (k0_pay9 (vK m c) (vLo m c)) (k0_pay10 (vK m c) (vLo m c)) k0_pay11
def pB (c : Dev nD) : Vec F S4x512x512 .bf16 := k0_pay1 (k0_pay13 (k0_pay8 (vK m c)) (vMid m c)) (k0_pay14 (k0_pay8 (vK m c)) (vMid m c))
def pC (c : Dev nD) : Vec F S4x3x512 .bf16 :=
  k0_pay2 (k0_pay9 (vK m c) (vLo m c)) (k0_pay4 (k0_pay8 (vK m c)) (vH m c)) (k0_pay5 (k0_pay8 (vK m c)) (vH m c)) (k0_pay6 (vH m c)) (k0_pay7 (k0_pay8 (vK m c)))

/-- The result buffer after the body. -/
def outAt (c : Dev nD) : (cc0_stg2_0 : Ref sig .tc).ty.Contents (Elt F) :=
  if 0 < c.val then out3 (pA m c) (pB m c) (pC m c) else out2 (pA m c) (pB m c)

/-- The cells' invariants a shard's body opens, under the names `K` the launch allocated them at: its own three, its
    left neighbour's barrier cell (its signal), its right neighbour's receive cell (its transfer). -/
def invs (K : Dev nD × Fin 3 → ℕ) (c : Dev nD) : sProp 𝕄 :=
  iprop(cellInv ER (haloRd m) (K (c, 0)) (barCell c) ∗ cellInv ER (haloRd m) (K (c, 1)) (sendCell c) ∗ cellInv ER (haloRd m) (K (c, 2)) (recvCell c)
    ∗ cellInv ER (haloRd m) (K (prv c, 0)) (barCell (prv c)) ∗ cellInv ER (haloRd m) (K (nxt c, 2)) (recvCell (nxt c)))

instance invs_persistent (K : Dev nD × Fin 3 → ℕ) (c : Dev nD) : BI.Persistent (invs m K c) := by unfold invs; infer_instance

/-- The exchange's ghost state a shard starts from: the invariants; its positions at round 0 of its three cells; the
    reached-marks of the cells it pays and of its own send and receive cells; the three duty tokens it may pay with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (prv c)) 0 ∗ reached ER (recvCell (nxt c)) 0 ∗ reached ER (sendCell c) 0 ∗ reached ER (recvCell c) 0
    ∗ dutyTok ER (barCell (prv c)) 0 () ∗ dutyTok ER (recvCell (nxt c)) 0 () ∗ dutyTok ER (sendCell c) 0 ())

/-- The credit a shard holds on its own barrier cell (what its right neighbour owes it) and on its own receive cell (what
    its left neighbour owes it). -/
def cbAmt (c : Dev nD) : ℕ := if c.val < 7 then 1 else 0
def crAmt (c : Dev nD) : ℕ := if 0 < c.val then N else 0

def start (c : Dev nD) : sProp 𝕄 :=
  iprop((∃ K, ghost m K c) ∗ cred (tallyAt (barCell c) () (cbAmt c)) ∗ cred (tallyAt (recvCell c) () (crAmt c)) ∗ levAts L lv)

def Φ₀ (c : Dev nD) : sProp 𝕄 := iprop(start m c ∗ ∃ f, scrPts c f)
/-- After the point: the halo buffer at something, the two own cells at zero, closed. -/
def Φ₁ (c : Dev nD) : sProp 𝕄 := iprop((∃ f, scrPts (F := F) c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => kstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () (cbAmt c)) ∗ cred (tallyAt (recvCell c) () (crAmt c)) ∗ levAts L lv ∗ ∃ f, scrPts c f)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (xstg m c) ∗ stg c cc0_stg1_0 (kstg m c) ∗ stg c cc0_stg2_0 (outAt m c))

omit [FloatOps F] in
theorem cond3_eq (c : Dev nD) :
    Scalar.cmpi CmpIPredicate.ne (Scalar.extui (Scalar.cmpi CmpIPredicate.sgt (Scalar.remsi (Scalar.divsi c.word 1#32) 8#32) 0#32)) 0#32 = k0_cond1 c := rfl
omit [FloatOps F] in
theorem cond4_eq (c : Dev nD) :
    Scalar.cmpi CmpIPredicate.ne (Scalar.extui (Scalar.cmpi CmpIPredicate.slt (Scalar.remsi (Scalar.divsi c.word 1#32) 8#32) 7#32)) 0#32 = k0_cond2 c := rfl

/-- The shard's staged rows at the kept share, and the lent share of everything but the last three rows. -/
def keepPts (c : Dev nD) (f : Buf (Elt F) ((c : Thread nD τ).loc cc0_stg0_0)) : sProp 𝕄 :=
  ((c : Thread nD τ).loc cc0_stg0_0) ↦{qK} f
def restPts (c : Dev nD) (f : Buf (Elt F) ((c : Thread nD τ).loc cc0_stg0_0)) : sProp 𝕄 :=
  (tailM : Memref sig .tc .vmem S4x3x512 .f32).view.loc (c : Thread nD τ) ↦[Finset.univ \ (tailM : Memref sig .tc .vmem S4x3x512 .f32).view.set]{qS} f

omit [FloatOps F] in
/-- The staged shard cut in three: one half share of all of it, and the other half share cut into the last three rows and
    the rest; and put together again. -/
theorem x_split (c : Dev nD) :
    ((((c : Thread nD τ).loc cc0_stg0_0) ↦{fullShare} xstg m c : sProp 𝕄))
      ⊢ iprop(keepPts c (xstg m c) ∗ tailPts m c ∗ restPts c (xstg m c)) :=
  (pointsTo_share (PosShare.mem_left_op_right fullShare)).1.trans (sep_mono_right (pointsTo_split_subset (Finset.subset_univ _)).1)
omit [FloatOps F] in
theorem x_join (c : Dev nD) :
    iprop(keepPts c (xstg m c) ∗ tailPts m c ∗ restPts c (xstg m c))
      ⊢ ((((c : Thread nD τ).loc cc0_stg0_0) ↦{fullShare} xstg m c : sProp 𝕄)) :=
  (sep_mono_right (pointsTo_split_subset (Finset.subset_univ _)).2).trans (pointsTo_share (PosShare.mem_left_op_right fullShare)).2

/-- The transfer of the last three rows into the right neighbour's halo buffer, at the exchange's cells. -/
theorem wp_send_halo (c n : Dev nD) (hR : c.val < 7) (hn : n = nxt c)
    {hsc : (hM : Memref sig (Dev.tc n : Thread nD τ).2.kind .vmem S4x3x512 .f32).view.ref.isScScratch = false}
    {hsrc : (tailM : Memref sig .tc .vmem S4x3x512 .f32).view.WordExact} {hdst : (hM : Memref sig .tc .vmem S4x3x512 .f32).view.WordExact}
    {hsem : DmaTarget.Typed .vmem (.dma recvS.sem) (.remote (Dev.tc n : Thread nD τ) (hM : Memref sig .tc .vmem S4x3x512 .f32) (.dma sendS.sem) hsc)}
    {α : Type} {Q : α → sProp 𝕄} {k : PUnit → Prog (TpuEff nD τ sig (Elt F) Λ₀ .tc) α}
    (fn : Buf (Elt F) ((hM : Memref sig .tc .vmem S4x3x512 .f32).view.loc (nxt c : Thread nD τ))) (W : Waits sig Unit) :
    iprop(cellInv ER (haloRd m) (K (c, 1)) (sendCell c) ∗ cellInv ER (haloRd m) (K (nxt c, 2)) (recvCell (nxt c))
        ∗ tailPts m c ∗ scrPts (nxt c) fn
        ∗ owes (c : Thread nD τ) (tallyAt (recvCell (nxt c)) () N) W
        ∗ dutyTok ER (sendCell c) 0 () ∗ reached ER (sendCell c) 0
        ∗ dutyTok ER (recvCell (nxt c)) 0 () ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma tailM (.remote (Dev.tc n : Thread nD τ) hM (.dma sendS.sem) hsc) (.dma recvS.sem) hsrc hdst hsem) k) Q) := by
  subst hn
  unfold tailPts scrPts
  exact Rounds.wp_send_pointsTo 𝒱₀ ER (haloRd m) (c : Thread nD τ) none (κ₁ := K (c, 1)) (κ₂ := K (nxt c, 2))
    (r₁ := 0) (r₂ := 0) (d₁ := ()) (d₂ := ()) (fd := fn)
    (by rw [duties_send m c hR]; exact Finset.mem_singleton_self _)
    (by rw [duties_recv m (nxt c) (by rw [nxt_val c hR]; omega)]; exact Finset.mem_singleton_self _)
    () () N rfl (amount_send m c ()) (amount_recv m (nxt c) ()) 0 (by rw [zero_add]) (W := W)
    (by rw [payload_send]; unfold sendPay tailPts; exact BI.Entails.refl _)
    (by rw [payload_recv]; unfold recvPay scrPts; rw [write_halo, landed, prv_nxt])

omit [FloatOps F] in
theorem duties_recv_never (c : Dev nD) (h : ¬ 0 < c.val) : ∀ r, 0 ≤ r → (haloRd (F := F) m).duties (recvCell c) r = ∅ := fun r _ => by
  cases r with
  | zero => exact duties_recv_none m c h
  | succ r => exact duties_later m _ _ (by omega)
omit [FloatOps F] in
theorem duties_send_never (c : Dev nD) (h : ¬ c.val < 7) : ∀ r, 0 ≤ r → (haloRd (F := F) m).duties (sendCell c) r = ∅ := fun r _ => by
  cases r with
  | zero => exact duties_send_none m c h
  | succ r => exact duties_later m _ _ (by omega)

omit [FloatOps F] in
theorem xM_pts (c : Dev nD) (q : PosShare TreeShare) (f : Buf (Elt F) ((c : Thread nD τ).loc cc0_stg0_0)) :
    ((((c : Thread nD τ).loc cc0_stg0_0) ↦{q} f : sProp 𝕄))
      = ((xM : Memref sig .tc .vmem S4x1024x512 .f32).view.loc (c : Thread nD τ) ↦[(xM : Memref sig .tc .vmem S4x1024x512 .f32).view.set]{q} f) := by rw [View.set_whole]
omit [FloatOps F] in
theorem kM_pts (c : Dev nD) (q : PosShare TreeShare) (f : Buf (Elt F) ((c : Thread nD τ).loc cc0_stg1_0)) :
    ((((c : Thread nD τ).loc cc0_stg1_0) ↦{q} f : sProp 𝕄))
      = ((kM : Memref sig .tc .vmem S4x512 .f32).view.loc (c : Thread nD τ) ↦[(kM : Memref sig .tc .vmem S4x512 .f32).view.set]{q} f) := by rw [View.set_whole]
omit [FloatOps F] in
theorem oM_pts (c : Dev nD) (q : PosShare TreeShare) (f : Buf (Elt F) ((c : Thread nD τ).loc cc0_stg2_0)) :
    ((((c : Thread nD τ).loc cc0_stg2_0) ↦{q} f : sProp 𝕄))
      = ((oM : Memref sig .tc .vmem S4x1024x512 .bf16).view.loc (c : Thread nD τ) ↦[(oM : Memref sig .tc .vmem S4x1024x512 .bf16).view.set]{q} f) := by rw [View.set_whole]

/-! The schedule's payloads spelt as the points-to themselves, the signalled barrier cell's already resolved at the
    signaller (`nxt (prv c) = c`). -/
omit [FloatOps F] in
theorem payload_barP (c : Dev nD) : (haloRd (F := F) m).payload (barCell (prv c)) 0 ()
    = iprop((∃ f, ((hM : Memref sig .tc .vmem S4x3x512 .f32).view.loc (c : Thread nD τ) ↦[(hM : Memref sig .tc .vmem S4x3x512 .f32).view.set]{fullShare} f)) ∗ reached ER (recvCell c) 0) := by
  rw [payload_bar]; unfold barPay scrPts; rw [nxt_prv]
omit [FloatOps F] in
theorem payload_barN (c : Dev nD) : (haloRd (F := F) m).payload (barCell c) 0 ()
    = iprop((∃ f, ((hM : Memref sig .tc .vmem S4x3x512 .f32).view.loc (nxt c : Thread nD τ) ↦[(hM : Memref sig .tc .vmem S4x3x512 .f32).view.set]{fullShare} f)) ∗ reached ER (recvCell (nxt c)) 0) := by
  rw [payload_bar]; unfold barPay scrPts; rfl
omit [FloatOps F] in
theorem payload_sendE (c : Dev nD) : (haloRd (F := F) m).payload (sendCell c) 0 ()
    = ((tailM : Memref sig .tc .vmem S4x3x512 .f32).view.loc (c : Thread nD τ) ↦[(tailM : Memref sig .tc .vmem S4x3x512 .f32).view.set]{qS} xstg m c) := by
  rw [payload_send]; rfl
omit [FloatOps F] in
theorem payload_recvE (c : Dev nD) : (haloRd (F := F) m).payload (recvCell c) 0 ()
    = ((hM : Memref sig .tc .vmem S4x3x512 .f32).view.loc (c : Thread nD τ) ↦[(hM : Memref sig .tc .vmem S4x3x512 .f32).view.set]{fullShare} landed m c) := by
  rw [payload_recv]; rfl

attribute [local sl_canon] dev1_eq dev2_eq
attribute [local sl_rounds high] payload_barP
attribute [local sl_rounds] payload_barN payload_sendE payload_recvE duties_bar duties_send duties_recv amount_bar amount_send amount_recv
  expect_bar expect_send expect_recv

set_option maxHeartbeats 1600000 in
/-- The body on a shard with both neighbours: the local steps and the waits run symbolically, the transfer by its rule. -/
theorem sound_body_mid (c : Dev nD) (hL : 0 < c.val) (hR : c.val < 7) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hc1 : k0_cond1 c = 1#1 := (cond1_iff c).mpr hL
  have hc2 : k0_cond2 c = 1#1 := (cond2_iff c).mpr hR
  have hc3 := (cond3_eq c).trans hc1
  have hc4 := (cond4_eq c).trans hc2
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, storeSubelements, Prog.lift, Prog.bind_op, Prog.bind_ret, Prog.pure_eq_ret, wp_deviceId, dif_pos hc1, dif_pos hc2, dif_pos hc3, dif_pos hc4]
  unfold bodyPre ghost invs
  iintro ⟨⟨⟨⟨⟨#HIbar, #HIsnd, #HIrcv, #HIbarP, #HIrcvN⟩, HatB, HatS, HatV, #HrBP, #HrVN, #HrS, #HrV, HtBP, HtVN, HtS⟩, HcB, HcV, #Hlev, ⟨%f0, Hscr⟩⟩,
    Ho, ⟨%d0, %g0, %hg0, Hx⟩, ⟨%d1, %g1, %hg1, Hk1⟩, ⟨%d2, %g2, %hg2, Hout⟩⟩, HK⟩
  have hx : g0 = xstg m c := by rw [hg0]; unfold Dat.before; rw [if_pos (fetch_0 t₀)]; rfl
  subst hx
  have hk : g1 = kstg m c := by rw [hg1]; unfold Dat.before; rw [if_pos (fetch_1 t₀)]; rfl
  subst hk
  unfold Dat.owesAt Pipeline.owesWithin
  icases Ho with ⟨%W, %hW, HO⟩
  rw [show (dats m 0 c).owed t₀.castSucc = O₀ c from rfl]
  have hb1 : bAmt c = 1 := if_pos hL
  have hr1 : rAmt c = N := if_pos hR
  have hcb : cbAmt c = 1 := if_pos hR
  have hcr : crAmt c = N := if_pos hL
  have hO₀ : O₀ c = O₁ c + tallyAt (barCell (prv c)) () 1 := by unfold O₀; rw [hb1]
  have hO₁ : O₁ c = tallyAt (recvCell (nxt c)) () N := by unfold O₁; rw [hr1]
  rw [hcb, hcr]
  simp only [dev1_eq c hc1]
  have hpv : (prv c).val < 7 := by rw [prv_val c hL]; omega
  have hnv : 0 < (nxt c).val := by rw [nxt_val c hR]; omega
  rw [hO₀, hO₁]
  have hmw : (levAts L lv : sProp 𝕄) ⊢ MayWait (c : Thread nD τ) (.reg barS) () (tallyAt (recvCell (nxt c)) () N) := hO₁ ▸ mayWait_bar c
  -- the staged shard cut into the kept share and the lent rows; every buffer through its memref's view
  ihave Hx3 := (x_split m c) $$ Hx
  icases Hx3 with ⟨Hxk, Hxt, Hxr⟩
  unfold keepPts tailPts
  ihave Hxk := (Entails.of_eq (xM_pts c qK (xstg m c))) $$ Hxk
  ihave Hk1 := (Entails.of_eq (kM_pts c fullShare (kstg m c))) $$ Hk1
  ihave Hout := (Entails.of_eq (oM_pts c fullShare g2)) $$ Hout
  unfold scrPts
  -- the signal, the loads, the first store and the wait for the right neighbour's unit
  sl_exec (disch := first | omega | assumption)
  -- the transfer, by the rule itself: the lent share of the last three rows goes with it
  iapply (wp_send_halo m K c _ hR (dev2_eq c hc2) HatB_pay1_v (insert (SemLoc.reg barS, ()) W)) $$ [Hxt HatB_pay1 HO HtS HtVN]
  · isplitr; · iexact HIsnd
    isplitr; · iexact HIrcvN
    isplitl [Hxt]; · unfold tailPts; iexact Hxt
    isplitl [HatB_pay1]; · unfold scrPts; iexact HatB_pay1
    isplitl [HO]; · iexact HO
    isplitl [HtS]; · iexact HtS
    isplitr; · iexact HrS
    isplitl [HtVN]; · iexact HtVN
    iexact HrVN
  iintro ⟨HcS, HO⟩
  -- the loads, the stores and the two waits that are left
  sl_exec (disch := first | omega | assumption)
  -- the lent rows back: the staged shard whole again
  ihave Hxk := (Entails.of_eq (xM_pts c qK (xstg m c)).symm) $$ Hxk
  ihave Hx := (x_join m c) $$ [Hxk HatS_pay1 Hxr]
  · isplitl [Hxk]; · unfold keepPts; iexact Hxk
    isplitl [HatS_pay1]; · unfold tailPts; iexact HatS_pay1
    iexact Hxr
  imod (Rounds.cell_close ER (haloRd m) (Set.mem_univ (K (c, 1))) (fun h => h) (R := 0 + 1) (duties_later m (sendCell c))) $$ [HatS] with HzS
  · isplitr; · iexact HIsnd
    iexact HatS
  imod (Rounds.cell_close ER (haloRd m) (Set.mem_univ (K (c, 2))) (fun h => h) (R := 0 + 1) (duties_later m (recvCell c))) $$ [HatV] with HzV
  · isplitr; · iexact HIrcv
    iexact HatV
  rw [wp_ret]; imodintro
  iapply HK
  unfold bodyPost Φ₁ Dat.owesAt Pipeline.owesWithin
  rw [show (dats m 0 c).owed t₀.succ = 0 from rfl]
  isplitl [HatV_pay1 HzS HzV]
  · isplitl [HatV_pay1]; · iexists _; unfold scrPts; iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  ihave Hk1 := (Entails.of_eq (kM_pts c fullShare (kstg m c)).symm) $$ Hk1
  isplitl [Hk1]
  · iexists _; isplitr; · (ipureintro; rfl)
    iexact Hk1
  ihave Hout := (Entails.of_eq (oM_pts c fullShare _).symm) $$ Hout
  iexists _; isplitr
  swap; · iexact Hout
  ipureintro
  sl_unfold_run_names
  unfold View.readCov
  simp only [View.writes_cons, View.writes_nil]
  unfold outAt; rw [if_pos hL]
  -- rows 0 to 3 are read back off the two half stores, whatever lay under them
  have e1 : W2 g2 (pA m c) (pB m c) = out2 (pA m c) (pB m c) := W2_eq _ _ _
  have e2 : W2 (View.junk (oM : Memref sig .tc .vmem S4x1024x512 .bf16).view) (pA m c) (pB m c) = out2 (pA m c) (pB m c) := W2_eq _ _ _
  show View.write (Elt F) ((oM : Memref sig .tc .vmem S4x1024x512 .bf16).access rFix) (W2 g2 (pA m c) (pB m c))
      (updateSlice ((oM : Memref sig .tc .vmem S4x1024x512 .bf16).view.readAt (Elt F) rFix.toLoadRect
        (W2 (View.junk (oM : Memref sig .tc .vmem S4x1024x512 .bf16).view) (pA m c) (pB m c))) (pC m c) ![0, 0, 0] slices_S4x4x512_S4x3x512_0_0_0) Finset.univ = _
  rw [e1, e2]
  exact W3_eq _ _ _

set_option maxHeartbeats 1600000 in
/-- The body on the first shard: no left neighbour, so no signal, no landing, and the halo buffer stays untouched. -/
theorem sound_body_first (c : Dev nD) (hL : ¬ 0 < c.val) (hR : c.val < 7) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hc1 : ¬ k0_cond1 c = 1#1 := fun h => hL ((cond1_iff c).mp h)
  have hc2 : k0_cond2 c = 1#1 := (cond2_iff c).mpr hR
  have hc3 : ¬ _ = 1#1 := fun h => hc1 ((cond3_eq c).symm.trans h)
  have hc4 := (cond4_eq c).trans hc2
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, storeSubelements, Prog.lift, Prog.bind_op, Prog.bind_ret, Prog.pure_eq_ret, wp_deviceId, dif_neg hc1, dif_pos hc2, dif_neg hc3, dif_pos hc4]
  unfold bodyPre ghost invs
  iintro ⟨⟨⟨⟨⟨#HIbar, #HIsnd, #HIrcv, #HIbarP, #HIrcvN⟩, HatB, HatS, HatV, #HrBP, #HrVN, #HrS, #HrV, -, HtVN, HtS⟩, HcB, -, #Hlev, Hscr⟩,
    Ho, ⟨%d0, %g0, %hg0, Hx⟩, ⟨%d1, %g1, %hg1, Hk1⟩, ⟨%d2, %g2, %hg2, Hout⟩⟩, HK⟩
  have hx : g0 = xstg m c := by rw [hg0]; unfold Dat.before; rw [if_pos (fetch_0 t₀)]; rfl
  subst hx
  have hk : g1 = kstg m c := by rw [hg1]; unfold Dat.before; rw [if_pos (fetch_1 t₀)]; rfl
  subst hk
  unfold Dat.owesAt Pipeline.owesWithin
  icases Ho with ⟨%W, %hW, HO⟩
  rw [show (dats m 0 c).owed t₀.castSucc = O₀ c from rfl]
  have hb0 : bAmt c = 0 := if_neg hL
  have hr1 : rAmt c = N := if_pos hR
  have hcb : cbAmt c = 1 := if_pos hR
  have hO₀ : O₀ c = O₁ c := by unfold O₀; rw [hb0, tallyAt_zero, add_zero]
  have hO₁ : O₁ c = tallyAt (recvCell (nxt c)) () N := by unfold O₁; rw [hr1]
  rw [hcb, hO₀, hO₁]
  have hnv : 0 < (nxt c).val := by rw [nxt_val c hR]; omega
  have hmw : (levAts L lv : sProp 𝕄) ⊢ MayWait (c : Thread nD τ) (.reg barS) () (tallyAt (recvCell (nxt c)) () N) := hO₁ ▸ mayWait_bar c
  -- the staged shard cut into the kept share and the lent rows; every buffer through its memref's view
  ihave Hx3 := (x_split m c) $$ Hx
  icases Hx3 with ⟨Hxk, Hxt, Hxr⟩
  unfold keepPts tailPts
  ihave Hxk := (Entails.of_eq (xM_pts c qK (xstg m c))) $$ Hxk
  ihave Hk1 := (Entails.of_eq (kM_pts c fullShare (kstg m c))) $$ Hk1
  ihave Hout := (Entails.of_eq (oM_pts c fullShare g2)) $$ Hout
  unfold scrPts
  -- the loads, the first store and the wait for the right neighbour's unit
  sl_exec (disch := first | omega | assumption)
  -- the transfer, by the rule itself: the lent share of the last three rows goes with it
  iapply (wp_send_halo m K c _ hR (dev2_eq c hc2) HatB_pay1_v (insert (SemLoc.reg barS, ()) W)) $$ [Hxt HatB_pay1 HO HtS HtVN]
  · isplitr; · iexact HIsnd
    isplitr; · iexact HIrcvN
    isplitl [Hxt]; · unfold tailPts; iexact Hxt
    isplitl [HatB_pay1]; · unfold scrPts; iexact HatB_pay1
    isplitl [HO]; · iexact HO
    isplitl [HtS]; · iexact HtS
    isplitr; · iexact HrS
    isplitl [HtVN]; · iexact HtVN
    iexact HrVN
  iintro ⟨HcS, HO⟩
  -- the load, the second store and the wait on the send cell
  sl_exec (disch := first | omega | assumption)
  -- the lent rows back: the staged shard whole again
  ihave Hxk := (Entails.of_eq (xM_pts c qK (xstg m c)).symm) $$ Hxk
  ihave Hx := (x_join m c) $$ [Hxk HatS_pay1 Hxr]
  · isplitl [Hxk]; · unfold keepPts; iexact Hxk
    isplitl [HatS_pay1]; · unfold tailPts; iexact HatS_pay1
    iexact Hxr
  imod (Rounds.cell_close ER (haloRd m) (Set.mem_univ (K (c, 1))) (fun h => h) (R := 0 + 1) (duties_later m (sendCell c))) $$ [HatS] with HzS
  · isplitr; · iexact HIsnd
    iexact HatS
  imod (Rounds.cell_close ER (haloRd m) (Set.mem_univ (K (c, 2))) (fun h => h) (R := 0) (duties_recv_never m c hL)) $$ [HatV] with HzV
  · isplitr; · iexact HIrcv
    iexact HatV
  rw [wp_ret]; imodintro
  iapply HK
  unfold bodyPost Φ₁ Dat.owesAt Pipeline.owesWithin
  rw [show (dats m 0 c).owed t₀.succ = 0 from rfl]
  isplitl [Hscr HzS HzV]
  · isplitl [Hscr]; · iexact Hscr
    isplitl [HzS]; · iexact HzS
    iexact HzV
  isplitl [HO]
  · iexists (insert (SemLoc.dma sendS.sem, ()) (insert (SemLoc.reg barS, ()) W))
    isplitr; · ipureintro; exact fun _ _ => Or.inl trivial
    iexact HO
  isplitl [Hx]
  · iexists _; isplitr; · (ipureintro; rfl)
    iexact Hx
  ihave Hk1 := (Entails.of_eq (kM_pts c fullShare (kstg m c)).symm) $$ Hk1
  isplitl [Hk1]
  · iexists _; isplitr; · (ipureintro; rfl)
    iexact Hk1
  ihave Hout := (Entails.of_eq (oM_pts c fullShare _).symm) $$ Hout
  iexists _; isplitr
  swap; · iexact Hout
  ipureintro
  sl_unfold_run_names
  simp only [View.writes_cons, View.writes_nil]
  unfold outAt; rw [if_neg hL]
  exact W2_eq g2 (pA m c) (pB m c)

set_option maxHeartbeats 1600000 in
/-- The body on the last shard: no right neighbour, so no wait for a unit, no transfer and no send wait. -/
theorem sound_body_last (c : Dev nD) (hL : 0 < c.val) (hR : ¬ c.val < 7) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hc1 : k0_cond1 c = 1#1 := (cond1_iff c).mpr hL
  have hc2 : ¬ k0_cond2 c = 1#1 := fun h => hR ((cond2_iff c).mp h)
  have hc3 := (cond3_eq c).trans hc1
  have hc4 : ¬ _ = 1#1 := fun h => hc2 ((cond4_eq c).symm.trans h)
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, storeSubelements, Prog.lift, Prog.bind_op, Prog.bind_ret, Prog.pure_eq_ret, wp_deviceId, dif_pos hc1, dif_neg hc2, dif_pos hc3, dif_neg hc4]
  unfold bodyPre ghost invs
  iintro ⟨⟨⟨⟨⟨#HIbar, #HIsnd, #HIrcv, #HIbarP, #HIrcvN⟩, HatB, HatS, HatV, #HrBP, #HrVN, #HrS, #HrV, HtBP, -, -⟩, -, HcV, #Hlev, ⟨%f0, Hscr⟩⟩,
    Ho, ⟨%d0, %g0, %hg0, Hx⟩, ⟨%d1, %g1, %hg1, Hk1⟩, ⟨%d2, %g2, %hg2, Hout⟩⟩, HK⟩
  have hx : g0 = xstg m c := by rw [hg0]; unfold Dat.before; rw [if_pos (fetch_0 t₀)]; rfl
  subst hx
  have hk : g1 = kstg m c := by rw [hg1]; unfold Dat.before; rw [if_pos (fetch_1 t₀)]; rfl
  subst hk
  unfold Dat.owesAt Pipeline.owesWithin
  icases Ho with ⟨%W, %hW, HO⟩
  rw [show (dats m 0 c).owed t₀.castSucc = O₀ c from rfl]
  have hb1 : bAmt c = 1 := if_pos hL
  have hr0 : rAmt c = 0 := if_neg hR
  have hcr : crAmt c = N := if_pos hL
  have hO₁ : O₁ c = 0 := by unfold O₁; rw [hr0, tallyAt_zero]
  have hO₀ : O₀ c = 0 + tallyAt (barCell (prv c)) () 1 := by unfold O₀; rw [hb1, hO₁]
  rw [hcr, hO₀]
  simp only [dev1_eq c hc1]
  have hpv : (prv c).val < 7 := by have h8 : c.val < 8 := c.isLt; rw [prv_val c hL]; omega
  ihave Hx := (Entails.of_eq (xM_pts c fullShare (xstg m c))) $$ Hx
  ihave Hk1 := (Entails.of_eq (kM_pts c fullShare (kstg m c))) $$ Hk1
  ihave Hout := (Entails.of_eq (oM_pts c fullShare g2)) $$ Hout
  unfold scrPts
  -- the whole body: the signal, the loads and stores, the wait on the receive cell
  sl_exec (disch := first | omega | assumption)
  imod (Rounds.cell_close ER (haloRd m) (Set.mem_univ (K (c, 1))) (fun h => h) (R := 0) (duties_send_never m c hR)) $$ [HatS] with HzS
  · isplitr; · iexact HIsnd
    iexact HatS
  imod (Rounds.cell_close ER (haloRd m) (Set.mem_univ (K (c, 2))) (fun h => h) (R := 0 + 1) (duties_later m (recvCell c))) $$ [HatV] with HzV
  · isplitr; · iexact HIrcv
    iexact HatV
  rw [wp_ret]; imodintro
  iapply HK
  unfold bodyPost Φ₁ Dat.owesAt Pipeline.owesWithin
  rw [show (dats m 0 c).owed t₀.succ = 0 from rfl]
  isplitl [HatV_pay1 HzS HzV]
  · isplitl [HatV_pay1]; · iexists _; unfold scrPts; iexact HatV_pay1
    isplitl [HzS]; · iexact HzS
    iexact HzV
  isplitl [HO]
  · iexists (insert (SemLoc.dma recvS.sem, ()) W)
    isplitr; · ipureintro; exact fun _ _ => Or.inl trivial
    iexact HO
  ihave Hx := (Entails.of_eq (xM_pts c fullShare (xstg m c)).symm) $$ Hx
  isplitl [Hx]
  · iexists _; isplitr; · (ipureintro; rfl)
    iexact Hx
  ihave Hk1 := (Entails.of_eq (kM_pts c fullShare (kstg m c)).symm) $$ Hk1
  isplitl [Hk1]
  · iexists _; isplitr; · (ipureintro; rfl)
    iexact Hk1
  ihave Hout := (Entails.of_eq (oM_pts c fullShare _).symm) $$ Hout
  iexists _; isplitr
  swap; · iexact Hout
  ipureintro
  sl_unfold_run_names
  unfold View.readCov
  simp only [View.writes_cons, View.writes_nil]
  unfold outAt; rw [if_pos hL]
  -- rows 0 to 3 are read back off the two half stores, whatever lay under them
  have e1 : W2 g2 (pA m c) (pB m c) = out2 (pA m c) (pB m c) := W2_eq _ _ _
  have e2 : W2 (View.junk (oM : Memref sig .tc .vmem S4x1024x512 .bf16).view) (pA m c) (pB m c) = out2 (pA m c) (pB m c) := W2_eq _ _ _
  show View.write (Elt F) ((oM : Memref sig .tc .vmem S4x1024x512 .bf16).access rFix) (W2 g2 (pA m c) (pB m c))
      (updateSlice ((oM : Memref sig .tc .vmem S4x1024x512 .bf16).view.readAt (Elt F) rFix.toLoadRect
        (W2 (View.junk (oM : Memref sig .tc .vmem S4x1024x512 .bf16).view) (pA m c) (pB m c))) (pC m c) ![0, 0, 0] slices_S4x4x512_S4x3x512_0_0_0) Finset.univ = _
  rw [e1, e2]
  exact W3_eq _ _ _

/-- The body on any shard. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  by_cases hL : 0 < c.val
  · by_cases hR : c.val < 7
    · exact sound_body_mid m K c hL hR Kt
    · exact sound_body_last m K c hL hR Kt
  · exact sound_body_first m K c hL (by omega) Kt

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on shard `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hk1, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hk1] <;> iassumption
  · iintro H; iexact H

end Body

end Cert.KernelIdeal.Proto

end
-- ==== Proof.Run.lean ====
/-
  The launch of the halo exchange on the eight shards, for any float instance, and what every shard's arrays hold when
  every fair execution has ended: the result array at `outAt`, the two argument arrays as they were.
-/
import proofs.«900528_g7700000000000529_dist_gconv1d_seqshard_i_b4_s1024_c512_v7x_i8_bf16_1_alg».proof.Proof.Proto

noncomputable section

namespace Cert.KernelIdeal.Run

open Cert.KernelIdeal Cert.KernelIdeal.Gen Cert.KernelIdeal.Stores Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The exchange's cells: three per shard. -/
def lineCells : Finset (GSem nD τ sig) := Finset.univ.map ⟨kcell, kcell_injective⟩

/-- A shard's own cells' duty tokens as minted: one per cell, for its one duty of round 0. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def lineToks : Finset (GSem nD τ sig × ℕ × Unit) := Finset.univ.map ⟨tokOf, tokOf_injective⟩

def u₀ : UU :=
  (initOf (Pipeline.cells cfgs cellOf_inj) (Pipeline.launchToks cfgs cellOf_inj), initOf lineCells lineToks)

/-- The duty tokens of shard `c`'s own cells. -/
def toks (c : Dev nD) : sProp 𝕄 :=
  iprop(dutyTok ER (barCell c) 0 () ∗ dutyTok ER (sendCell c) 0 () ∗ dutyTok ER (recvCell c) 0 ())

/-- What the launch element deals shard `c`. -/
def G (c : Dev nD) : sProp 𝕄 :=
  iprop((bigSep Finset.univ fun k : Fin 3 => roundState ER (haloRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_line : BI.own (ER (initOf lineCells lineToks)) ⊢ (|==> bigSep Finset.univ (G m) : sProp 𝕄) := by
  have hX (Φ : GSem nD τ sig → sProp 𝕄) : bigSep lineCells Φ = bigSep Finset.univ fun c : Dev nD => bigSep Finset.univ fun k : Fin 3 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin3]; rfl
  iintro HX
  imod (Rounds.fund ER (haloRd m) lineCells lineToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (haloRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (haloRd m) (K ck) (kcell ck) : sProp 𝕄)) ⊢ cellInv ER (haloRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with shard `c`: its positions, and the tokens of the duties IT pays: its left neighbour's barrier cell, its
    right neighbour's receive cell, its own send cell. -/
def payToks (c : Dev nD) : sProp 𝕄 :=
  iprop(dutyTok ER (barCell (prv c)) 0 () ∗ dutyTok ER (recvCell (nxt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost Proto.invs
  iintro ⟨⟨#HI, #HR⟩, ⟨HaB, HaS, HaV⟩, HtBP, HtVN, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (prv c, 0)); iexact HI
    iapply (inv_at m K (nxt c, 2)); iexact HI
  isplitl [HaB]; · iexact HaB
  isplitl [HaS]; · iexact HaS
  isplitl [HaV]; · iexact HaV
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtBP]; · iexact HtBP
  isplitl [HtVN]; · iexact HtVN
  iexact HtS

/-- The tokens dealt along the line: a barrier cell's token one shard up (to `nxt`), a receive cell's one shard down
    (to `prv`), a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv ring.symm (fun c : Dev nD => (dutyTok ER (barCell c) 0 () : sProp 𝕄)),
    bigSep_univ_equiv ring (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (haloRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every shard at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What shard `d` owes shard `c`'s barrier cell: its one unit if `d` is `c`'s right neighbour (and has a left one). -/
theorem owed_bar (d c : Dev nD) : O₀ d (barCell c) () = if d = nxt c then bAmt d else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = nxt c
  · subst h; rw [prv_nxt, if_pos ⟨rfl, rfl⟩, if_pos rfl]
  · rw [if_neg (fun ⟨h1, _⟩ => h (by rw [← nxt_prv d]; exact congrArg nxt (bar_eq_iff.mp h1).symm)), if_neg h]

/-- What shard `d` owes shard `c`'s receive cell: the rows if `d` is `c`'s left neighbour (and has a right one). -/
theorem owed_recv (d c : Dev nD) : O₀ d (recvCell c) () = if d = prv c then rAmt d else 0 := by
  unfold O₀ O₁
  rw [Pi.add_apply, Finsupp.add_apply, tallyAt_apply,
    tallyAt_ne_cell (fun h => recv_ne_bar (congrArg Prod.snd h)), Finsupp.zero_apply, Nat.add_zero]
  by_cases h : d = prv c
  · subst h; rw [nxt_prv, if_pos ⟨rfl, rfl⟩, if_pos rfl]
  · rw [if_neg (fun ⟨h1, _⟩ => h (by rw [← prv_nxt d]; exact congrArg prv (recv_eq_iff.mp h1).symm)), if_neg h]

/-- A shard's right neighbour has a left neighbour exactly when the shard has a right one; -/
theorem bAmt_nxt (c : Dev nD) : bAmt (nxt c) = cbAmt c := by
  have h : 0 < (nxt c).val ↔ c.val < 7 := by revert c; decide
  unfold bAmt cbAmt
  by_cases hc : c.val < 7
  · rw [if_pos (h.mpr hc), if_pos hc]
  · rw [if_neg (fun h' => hc (h.mp h')), if_neg hc]
/-- its left neighbour has a right one exactly when the shard has a left one. -/
theorem rAmt_prv (c : Dev nD) : rAmt (prv c) = crAmt c := by
  have h : (prv c).val < 7 ↔ 0 < c.val := by revert c; decide
  unfold rAmt crAmt
  by_cases hc : 0 < c.val
  · rw [if_pos (h.mpr hc), if_pos hc]
  · rw [if_neg (fun h' => hc (h.mp h')), if_neg hc]

theorem launch_bar (c : Dev nD) :
    tallyOn (barCell c) (launchCredit (Pipeline.owing O₀) 0 (barCell c)) = (tallyAt (barCell c) () (cbAmt c) : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nxt c) fun d => bAmt d, if_pos (Finset.mem_univ _), bAmt_nxt]

theorem launch_recv (c : Dev nD) :
    tallyOn (recvCell c) (launchCredit (Pipeline.owing O₀) 0 (recvCell c)) = (tallyAt (recvCell c) () (crAmt c) : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (prv c) fun d => rAmt d, if_pos (Finset.mem_univ _), rAmt_prv]

theorem creds (c : Dev nD) :
    (Pipeline.launchCred O₀ c : sProp 𝕄) ⊢ iprop(cred (tallyAt (barCell c) () (cbAmt c)) ∗ cred (tallyAt (recvCell c) () (crAmt c))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- What the pipeline's arrays hold after the last point. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: every weakly fair
    execution of @main terminates, and every final state has each shard's three arrays at the computed contents. -/
theorem run_main : θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_line m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The two argument arrays hold what they held; the result array holds the body's result. -/
theorem finalA_x (c : Dev nD) : finalA m c (0 : Fin 3) = m ((c : Thread nD τ).loc main_arg0) := by
  exact (dats (F := F) m 0 c).arrAt_in (0 : Fin 3) rfl _
theorem finalA_k (c : Dev nD) : finalA m c (1 : Fin 3) = m ((c : Thread nD τ).loc main_arg1) := by
  exact (dats (F := F) m 0 c).arrAt_in (1 : Fin 3) rfl _
theorem finalA_out (c : Dev nD) : finalA m c (2 : Fin 3) = outAt m c := by
  have h := (dats (F := F) m 0 c).read_blk_arrAt_eq_flushed (2 : Fin 3)
    (fun t t' _ _ hne => absurd ((fin_N t).trans (fin_N t').symm) hne) cfg0.N t₀ t₀.isLt (flush0_2 t₀)
  funext i
  have hi := congrFun h i
  refine Eq.trans ?_ (hi.trans ?_)
  · unfold finalA
    symm
    refine congrArg ((dats (F := F) m 0 c).arrAt (2 : Fin 3) cfg0.N) (funext fun a => Fin.ext ?_)
    match a with
    | ⟨0, _⟩ => show 0 * 4 + 1 * (i 0).val = (i 0).val; omega
    | ⟨1, _⟩ => show 0 * 1024 + 1 * (i 1).val = (i 1).val; omega
    | ⟨2, _⟩ => show 0 * 512 + 1 * (i 2).val = (i 2).val; omega
  · rfl

/-- The run in the shape the claims are stated in. -/
theorem run : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun r h c => ⟨(h c (2 : Fin 3)).trans (finalA_out m c), (h c (0 : Fin 3)).trans (finalA_x m c),
    (h c (1 : Fin 3)).trans (finalA_k m c)⟩) (run_main m ρ)

end Cert.KernelIdeal.Run

end
-- ==== Proof.StoresBits.lean ====
/-
  The staging buffers read and written at an index, for any float instance.

  The body loads rows 0 to 511 and rows 509 to 1023 of the shard, sends its rows 1021 to 1023, and
  stores the first half of the result, then the second half, then (on a shard with a left
  neighbour) rows 0 to 2 again through a read-modify-write of rows 0 to 3. Whatever the result
  buffer held before, after the first two stores it is `out2`: the first payload on rows below
  512 and the second above; after the third it is `out3`: the halo payload on rows 0 to 2 and
  `out2` elsewhere.
-/
import proofs.«900528_g7700000000000529_dist_gconv1d_seqshard_i_b4_s1024_c512_v7x_i8_bf16_1_alg».proof.Proof.Gen.Kernel
import Idealize.ShloMosaic.Lib.ValueIdx
import Idealize.ShloMosaic.Lib.Pipeline.Value

noncomputable section

namespace Cert.Kernel.Stores

open Idealize.ShloMosaic Idealize.ShloMosaic.ValueIdx Cert.Kernel Cert.Kernel.Gen

variable {F : FTy → Type} [FloatOps F]

abbrev xM : Memref sig .tc .vmem S4x1024x512 .f32 := Memref.whole cc0_stg0_0
abbrev oM : Memref sig .tc .vmem S4x1024x512 .bf16 := Memref.whole cc0_stg2_0
abbrev hM : Memref sig .tc .vmem S4x3x512 .f32 := Memref.whole cc0_scratch0

/-- Rows 0 to 511; rows 512 to 1023; rows 509 to 1023; rows 0 to 3; rows 1021 to 1023; the whole halo buffer. -/
abbrev rLo : Rect S4x1024x512 := Rect.unit (s := S4x1024x512) ![0, 0, 0] S4x512x512.size inb_S4x1024x512_S4x512x512_0_0_0
abbrev rHi : Rect S4x1024x512 := Rect.unit (s := S4x1024x512) ![0, 512, 0] S4x512x512.size inb_S4x1024x512_S4x512x512_0_512_0
abbrev rMid : Rect S4x1024x512 := Rect.unit (s := S4x1024x512) ![0, 509, 0] S4x515x512.size inb_S4x1024x512_S4x515x512_0_509_0
abbrev rFix : Rect S4x1024x512 := Rect.unit (s := S4x1024x512) ![0, 0, 0] S4x4x512.size inb_S4x1024x512_S4x4x512_0_0_0
abbrev rTail : Rect S4x1024x512 := Rect.unit (s := S4x1024x512) ![0, 1021, 0] S4x3x512.size inb_S4x1024x512_S4x3x512_0_1021_0
abbrev rH : Rect S4x3x512 := Rect.unit (s := S4x3x512) ![0, 0, 0] S4x3x512.size inb_S4x3x512_S4x3x512_0_0_0

/-- The shard's rows 1021 to 1023 as a memref: the source of the transfer. -/
abbrev tailM : Memref sig .tc .vmem S4x3x512 .f32 := xM.slice rTail (fun _ => rfl)

/-- The result buffer after the two half stores. -/
def out2 (pA pB : Vec F S4x512x512 .bf16) : Vec F S4x1024x512 .bf16 := fun i =>
  if h : (i 1).val < 512 then pA (ix3 (i 0) ⟨(i 1).val, h⟩ (i 2))
  else pB (ix3 (i 0) ⟨(i 1).val - 512, by have h1 : (i 1).val < 1024 := (i 1).isLt; omega⟩ (i 2))

/-- and after rows 0 to 2 are stored again. -/
def out3 (pA pB : Vec F S4x512x512 .bf16) (pC : Vec F S4x3x512 .bf16) : Vec F S4x1024x512 .bf16 := fun i =>
  if h : (i 1).val < 3 then pC (ix3 (i 0) ⟨(i 1).val, h⟩ (i 2)) else out2 pA pB i

/-- The first store, then the second. -/
def W1 (f0 : (cc0_stg2_0 : Ref sig .tc).ty.Contents (Elt F)) (pA : Vec F S4x512x512 .bf16) : (cc0_stg2_0 : Ref sig .tc).ty.Contents (Elt F) :=
  ((oM : Memref sig .tc .vmem S4x1024x512 .bf16).access rLo : View sig .tc _ _ _).write (Elt F) f0 pA Finset.univ
def W2 (f0 : (cc0_stg2_0 : Ref sig .tc).ty.Contents (Elt F)) (pA pB : Vec F S4x512x512 .bf16) : (cc0_stg2_0 : Ref sig .tc).ty.Contents (Elt F) :=
  ((oM : Memref sig .tc .vmem S4x1024x512 .bf16).access rHi : View sig .tc _ _ _).write (Elt F) (W1 f0 pA) pB Finset.univ
/-- The read-modify-write of rows 0 to 3 that replaces rows 0 to 2 by `pC`. -/
def W3 (g : (cc0_stg2_0 : Ref sig .tc).ty.Contents (Elt F)) (pC : Vec F S4x3x512 .bf16) : (cc0_stg2_0 : Ref sig .tc).ty.Contents (Elt F) :=
  ((oM : Memref sig .tc .vmem S4x1024x512 .bf16).access rFix : View sig .tc _ _ _).write (Elt F) g
    (updateSlice ((oM : Memref sig .tc .vmem S4x1024x512 .bf16).view.readAt (Elt F) rFix.toLoadRect g) pC ![0, 0, 0] slices_S4x4x512_S4x3x512_0_0_0) Finset.univ

/-- `updateSlice` at an index inside the window reads the update at the index less the start. -/
theorem updateSlice_of_mem {α : Type} {s u : Shape} (x : s.Idx → α) (upd : u.Idx → α) (start : Fin s.rank → Nat)
    (h : s.Slices start u) (i : s.Idx) (k : u.Idx)
    (hk : ∀ a : Fin s.rank, (i a).val = start a + (k (a.cast h.1.symm)).val) :
    updateSlice x upd start h i = upd k := by
  unfold updateSlice
  have hin : ∀ a : Fin s.rank, start a ≤ (i a).val ∧ (i a).val < start a + u.size (a.cast h.1.symm) := fun a => by
    have h1 := hk a
    have h2 := (k (a.cast h.1.symm)).isLt
    omega
  rw [dif_pos hin]
  refine congrArg upd (funext fun b => Fin.ext ?_)
  have h1 := hk (b.cast h.1)
  have e : (b.cast h.1).cast h.1.symm = b := rfl
  rw [e] at h1
  show (i (b.cast h.1)).val - start (b.cast h.1) = (k b).val
  omega

/-- `updateSlice` at an index outside the window on some axis reads the old array. -/
theorem updateSlice_of_not_mem {α : Type} {s u : Shape} (x : s.Idx → α) (upd : u.Idx → α) (start : Fin s.rank → Nat)
    (h : s.Slices start u) (i : s.Idx) (a : Fin s.rank)
    (ha : (i a).val < start a ∨ start a + u.size (a.cast h.1.symm) ≤ (i a).val) :
    updateSlice x upd start h i = x i := by
  unfold updateSlice
  rw [dif_neg (fun hin => by have h1 := hin a; omega)]

/-- The three store rectangles as windows of the result buffer's shape. -/
theorem sl_lo : S4x1024x512.Slices ![0, 0, 0] S4x512x512 := ⟨rfl, inb_S4x1024x512_S4x512x512_0_0_0⟩
theorem sl_hi : S4x1024x512.Slices ![0, 512, 0] S4x512x512 := ⟨rfl, inb_S4x1024x512_S4x512x512_0_512_0⟩
theorem sl_fix : S4x1024x512.Slices ![0, 0, 0] S4x4x512 := ⟨rfl, inb_S4x1024x512_S4x4x512_0_0_0⟩

/-- Each unmasked store through a rectangle of the whole buffer replaces the window at the rectangle's offsets. -/
theorem W1_upd (f0 : (cc0_stg2_0 : Ref sig .tc).ty.Contents (Elt F)) (pA : Vec F S4x512x512 .bf16) :
    W1 f0 pA = updateSlice (s := S4x1024x512) (u := S4x512x512) f0 pA ![0, 0, 0] sl_lo :=
  View.write_whole_slice_unit cc0_stg2_0 _ _ _ f0 pA

theorem W2_upd (f0 : (cc0_stg2_0 : Ref sig .tc).ty.Contents (Elt F)) (pA pB : Vec F S4x512x512 .bf16) :
    W2 f0 pA pB = updateSlice (s := S4x1024x512) (u := S4x512x512) (W1 f0 pA) pB ![0, 512, 0] sl_hi :=
  View.write_whole_slice_unit cc0_stg2_0 _ _ _ (W1 f0 pA) pB

theorem W3_upd (g : (cc0_stg2_0 : Ref sig .tc).ty.Contents (Elt F)) (pC : Vec F S4x3x512 .bf16) :
    W3 g pC = updateSlice (s := S4x1024x512) (u := S4x4x512) g
      (updateSlice (s := S4x4x512) (u := S4x3x512)
        ((oM : Memref sig .tc .vmem S4x1024x512 .bf16).view.readAt (Elt F) rFix.toLoadRect g) pC ![0, 0, 0]
        slices_S4x4x512_S4x3x512_0_0_0) ![0, 0, 0] sl_fix :=
  View.write_whole_slice_unit cc0_stg2_0 _ _ _ g _

theorem W2_eq (f0 : (cc0_stg2_0 : Ref sig .tc).ty.Contents (Elt F)) (pA pB : Vec F S4x512x512 .bf16) : W2 f0 pA pB = out2 pA pB := by
  have key : ∀ i : S4x1024x512.Idx, W2 f0 pA pB i = out2 pA pB i := fun i => by
    have hi1 : (i 1).val < 1024 := (i 1).isLt
    rw [W2_upd]
    unfold out2
    by_cases h : (i 1).val < 512
    · -- below row 512: outside the second rectangle, inside the first
      rw [dif_pos h]
      refine (updateSlice_of_not_mem (s := S4x1024x512) (u := S4x512x512) (W1 f0 pA) pB ![0, 512, 0] sl_hi i 1
        (Or.inl (show (i 1).val < 512 from h))).trans ?_
      rw [W1_upd]
      refine updateSlice_of_mem (s := S4x1024x512) (u := S4x512x512) f0 pA ![0, 0, 0] sl_lo i
        (ix3 (i 0) (⟨(i 1).val, h⟩ : Fin 512) (i 2)) (fun a => ?_)
      match a with
      | ⟨0, _⟩ => show (i 0).val = 0 + (i 0).val; omega
      | ⟨1, _⟩ => show (i 1).val = 0 + (i 1).val; omega
      | ⟨2, _⟩ => show (i 2).val = 0 + (i 2).val; omega
    · -- from row 512 on: inside the second rectangle
      rw [dif_neg h]
      refine updateSlice_of_mem (s := S4x1024x512) (u := S4x512x512) (W1 f0 pA) pB ![0, 512, 0] sl_hi i
        (ix3 (i 0) (⟨(i 1).val - 512, by omega⟩ : Fin 512) (i 2)) (fun a => ?_)
      match a with
      | ⟨0, _⟩ => show (i 0).val = 0 + (i 0).val; omega
      | ⟨1, _⟩ => show (i 1).val = 512 + ((i 1).val - 512); omega
      | ⟨2, _⟩ => show (i 2).val = 0 + (i 2).val; omega
  exact funext key

theorem W3_eq (pA pB : Vec F S4x512x512 .bf16) (pC : Vec F S4x3x512 .bf16) : W3 (out2 pA pB) pC = out3 pA pB pC := by
  have key : ∀ i : S4x1024x512.Idx, W3 (out2 pA pB) pC i = out3 pA pB pC i := fun i => by
    have hi1 : (i 1).val < 1024 := (i 1).isLt
    rw [W3_upd]
    unfold out3
    by_cases h4 : (i 1).val < 4
    · -- rows 0 to 3: inside the rewritten rectangle, at the same coordinates
      refine (updateSlice_of_mem (s := S4x1024x512) (u := S4x4x512) (out2 pA pB) _ ![0, 0, 0] sl_fix i
        (ix3 (i 0) (⟨(i 1).val, h4⟩ : Fin 4) (i 2)) (fun a => by
          match a with
          | ⟨0, _⟩ => show (i 0).val = 0 + (i 0).val; omega
          | ⟨1, _⟩ => show (i 1).val = 0 + (i 1).val; omega
          | ⟨2, _⟩ => show (i 2).val = 0 + (i 2).val; omega)).trans ?_
      by_cases h3 : (i 1).val < 3
      · -- rows 0 to 2: the new rows
        rw [dif_pos h3]
        refine updateSlice_of_mem (s := S4x4x512) (u := S4x3x512) _ pC ![0, 0, 0] slices_S4x4x512_S4x3x512_0_0_0
          (ix3 (i 0) (⟨(i 1).val, h4⟩ : Fin 4) (i 2)) (ix3 (i 0) (⟨(i 1).val, h3⟩ : Fin 3) (i 2)) (fun a => ?_)
        match a with
        | ⟨0, _⟩ => show (i 0).val = 0 + (i 0).val; omega
        | ⟨1, _⟩ => show (i 1).val = 0 + (i 1).val; omega
        | ⟨2, _⟩ => show (i 2).val = 0 + (i 2).val; omega
      · -- row 3: the row read back, unchanged
        rw [dif_neg h3]
        refine (updateSlice_of_not_mem (s := S4x4x512) (u := S4x3x512) _ pC ![0, 0, 0] slices_S4x4x512_S4x3x512_0_0_0
          (ix3 (i 0) (⟨(i 1).val, h4⟩ : Fin 4) (i 2)) 1 (Or.inr (show 0 + 3 ≤ (i 1).val by omega))).trans ?_
        refine congrArg (out2 pA pB) (funext fun a => Fin.ext ?_)
        match a with
        | ⟨0, _⟩ => show 0 + 1 * (i 0).val = (i 0).val; omega
        | ⟨1, _⟩ => show 0 + 1 * (i 1).val = (i 1).val; omega
        | ⟨2, _⟩ => show 0 + 1 * (i 2).val = (i 2).val; omega
    · -- rows 4 and on: outside the rewritten rectangle
      rw [dif_neg (show ¬ (i 1).val < 3 by omega)]
      exact updateSlice_of_not_mem (s := S4x1024x512) (u := S4x4x512) (out2 pA pB) _ ![0, 0, 0] sl_fix i 1
        (Or.inr (show 0 + 4 ≤ (i 1).val by omega))
  exact funext key

/-- The three loads of the shard and of the halo buffer, at an index. -/
theorem read_lo (x : (cc0_stg0_0 : Ref sig .tc).ty.Contents (Elt F)) (b : Fin 4) (r : Fin 512) (ch : Fin 512) :
    (xM : Memref sig .tc .vmem S4x1024x512 .f32).view.readAt (Elt F) rLo.toLoadRect x (ix3 b r ch) = x (ix3 b ⟨r.val, by omega⟩ ch) := by
  refine congrArg x (funext fun a => Fin.ext ?_)
  match a with
  | ⟨0, _⟩ => show 0 + 1 * b.val = b.val; omega
  | ⟨1, _⟩ => show 0 + 1 * r.val = r.val; omega
  | ⟨2, _⟩ => show 0 + 1 * ch.val = ch.val; omega

theorem read_mid (x : (cc0_stg0_0 : Ref sig .tc).ty.Contents (Elt F)) (b : Fin 4) (j : Fin 515) (ch : Fin 512) :
    (xM : Memref sig .tc .vmem S4x1024x512 .f32).view.readAt (Elt F) rMid.toLoadRect x (ix3 b j ch) = x (ix3 b ⟨509 + j.val, by omega⟩ ch) := by
  refine congrArg x (funext fun a => Fin.ext ?_)
  match a with
  | ⟨0, _⟩ => show 0 + 1 * b.val = b.val; omega
  | ⟨1, _⟩ => show 509 + 1 * j.val = 509 + j.val; omega
  | ⟨2, _⟩ => show 0 + 1 * ch.val = ch.val; omega

theorem read_tail (x : (cc0_stg0_0 : Ref sig .tc).ty.Contents (Elt F)) (b : Fin 4) (j : Fin 3) (ch : Fin 512) :
    (tailM : Memref sig .tc .vmem S4x3x512 .f32).view.read (Elt F) x (ix3 b j ch) = x (ix3 b ⟨1021 + j.val, by omega⟩ ch) := by
  refine congrArg x (funext fun a => Fin.ext ?_)
  match a with
  | ⟨0, _⟩ => show 0 + 1 * b.val = b.val; omega
  | ⟨1, _⟩ => show 1021 + 1 * j.val = 1021 + j.val; omega
  | ⟨2, _⟩ => show 0 + 1 * ch.val = ch.val; omega

/-- A whole-buffer write into the halo buffer leaves exactly what was written; a whole-buffer load reads it back. -/
theorem write_halo (fd v : (cc0_scratch0 : Ref sig .tc).ty.Contents (Elt F)) :
    (hM : Memref sig .tc .vmem S4x3x512 .f32).view.write (Elt F) fd v Finset.univ = v := by
  exact View.write_whole_univ cc0_scratch0 fd v

theorem read_halo (h : (cc0_scratch0 : Ref sig .tc).ty.Contents (Elt F)) :
    (hM : Memref sig .tc .vmem S4x3x512 .f32).view.readAt (Elt F) rH.toLoadRect h = h := by
  have hz : (![0, 0, 0] : Fin 3 → Nat) = fun _ => 0 := by
    funext a; match a with | ⟨0, _⟩ => rfl | ⟨1, _⟩ => rfl | ⟨2, _⟩ => rfl
  exact Memref.readAt_unit_zero (Elt F) cc0_scratch0 hz inb_S4x3x512_S4x3x512_0_0_0 h

end Cert.Kernel.Stores

end
-- ==== Proof.ProtoBits.lean ====
/-
  The halo exchange as a protocol of rounds, for any float instance.

  Eight shards stand in a line. A shard with a right neighbour sends it its last three rows; a shard
  with a left neighbour receives them into its halo buffer. Before sending, a shard waits for one
  unit on its barrier semaphore, which its right neighbour signals as soon as it has entered: that
  unit carries the neighbour's halo buffer, so the rows can only land after the neighbour is inside.
  Each of the three semaphores of a shard is one cell with at most one duty, in round 0: the barrier
  cell of a shard with a right neighbour (paid by that neighbour's signal), the send cell of such a
  shard (paid when the source rows are read, handing the lent share of them back), and the receive
  cell of a shard with a left neighbour (paid when the rows have landed, handing over the halo
  buffer holding them). The first shard's receive cell and the last shard's barrier and send cells
  have no duty and are never waited on.
-/
import proofs.«900528_g7700000000000529_dist_gconv1d_seqshard_i_b4_s1024_c512_v7x_i8_bf16_1_alg».proof.Proof.Gen.Kernel
import proofs.«900528_g7700000000000529_dist_gconv1d_seqshard_i_b4_s1024_c512_v7x_i8_bf16_1_alg».proof.Proof.Gen.Kernel.Skeleton
import proofs.«900528_g7700000000000529_dist_gconv1d_seqshard_i_b4_s1024_c512_v7x_i8_bf16_1_alg».proof.Proof.Gen.Kernel.Launch
import proofs.«900528_g7700000000000529_dist_gconv1d_seqshard_i_b4_s1024_c512_v7x_i8_bf16_1_alg».proof.Proof.Gen.Kernel.Points
import proofs.«900528_g7700000000000529_dist_gconv1d_seqshard_i_b4_s1024_c512_v7x_i8_bf16_1_alg».proof.Proof.StoresBits
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Stores

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-! ## The resource algebra: the pipeline's copy and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The line of shards -/

def nxt (c : Dev nD) : Dev nD := ⟨(c.val + 1) % 8, Nat.mod_lt _ (by decide)⟩
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_val (c : Dev nD) (h : c.val < 7) : (nxt c).val = c.val + 1 := by revert c; decide
theorem prv_val (c : Dev nD) (h : 0 < c.val) : (prv c).val = c.val - 1 := by revert c; decide

def ring : Dev nD ≃ Dev nD := ⟨nxt, prv, prv_nxt, nxt_prv⟩

/-- The two printed conditions in closed form: "has a left neighbour", "has a right neighbour". -/
theorem cond1_iff : ∀ c : Dev nD, k0_cond1 c = 1#1 ↔ 0 < c.val := by decide +kernel
theorem cond2_iff : ∀ c : Dev nD, k0_cond2 c = 1#1 ↔ c.val < 7 := by decide +kernel

/-- The signal names the left neighbour, the transfer the right one. -/
theorem dev1_eq : ∀ (c : Dev nD) (h : k0_cond1 c = 1#1), (⟨k0_dev1 c, k0_dev1_lt c h⟩ : Dev nD) = prv c := by decide +kernel
theorem dev2_eq : ∀ (c : Dev nD) (h : k0_cond2 c = 1#1), (⟨k0_dev2 c, k0_dev2_lt c h⟩ : Dev nD) = nxt c := by decide +kernel

/-! ## The memrefs and cells -/

abbrev kM : Memref sig .tc .vmem S4x512 .f32 := Memref.whole cc0_stg1_0

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (hM : Memref sig .tc .vmem S4x3x512 .f32).view.dmaCredit
theorem N_pos : 0 < N := View.dmaCredit_pos _ (by decide)

/-- The share of the shard's rows lent to the transfer, and the share kept for the loads. -/
abbrev qS : PosShare TreeShare := fullShare.right
abbrev qK : PosShare TreeShare := fullShare.left

/-! ## Contents -/

/-- The shard and the filter as the pipeline stages them. -/
def xstg (c : Dev nD) : (cc0_stg0_0 : Ref sig .tc).ty.Contents (Elt F) :=
  (win0_0.blk (0 : Fin 1)).view.read (Elt F) (m ((c : Thread nD τ).loc main_arg0))
def kstg (c : Dev nD) : (cc0_stg1_0 : Ref sig .tc).ty.Contents (Elt F) :=
  (win0_1.blk (0 : Fin 1)).view.read (Elt F) (m ((c : Thread nD τ).loc main_arg1))

/-- What lands in a shard's halo buffer: its left neighbour's last three rows. -/
def landed (c : Dev nD) : Buf (Elt F) ((hM : Memref sig .tc .vmem S4x3x512 .f32).view.loc (c : Thread nD τ)) :=
  (tailM : Memref sig .tc .vmem S4x3x512 .f32).view.read (Elt F) (xstg m (prv c))

def scrPts (c : Dev nD) (f : Buf (Elt F) ((hM : Memref sig .tc .vmem S4x3x512 .f32).view.loc (c : Thread nD τ))) : sProp 𝕄 :=
  (hM : Memref sig .tc .vmem S4x3x512 .f32).view.loc (c : Thread nD τ) ↦[(hM : Memref sig .tc .vmem S4x3x512 .f32).view.set]{fullShare} f
/-- The lent share of the shard's last three rows. -/
def tailPts (c : Dev nD) : sProp 𝕄 :=
  (tailM : Memref sig .tc .vmem S4x3x512 .f32).view.loc (c : Thread nD τ) ↦[(tailM : Memref sig .tc .vmem S4x3x512 .f32).view.set]{qS} xstg m c

omit [FloatOps F] in
instance scrPts_storable (c : Dev nD) (f) : BI.Storable (upEmb : UEmb _ 𝕄) (scrPts (F := F) c f) := by unfold scrPts; infer_instance
omit [FloatOps F] in
instance tailPts_storable (c : Dev nD) : BI.Storable (upEmb : UEmb _ 𝕄) (tailPts (F := F) m c) := by unfold tailPts; infer_instance

omit [FloatOps F] in
theorem scr_set : (hM : Memref sig .tc .vmem S4x3x512 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The schedule -/

/-- What the right neighbour's signal hands a shard: that neighbour's halo buffer, and that the neighbour's receive
    cell stands at round 0. -/
def barPay (c : Dev nD) : sProp 𝕄 := iprop((∃ f, scrPts (nxt c) f) ∗ reached ER (recvCell (nxt c)) 0)
def recvPay (c : Dev nD) : sProp 𝕄 := scrPts c (landed m c)
def sendPay (c : Dev nD) : sProp 𝕄 := tailPts m c

/-- Which cells have their one duty: barrier and send cells of shards with a right neighbour, receive cells of shards with
    a left one. -/
abbrev HasDuty (g : GSem nD τ sig) : Prop :=
  g.1.2 = .tc ∧ ((g.2 = .reg barS ∧ g.1.1.val < 7) ∨ (g.2 = .dma sendS.sem ∧ g.1.1.val < 7) ∨ (g.2 = .dma recvS.sem ∧ 0 < g.1.1.val))

def haloRd : Rounds.Schedule (GSem nD τ sig) Unit 𝕄 where
  duties g r := if r = 0 ∧ HasDuty g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance haloRd_payload_storable (g : GSem nD τ sig) (r : ℕ) (d : Unit) :
    BI.Storable (upEmb : UEmb _ 𝕄) ((haloRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar (h : c.val < 7) : (haloRd (F := F) m).duties (barCell c) 0 = {()} := by
  dsimp only [haloRd]; exact if_pos ⟨rfl, rfl, .inl ⟨rfl, h⟩⟩
omit [FloatOps F] in
theorem duties_send (h : c.val < 7) : (haloRd (F := F) m).duties (sendCell c) 0 = {()} := by
  dsimp only [haloRd]; exact if_pos ⟨rfl, rfl, .inr (.inl ⟨rfl, h⟩)⟩
omit [FloatOps F] in
theorem duties_recv (h : 0 < c.val) : (haloRd (F := F) m).duties (recvCell c) 0 = {()} := by
  dsimp only [haloRd]; exact if_pos ⟨rfl, rfl, .inr (.inr ⟨rfl, h⟩)⟩
omit [FloatOps F] in
theorem duties_send_none (h : ¬ c.val < 7) : (haloRd (F := F) m).duties (sendCell c) 0 = ∅ := by
  dsimp only [haloRd]
  refine if_neg fun hh => ?_
  rcases hh.2.2 with h1 | h1 | h1
  · exact send_ne_bar h1.1
  · exact h h1.2
  · exact send_ne_recv h1.1
omit [FloatOps F] in
theorem duties_recv_none (h : ¬ 0 < c.val) : (haloRd (F := F) m).duties (recvCell c) 0 = ∅ := by
  dsimp only [haloRd]
  refine if_neg fun hh => ?_
  rcases hh.2.2 with h1 | h1 | h1
  · exact recv_ne_bar h1.1
  · exact recv_ne_send h1.1
  · exact h h1.2
omit [FloatOps F] in
theorem duties_later (g : GSem nD τ sig) : ∀ r, 1 ≤ r → (haloRd (F := F) m).duties g r = ∅ :=
  fun r hr => by dsimp only [haloRd]; rw [if_neg fun h => by omega]

omit [FloatOps F] in
theorem amount_bar (d : Unit) : (haloRd (F := F) m).amount (barCell c) 0 d = 1 := by dsimp only [haloRd]; exact if_pos rfl
omit [FloatOps F] in
theorem amount_send (d : Unit) : (haloRd (F := F) m).amount (sendCell c) 0 d = N := by dsimp only [haloRd]; exact if_neg send_ne_bar
omit [FloatOps F] in
theorem amount_recv (d : Unit) : (haloRd (F := F) m).amount (recvCell c) 0 d = N := by dsimp only [haloRd]; exact if_neg recv_ne_bar

omit [FloatOps F] in
theorem expect_bar (h : c.val < 7) : (haloRd (F := F) m).expect (barCell c) 0 = 1 := by
  unfold Schedule.expect Schedule.amountOf; rw [duties_bar m c h, Finset.sum_singleton, amount_bar]
omit [FloatOps F] in
theorem expect_send (h : c.val < 7) : (haloRd (F := F) m).expect (sendCell c) 0 = N := by
  unfold Schedule.expect Schedule.amountOf; rw [duties_send m c h, Finset.sum_singleton, amount_send]
omit [FloatOps F] in
theorem expect_recv (h : 0 < c.val) : (haloRd (F := F) m).expect (recvCell c) 0 = N := by
  unfold Schedule.expect Schedule.amountOf; rw [duties_recv m c h, Finset.sum_singleton, amount_recv]

omit [FloatOps F] in
theorem payload_bar (d : Unit) : (haloRd (F := F) m).payload (barCell c) 0 d = barPay c := by dsimp only [haloRd]; rw [if_pos rfl]
omit [FloatOps F] in
theorem payload_send (d : Unit) : (haloRd (F := F) m).payload (sendCell c) 0 d = sendPay m c := by
  dsimp only [haloRd]; rw [if_neg send_ne_bar, if_neg send_ne_recv, if_pos rfl]
omit [FloatOps F] in
theorem payload_recv (d : Unit) : (haloRd (F := F) m).payload (recvCell c) 0 d = recvPay m c := by
  dsimp only [haloRd]; rw [if_neg recv_ne_bar, if_pos rfl]

omit [FloatOps F] in
theorem rest_bar (h : c.val < 7) : bigSep ((haloRd (F := F) m).duties (barCell c) 0 \ ∅) (fun d => (haloRd (F := F) m).payload (barCell c) 0 d) = barPay c := by
  rw [Finset.sdiff_empty, duties_bar m c h, bigSep_singleton, payload_bar]
omit [FloatOps F] in
theorem rest_send (h : c.val < 7) : bigSep ((haloRd (F := F) m).duties (sendCell c) 0 \ ∅) (fun d => (haloRd (F := F) m).payload (sendCell c) 0 d) = sendPay m c := by
  rw [Finset.sdiff_empty, duties_send m c h, bigSep_singleton, payload_send]
omit [FloatOps F] in
theorem rest_recv (h : 0 < c.val) : bigSep ((haloRd (F := F) m).duties (recvCell c) 0 \ ∅) (fun d => (haloRd (F := F) m).payload (recvCell c) 0 d) = recvPay m c := by
  rw [Finset.sdiff_empty, duties_recv m c h, bigSep_singleton, payload_recv]

end Sched

/-! ## What each shard owes at launch; the levels -/

/-- What a shard owes its right neighbour's receive cell (the rows, if there is such a neighbour) and its left
    neighbour's barrier cell (one unit, if there is one). -/
def rAmt (c : Dev nD) : ℕ := if c.val < 7 then N else 0
def bAmt (c : Dev nD) : ℕ := if 0 < c.val then 1 else 0

/-- Summed so that the signal, which comes first, peels the last summand. -/
def O₁ (c : Dev nD) : CellTallies nD τ sig Unit := tallyAt (recvCell (nxt c)) () (rAmt c)
def O₀ (c : Dev nD) : CellTallies nD τ sig Unit := O₁ c + tallyAt (barCell (prv c)) () (bAmt c)

def L (g : GSem nD τ sig) : Finset Unit := if g.1.2 = .tc then {()} else ∅
/-- Barrier cells at 1, receive cells at 2, everything else (staging, send) at 0: a shard waits on its barrier cell while
    it owes a receive cell, and on staging cells while it owes both. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (nxt c) ∨ g = barCell (prv c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a shard owes its right neighbour's receive cell only: above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by
      unfold O₁ at hg; rw [tallyAt_apply] at hg
      by_cases h : g = recvCell (nxt c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      unfold O₁ at hg; rw [tallyAt_apply] at hg
      by_cases h : g = recvCell (nxt c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev rK : Rect S4x512 := Rect.unit (s := S4x512) ![0, 0] S4x512.size inb_S4x512_S4x512_0_0

/-- What the body loads: the filter, the shard's rows 0 to 511 and 509 to 1023, the halo buffer once the rows have landed. -/
def vK (c : Dev nD) : Vec F S4x512 .f32 := (kM : Memref sig .tc .vmem S4x512 .f32).view.readAt (Elt F) rK.toLoadRect (kstg m c)
def vLo (c : Dev nD) : Vec F S4x512x512 .f32 := (xM : Memref sig .tc .vmem S4x1024x512 .f32).view.readAt (Elt F) rLo.toLoadRect (xstg m c)
def vMid (c : Dev nD) : Vec F S4x515x512 .f32 := (xM : Memref sig .tc .vmem S4x1024x512 .f32).view.readAt (Elt F) rMid.toLoadRect (xstg m c)
def vH (c : Dev nD) : Vec F S4x3x512 .f32 := (hM : Memref sig .tc .vmem S4x3x512 .f32).view.readAt (Elt F) rH.toLoadRect (landed m c)

/-- What it stores: the first half, the second half, and rows 0 to 2 again on a shard with a left neighbour. -/
def pA (c : Dev nD) : Vec F S4x512x512 .bf16 := k0_pay12 (k0_pay9 (vK m c) (vLo m c)) (k0_pay10 (vK m c) (vLo m c)) k0_pay11
def pB (c : Dev nD) : Vec F S4x512x512 .bf16 := k0_pay1 (k0_pay13 (k0_pay8 (vK m c)) (vMid m c)) (k0_pay14 (k0_pay8 (vK m c)) (vMid m c))
def pC (c : Dev nD) : Vec F S4x3x512 .bf16 :=
  k0_pay2 (k0_pay9 (vK m c) (vLo m c)) (k0_pay4 (k0_pay8 (vK m c)) (vH m c)) (k0_pay5 (k0_pay8 (vK m c)) (vH m c)) (k0_pay6 (vH m c)) (k0_pay7 (k0_pay8 (vK m c)))

/-- The result buffer after the body. -/
def outAt (c : Dev nD) : (cc0_stg2_0 : Ref sig .tc).ty.Contents (Elt F) :=
  if 0 < c.val then out3 (pA m c) (pB m c) (pC m c) else out2 (pA m c) (pB m c)

/-- The cells' invariants a shard's body opens, under the names `K` the launch allocated them at: its own three, its
    left neighbour's barrier cell (its signal), its right neighbour's receive cell (its transfer). -/
def invs (K : Dev nD × Fin 3 → ℕ) (c : Dev nD) : sProp 𝕄 :=
  iprop(cellInv ER (haloRd m) (K (c, 0)) (barCell c) ∗ cellInv ER (haloRd m) (K (c, 1)) (sendCell c) ∗ cellInv ER (haloRd m) (K (c, 2)) (recvCell c)
    ∗ cellInv ER (haloRd m) (K (prv c, 0)) (barCell (prv c)) ∗ cellInv ER (haloRd m) (K (nxt c, 2)) (recvCell (nxt c)))

instance invs_persistent (K : Dev nD × Fin 3 → ℕ) (c : Dev nD) : BI.Persistent (invs m K c) := by unfold invs; infer_instance

/-- The exchange's ghost state a shard starts from: the invariants; its positions at round 0 of its three cells; the
    reached-marks of the cells it pays and of its own send and receive cells; the three duty tokens it may pay with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (prv c)) 0 ∗ reached ER (recvCell (nxt c)) 0 ∗ reached ER (sendCell c) 0 ∗ reached ER (recvCell c) 0
    ∗ dutyTok ER (barCell (prv c)) 0 () ∗ dutyTok ER (recvCell (nxt c)) 0 () ∗ dutyTok ER (sendCell c) 0 ())

/-- The credit a shard holds on its own barrier cell (what its right neighbour owes it) and on its own receive cell (what
    its left neighbour owes it). -/
def cbAmt (c : Dev nD) : ℕ := if c.val < 7 then 1 else 0
def crAmt (c : Dev nD) : ℕ := if 0 < c.val then N else 0

def start (c : Dev nD) : sProp 𝕄 :=
  iprop((∃ K, ghost m K c) ∗ cred (tallyAt (barCell c) () (cbAmt c)) ∗ cred (tallyAt (recvCell c) () (crAmt c)) ∗ levAts L lv)

def Φ₀ (c : Dev nD) : sProp 𝕄 := iprop(start m c ∗ ∃ f, scrPts c f)
/-- After the point: the halo buffer at something, the two own cells at zero, closed. -/
def Φ₁ (c : Dev nD) : sProp 𝕄 := iprop((∃ f, scrPts (F := F) c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => kstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () (cbAmt c)) ∗ cred (tallyAt (recvCell c) () (crAmt c)) ∗ levAts L lv ∗ ∃ f, scrPts c f)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (xstg m c) ∗ stg c cc0_stg1_0 (kstg m c) ∗ stg c cc0_stg2_0 (outAt m c))

omit [FloatOps F] in
theorem cond3_eq (c : Dev nD) :
    Scalar.cmpi CmpIPredicate.ne (Scalar.extui (Scalar.cmpi CmpIPredicate.sgt (Scalar.remsi (Scalar.divsi c.word 1#32) 8#32) 0#32)) 0#32 = k0_cond1 c := rfl
omit [FloatOps F] in
theorem cond4_eq (c : Dev nD) :
    Scalar.cmpi CmpIPredicate.ne (Scalar.extui (Scalar.cmpi CmpIPredicate.slt (Scalar.remsi (Scalar.divsi c.word 1#32) 8#32) 7#32)) 0#32 = k0_cond2 c := rfl

/-- The shard's staged rows at the kept share, and the lent share of everything but the last three rows. -/
def keepPts (c : Dev nD) (f : Buf (Elt F) ((c : Thread nD τ).loc cc0_stg0_0)) : sProp 𝕄 :=
  ((c : Thread nD τ).loc cc0_stg0_0) ↦{qK} f
def restPts (c : Dev nD) (f : Buf (Elt F) ((c : Thread nD τ).loc cc0_stg0_0)) : sProp 𝕄 :=
  (tailM : Memref sig .tc .vmem S4x3x512 .f32).view.loc (c : Thread nD τ) ↦[Finset.univ \ (tailM : Memref sig .tc .vmem S4x3x512 .f32).view.set]{qS} f

omit [FloatOps F] in
/-- The staged shard cut in three: one half share of all of it, and the other half share cut into the last three rows and
    the rest; and put together again. -/
theorem x_split (c : Dev nD) :
    ((((c : Thread nD τ).loc cc0_stg0_0) ↦{fullShare} xstg m c : sProp 𝕄))
      ⊢ iprop(keepPts c (xstg m c) ∗ tailPts m c ∗ restPts c (xstg m c)) :=
  (pointsTo_share (PosShare.mem_left_op_right fullShare)).1.trans (sep_mono_right (pointsTo_split_subset (Finset.subset_univ _)).1)
omit [FloatOps F] in
theorem x_join (c : Dev nD) :
    iprop(keepPts c (xstg m c) ∗ tailPts m c ∗ restPts c (xstg m c))
      ⊢ ((((c : Thread nD τ).loc cc0_stg0_0) ↦{fullShare} xstg m c : sProp 𝕄)) :=
  (sep_mono_right (pointsTo_split_subset (Finset.subset_univ _)).2).trans (pointsTo_share (PosShare.mem_left_op_right fullShare)).2

/-- The transfer of the last three rows into the right neighbour's halo buffer, at the exchange's cells. -/
theorem wp_send_halo (c n : Dev nD) (hR : c.val < 7) (hn : n = nxt c)
    {hsc : (hM : Memref sig (Dev.tc n : Thread nD τ).2.kind .vmem S4x3x512 .f32).view.ref.isScScratch = false}
    {hsrc : (tailM : Memref sig .tc .vmem S4x3x512 .f32).view.WordExact} {hdst : (hM : Memref sig .tc .vmem S4x3x512 .f32).view.WordExact}
    {hsem : DmaTarget.Typed .vmem (.dma recvS.sem) (.remote (Dev.tc n : Thread nD τ) (hM : Memref sig .tc .vmem S4x3x512 .f32) (.dma sendS.sem) hsc)}
    {α : Type} {Q : α → sProp 𝕄} {k : PUnit → Prog (TpuEff nD τ sig (Elt F) Λ₀ .tc) α}
    (fn : Buf (Elt F) ((hM : Memref sig .tc .vmem S4x3x512 .f32).view.loc (nxt c : Thread nD τ))) (W : Waits sig Unit) :
    iprop(cellInv ER (haloRd m) (K (c, 1)) (sendCell c) ∗ cellInv ER (haloRd m) (K (nxt c, 2)) (recvCell (nxt c))
        ∗ tailPts m c ∗ scrPts (nxt c) fn
        ∗ owes (c : Thread nD τ) (tallyAt (recvCell (nxt c)) () N) W
        ∗ dutyTok ER (sendCell c) 0 () ∗ reached ER (sendCell c) 0
        ∗ dutyTok ER (recvCell (nxt c)) 0 () ∗ reached ER (recvCell (nxt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma tailM (.remote (Dev.tc n : Thread nD τ) hM (.dma sendS.sem) hsc) (.dma recvS.sem) hsrc hdst hsem) k) Q) := by
  subst hn
  unfold tailPts scrPts
  exact Rounds.wp_send_pointsTo 𝒱₀ ER (haloRd m) (c : Thread nD τ) none (κ₁ := K (c, 1)) (κ₂ := K (nxt c, 2))
    (r₁ := 0) (r₂ := 0) (d₁ := ()) (d₂ := ()) (fd := fn)
    (by rw [duties_send m c hR]; exact Finset.mem_singleton_self _)
    (by rw [duties_recv m (nxt c) (by rw [nxt_val c hR]; omega)]; exact Finset.mem_singleton_self _)
    () () N rfl (amount_send m c ()) (amount_recv m (nxt c) ()) 0 (by rw [zero_add]) (W := W)
    (by rw [payload_send]; unfold sendPay tailPts; exact BI.Entails.refl _)
    (by rw [payload_recv]; unfold recvPay scrPts; rw [write_halo, landed, prv_nxt])

omit [FloatOps F] in
theorem duties_recv_never (c : Dev nD) (h : ¬ 0 < c.val) : ∀ r, 0 ≤ r → (haloRd (F := F) m).duties (recvCell c) r = ∅ := fun r _ => by
  cases r with
  | zero => exact duties_recv_none m c h
  | succ r => exact duties_later m _ _ (by omega)
omit [FloatOps F] in
theorem duties_send_never (c : Dev nD) (h : ¬ c.val < 7) : ∀ r, 0 ≤ r → (haloRd (F := F) m).duties (sendCell c) r = ∅ := fun r _ => by
  cases r with
  | zero => exact duties_send_none m c h
  | succ r => exact duties_later m _ _ (by omega)

omit [FloatOps F] in
theorem xM_pts (c : Dev nD) (q : PosShare TreeShare) (f : Buf (Elt F) ((c : Thread nD τ).loc cc0_stg0_0)) :
    ((((c : Thread nD τ).loc cc0_stg0_0) ↦{q} f : sProp 𝕄))
      = ((xM : Memref sig .tc .vmem S4x1024x512 .f32).view.loc (c : Thread nD τ) ↦[(xM : Memref sig .tc .vmem S4x1024x512 .f32).view.set]{q} f) := by rw [View.set_whole]
omit [FloatOps F] in
theorem kM_pts (c : Dev nD) (q : PosShare TreeShare) (f : Buf (Elt F) ((c : Thread nD τ).loc cc0_stg1_0)) :
    ((((c : Thread nD τ).loc cc0_stg1_0) ↦{q} f : sProp 𝕄))
      = ((kM : Memref sig .tc .vmem S4x512 .f32).view.loc (c : Thread nD τ) ↦[(kM : Memref sig .tc .vmem S4x512 .f32).view.set]{q} f) := by rw [View.set_whole]
omit [FloatOps F] in
theorem oM_pts (c : Dev nD) (q : PosShare TreeShare) (f : Buf (Elt F) ((c : Thread nD τ).loc cc0_stg2_0)) :
    ((((c : Thread nD τ).loc cc0_stg2_0) ↦{q} f : sProp 𝕄))
      = ((oM : Memref sig .tc .vmem S4x1024x512 .bf16).view.loc (c : Thread nD τ) ↦[(oM : Memref sig .tc .vmem S4x1024x512 .bf16).view.set]{q} f) := by rw [View.set_whole]

/-! The schedule's payloads spelt as the points-to themselves, the signalled barrier cell's already resolved at the
    signaller (`nxt (prv c) = c`). -/
omit [FloatOps F] in
theorem payload_barP (c : Dev nD) : (haloRd (F := F) m).payload (barCell (prv c)) 0 ()
    = iprop((∃ f, ((hM : Memref sig .tc .vmem S4x3x512 .f32).view.loc (c : Thread nD τ) ↦[(hM : Memref sig .tc .vmem S4x3x512 .f32).view.set]{fullShare} f)) ∗ reached ER (recvCell c) 0) := by
  rw [payload_bar]; unfold barPay scrPts; rw [nxt_prv]
omit [FloatOps F] in
theorem payload_barN (c : Dev nD) : (haloRd (F := F) m).payload (barCell c) 0 ()
    = iprop((∃ f, ((hM : Memref sig .tc .vmem S4x3x512 .f32).view.loc (nxt c : Thread nD τ) ↦[(hM : Memref sig .tc .vmem S4x3x512 .f32).view.set]{fullShare} f)) ∗ reached ER (recvCell (nxt c)) 0) := by
  rw [payload_bar]; unfold barPay scrPts; rfl
omit [FloatOps F] in
theorem payload_sendE (c : Dev nD) : (haloRd (F := F) m).payload (sendCell c) 0 ()
    = ((tailM : Memref sig .tc .vmem S4x3x512 .f32).view.loc (c : Thread nD τ) ↦[(tailM : Memref sig .tc .vmem S4x3x512 .f32).view.set]{qS} xstg m c) := by
  rw [payload_send]; rfl
omit [FloatOps F] in
theorem payload_recvE (c : Dev nD) : (haloRd (F := F) m).payload (recvCell c) 0 ()
    = ((hM : Memref sig .tc .vmem S4x3x512 .f32).view.loc (c : Thread nD τ) ↦[(hM : Memref sig .tc .vmem S4x3x512 .f32).view.set]{fullShare} landed m c) := by
  rw [payload_recv]; rfl

attribute [local sl_canon] dev1_eq dev2_eq
attribute [local sl_rounds high] payload_barP
attribute [local sl_rounds] payload_barN payload_sendE payload_recvE duties_bar duties_send duties_recv amount_bar amount_send amount_recv
  expect_bar expect_send expect_recv

set_option maxHeartbeats 1600000 in
/-- The body on a shard with both neighbours: the local steps and the waits run symbolically, the transfer by its rule. -/
theorem sound_body_mid (c : Dev nD) (hL : 0 < c.val) (hR : c.val < 7) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hc1 : k0_cond1 c = 1#1 := (cond1_iff c).mpr hL
  have hc2 : k0_cond2 c = 1#1 := (cond2_iff c).mpr hR
  have hc3 := (cond3_eq c).trans hc1
  have hc4 := (cond4_eq c).trans hc2
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, storeSubelements, Prog.lift, Prog.bind_op, Prog.bind_ret, Prog.pure_eq_ret, wp_deviceId, dif_pos hc1, dif_pos hc2, dif_pos hc3, dif_pos hc4]
  unfold bodyPre ghost invs
  iintro ⟨⟨⟨⟨⟨#HIbar, #HIsnd, #HIrcv, #HIbarP, #HIrcvN⟩, HatB, HatS, HatV, #HrBP, #HrVN, #HrS, #HrV, HtBP, HtVN, HtS⟩, HcB, HcV, #Hlev, ⟨%f0, Hscr⟩⟩,
    Ho, ⟨%d0, %g0, %hg0, Hx⟩, ⟨%d1, %g1, %hg1, Hk1⟩, ⟨%d2, %g2, %hg2, Hout⟩⟩, HK⟩
  have hx : g0 = xstg m c := by rw [hg0]; unfold Dat.before; rw [if_pos (fetch_0 t₀)]; rfl
  subst hx
  have hk : g1 = kstg m c := by rw [hg1]; unfold Dat.before; rw [if_pos (fetch_1 t₀)]; rfl
  subst hk
  unfold Dat.owesAt Pipeline.owesWithin
  icases Ho with ⟨%W, %hW, HO⟩
  rw [show (dats m 0 c).owed t₀.castSucc = O₀ c from rfl]
  have hb1 : bAmt c = 1 := if_pos hL
  have hr1 : rAmt c = N := if_pos hR
  have hcb : cbAmt c = 1 := if_pos hR
  have hcr : crAmt c = N := if_pos hL
  have hO₀ : O₀ c = O₁ c + tallyAt (barCell (prv c)) () 1 := by unfold O₀; rw [hb1]
  have hO₁ : O₁ c = tallyAt (recvCell (nxt c)) () N := by unfold O₁; rw [hr1]
  rw [hcb, hcr]
  simp only [dev1_eq c hc1]
  have hpv : (prv c).val < 7 := by rw [prv_val c hL]; omega
  have hnv : 0 < (nxt c).val := by rw [nxt_val c hR]; omega
  rw [hO₀, hO₁]
  have hmw : (levAts L lv : sProp 𝕄) ⊢ MayWait (c : Thread nD τ) (.reg barS) () (tallyAt (recvCell (nxt c)) () N) := hO₁ ▸ mayWait_bar c
  -- the staged shard cut into the kept share and the lent rows; every buffer through its memref's view
  ihave Hx3 := (x_split m c) $$ Hx
  icases Hx3 with ⟨Hxk, Hxt, Hxr⟩
  unfold keepPts tailPts
  ihave Hxk := (Entails.of_eq (xM_pts c qK (xstg m c))) $$ Hxk
  ihave Hk1 := (Entails.of_eq (kM_pts c fullShare (kstg m c))) $$ Hk1
  ihave Hout := (Entails.of_eq (oM_pts c fullShare g2)) $$ Hout
  unfold scrPts
  -- the signal, the loads, the first store and the wait for the right neighbour's unit
  sl_exec (disch := first | omega | assumption)
  -- the transfer, by the rule itself: the lent share of the last three rows goes with it
  iapply (wp_send_halo m K c _ hR (dev2_eq c hc2) HatB_pay1_v (insert (SemLoc.reg barS, ()) W)) $$ [Hxt HatB_pay1 HO HtS HtVN]
  · isplitr; · iexact HIsnd
    isplitr; · iexact HIrcvN
    isplitl [Hxt]; · unfold tailPts; iexact Hxt
    isplitl [HatB_pay1]; · unfold scrPts; iexact HatB_pay1
    isplitl [HO]; · iexact HO
    isplitl [HtS]; · iexact HtS
    isplitr; · iexact HrS
    isplitl [HtVN]; · iexact HtVN
    iexact HrVN
  iintro ⟨HcS, HO⟩
  -- the loads, the stores and the two waits that are left
  sl_exec (disch := first | omega | assumption)
  -- the lent rows back: the staged shard whole again
  ihave Hxk := (Entails.of_eq (xM_pts c qK (xstg m c)).symm) $$ Hxk
  ihave Hx := (x_join m c) $$ [Hxk HatS_pay1 Hxr]
  · isplitl [Hxk]; · unfold keepPts; iexact Hxk
    isplitl [HatS_pay1]; · unfold tailPts; iexact HatS_pay1
    iexact Hxr
  imod (Rounds.cell_close ER (haloRd m) (Set.mem_univ (K (c, 1))) (fun h => h) (R := 0 + 1) (duties_later m (sendCell c))) $$ [HatS] with HzS
  · isplitr; · iexact HIsnd
    iexact HatS
  imod (Rounds.cell_close ER (haloRd m) (Set.mem_univ (K (c, 2))) (fun h => h) (R := 0 + 1) (duties_later m (recvCell c))) $$ [HatV] with HzV
  · isplitr; · iexact HIrcv
    iexact HatV
  rw [wp_ret]; imodintro
  iapply HK
  unfold bodyPost Φ₁ Dat.owesAt Pipeline.owesWithin
  rw [show (dats m 0 c).owed t₀.succ = 0 from rfl]
  isplitl [HatV_pay1 HzS HzV]
  · isplitl [HatV_pay1]; · iexists _; unfold scrPts; iexact HatV_pay1
    isplitl [HzS]; · iexact HzS
    iexact HzV
  isplitl [HO]
  · iexists (insert (SemLoc.dma sendS.sem, ()) (insert (SemLoc.dma recvS.sem, ()) (insert (SemLoc.reg barS, ()) W)))
    isplitr; · ipureintro; exact fun _ _ => Or.inl trivial
    iexact HO
  isplitl [Hx]
  · iexists _; isplitr; · (ipureintro; rfl)
    iexact Hx
  ihave Hk1 := (Entails.of_eq (kM_pts c fullShare (kstg m c)).symm) $$ Hk1
  isplitl [Hk1]
  · iexists _; isplitr; · (ipureintro; rfl)
    iexact Hk1
  ihave Hout := (Entails.of_eq (oM_pts c fullShare _).symm) $$ Hout
  iexists _; isplitr
  swap; · iexact Hout
  ipureintro
  sl_unfold_run_names
  unfold View.readCov
  simp only [View.writes_cons, View.writes_nil]
  unfold outAt; rw [if_pos hL]
  -- rows 0 to 3 are read back off the two half stores, whatever lay under them
  have e1 : W2 g2 (pA m c) (pB m c) = out2 (pA m c) (pB m c) := W2_eq _ _ _
  have e2 : W2 (View.junk (oM : Memref sig .tc .vmem S4x1024x512 .bf16).view) (pA m c) (pB m c) = out2 (pA m c) (pB m c) := W2_eq _ _ _
  show View.write (Elt F) ((oM : Memref sig .tc .vmem S4x1024x512 .bf16).access rFix) (W2 g2 (pA m c) (pB m c))
      (updateSlice ((oM : Memref sig .tc .vmem S4x1024x512 .bf16).view.readAt (Elt F) rFix.toLoadRect
        (W2 (View.junk (oM : Memref sig .tc .vmem S4x1024x512 .bf16).view) (pA m c) (pB m c))) (pC m c) ![0, 0, 0] slices_S4x4x512_S4x3x512_0_0_0) Finset.univ = _
  rw [e1, e2]
  exact W3_eq _ _ _

set_option maxHeartbeats 1600000 in
/-- The body on the first shard: no left neighbour, so no signal, no landing, and the halo buffer stays untouched. -/
theorem sound_body_first (c : Dev nD) (hL : ¬ 0 < c.val) (hR : c.val < 7) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hc1 : ¬ k0_cond1 c = 1#1 := fun h => hL ((cond1_iff c).mp h)
  have hc2 : k0_cond2 c = 1#1 := (cond2_iff c).mpr hR
  have hc3 : ¬ _ = 1#1 := fun h => hc1 ((cond3_eq c).symm.trans h)
  have hc4 := (cond4_eq c).trans hc2
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, storeSubelements, Prog.lift, Prog.bind_op, Prog.bind_ret, Prog.pure_eq_ret, wp_deviceId, dif_neg hc1, dif_pos hc2, dif_neg hc3, dif_pos hc4]
  unfold bodyPre ghost invs
  iintro ⟨⟨⟨⟨⟨#HIbar, #HIsnd, #HIrcv, #HIbarP, #HIrcvN⟩, HatB, HatS, HatV, #HrBP, #HrVN, #HrS, #HrV, -, HtVN, HtS⟩, HcB, -, #Hlev, Hscr⟩,
    Ho, ⟨%d0, %g0, %hg0, Hx⟩, ⟨%d1, %g1, %hg1, Hk1⟩, ⟨%d2, %g2, %hg2, Hout⟩⟩, HK⟩
  have hx : g0 = xstg m c := by rw [hg0]; unfold Dat.before; rw [if_pos (fetch_0 t₀)]; rfl
  subst hx
  have hk : g1 = kstg m c := by rw [hg1]; unfold Dat.before; rw [if_pos (fetch_1 t₀)]; rfl
  subst hk
  unfold Dat.owesAt Pipeline.owesWithin
  icases Ho with ⟨%W, %hW, HO⟩
  rw [show (dats m 0 c).owed t₀.castSucc = O₀ c from rfl]
  have hb0 : bAmt c = 0 := if_neg hL
  have hr1 : rAmt c = N := if_pos hR
  have hcb : cbAmt c = 1 := if_pos hR
  have hO₀ : O₀ c = O₁ c := by unfold O₀; rw [hb0, tallyAt_zero, add_zero]
  have hO₁ : O₁ c = tallyAt (recvCell (nxt c)) () N := by unfold O₁; rw [hr1]
  rw [hcb, hO₀, hO₁]
  have hnv : 0 < (nxt c).val := by rw [nxt_val c hR]; omega
  have hmw : (levAts L lv : sProp 𝕄) ⊢ MayWait (c : Thread nD τ) (.reg barS) () (tallyAt (recvCell (nxt c)) () N) := hO₁ ▸ mayWait_bar c
  -- the staged shard cut into the kept share and the lent rows; every buffer through its memref's view
  ihave Hx3 := (x_split m c) $$ Hx
  icases Hx3 with ⟨Hxk, Hxt, Hxr⟩
  unfold keepPts tailPts
  ihave Hxk := (Entails.of_eq (xM_pts c qK (xstg m c))) $$ Hxk
  ihave Hk1 := (Entails.of_eq (kM_pts c fullShare (kstg m c))) $$ Hk1
  ihave Hout := (Entails.of_eq (oM_pts c fullShare g2)) $$ Hout
  unfold scrPts
  -- the loads, the first store and the wait for the right neighbour's unit
  sl_exec (disch := first | omega | assumption)
  -- the transfer, by the rule itself: the lent share of the last three rows goes with it
  iapply (wp_send_halo m K c _ hR (dev2_eq c hc2) HatB_pay1_v (insert (SemLoc.reg barS, ()) W)) $$ [Hxt HatB_pay1 HO HtS HtVN]
  · isplitr; · iexact HIsnd
    isplitr; · iexact HIrcvN
    isplitl [Hxt]; · unfold tailPts; iexact Hxt
    isplitl [HatB_pay1]; · unfold scrPts; iexact HatB_pay1
    isplitl [HO]; · iexact HO
    isplitl [HtS]; · iexact HtS
    isplitr; · iexact HrS
    isplitl [HtVN]; · iexact HtVN
    iexact HrVN
  iintro ⟨HcS, HO⟩
  -- the load, the second store and the wait on the send cell
  sl_exec (disch := first | omega | assumption)
  -- the lent rows back: the staged shard whole again
  ihave Hxk := (Entails.of_eq (xM_pts c qK (xstg m c)).symm) $$ Hxk
  ihave Hx := (x_join m c) $$ [Hxk HatS_pay1 Hxr]
  · isplitl [Hxk]; · unfold keepPts; iexact Hxk
    isplitl [HatS_pay1]; · unfold tailPts; iexact HatS_pay1
    iexact Hxr
  imod (Rounds.cell_close ER (haloRd m) (Set.mem_univ (K (c, 1))) (fun h => h) (R := 0 + 1) (duties_later m (sendCell c))) $$ [HatS] with HzS
  · isplitr; · iexact HIsnd
    iexact HatS
  imod (Rounds.cell_close ER (haloRd m) (Set.mem_univ (K (c, 2))) (fun h => h) (R := 0) (duties_recv_never m c hL)) $$ [HatV] with HzV
  · isplitr; · iexact HIrcv
    iexact HatV
  rw [wp_ret]; imodintro
  iapply HK
  unfold bodyPost Φ₁ Dat.owesAt Pipeline.owesWithin
  rw [show (dats m 0 c).owed t₀.succ = 0 from rfl]
  isplitl [Hscr HzS HzV]
  · isplitl [Hscr]; · iexact Hscr
    isplitl [HzS]; · iexact HzS
    iexact HzV
  isplitl [HO]
  · iexists (insert (SemLoc.dma sendS.sem, ()) (insert (SemLoc.reg barS, ()) W))
    isplitr; · ipureintro; exact fun _ _ => Or.inl trivial
    iexact HO
  isplitl [Hx]
  · iexists _; isplitr; · (ipureintro; rfl)
    iexact Hx
  ihave Hk1 := (Entails.of_eq (kM_pts c fullShare (kstg m c)).symm) $$ Hk1
  isplitl [Hk1]
  · iexists _; isplitr; · (ipureintro; rfl)
    iexact Hk1
  ihave Hout := (Entails.of_eq (oM_pts c fullShare _).symm) $$ Hout
  iexists _; isplitr
  swap; · iexact Hout
  ipureintro
  sl_unfold_run_names
  simp only [View.writes_cons, View.writes_nil]
  unfold outAt; rw [if_neg hL]
  exact W2_eq g2 (pA m c) (pB m c)

set_option maxHeartbeats 1600000 in
/-- The body on the last shard: no right neighbour, so no wait for a unit, no transfer and no send wait. -/
theorem sound_body_last (c : Dev nD) (hL : 0 < c.val) (hR : ¬ c.val < 7) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hc1 : k0_cond1 c = 1#1 := (cond1_iff c).mpr hL
  have hc2 : ¬ k0_cond2 c = 1#1 := fun h => hR ((cond2_iff c).mp h)
  have hc3 := (cond3_eq c).trans hc1
  have hc4 : ¬ _ = 1#1 := fun h => hc2 ((cond4_eq c).symm.trans h)
  simp only [cc0_body_eq_skeleton]; unfold cc0_body_skel
  simp only [k0_part1_eq_skeleton, k0_part2_eq_skeleton, k0_part3_eq_skeleton]
  unfold k0_part1_skel k0_part2_skel k0_part3_skel
  simp only [semSignalWord, semWaitWord, storeSubelements, Prog.lift, Prog.bind_op, Prog.bind_ret, Prog.pure_eq_ret, wp_deviceId, dif_pos hc1, dif_neg hc2, dif_pos hc3, dif_neg hc4]
  unfold bodyPre ghost invs
  iintro ⟨⟨⟨⟨⟨#HIbar, #HIsnd, #HIrcv, #HIbarP, #HIrcvN⟩, HatB, HatS, HatV, #HrBP, #HrVN, #HrS, #HrV, HtBP, -, -⟩, -, HcV, #Hlev, ⟨%f0, Hscr⟩⟩,
    Ho, ⟨%d0, %g0, %hg0, Hx⟩, ⟨%d1, %g1, %hg1, Hk1⟩, ⟨%d2, %g2, %hg2, Hout⟩⟩, HK⟩
  have hx : g0 = xstg m c := by rw [hg0]; unfold Dat.before; rw [if_pos (fetch_0 t₀)]; rfl
  subst hx
  have hk : g1 = kstg m c := by rw [hg1]; unfold Dat.before; rw [if_pos (fetch_1 t₀)]; rfl
  subst hk
  unfold Dat.owesAt Pipeline.owesWithin
  icases Ho with ⟨%W, %hW, HO⟩
  rw [show (dats m 0 c).owed t₀.castSucc = O₀ c from rfl]
  have hb1 : bAmt c = 1 := if_pos hL
  have hr0 : rAmt c = 0 := if_neg hR
  have hcr : crAmt c = N := if_pos hL
  have hO₁ : O₁ c = 0 := by unfold O₁; rw [hr0, tallyAt_zero]
  have hO₀ : O₀ c = 0 + tallyAt (barCell (prv c)) () 1 := by unfold O₀; rw [hb1, hO₁]
  rw [hcr, hO₀]
  simp only [dev1_eq c hc1]
  have hpv : (prv c).val < 7 := by have h8 : c.val < 8 := c.isLt; rw [prv_val c hL]; omega
  ihave Hx := (Entails.of_eq (xM_pts c fullShare (xstg m c))) $$ Hx
  ihave Hk1 := (Entails.of_eq (kM_pts c fullShare (kstg m c))) $$ Hk1
  ihave Hout := (Entails.of_eq (oM_pts c fullShare g2)) $$ Hout
  unfold scrPts
  -- the whole body: the signal, the loads and stores, the wait on the receive cell
  sl_exec (disch := first | omega | assumption)
  imod (Rounds.cell_close ER (haloRd m) (Set.mem_univ (K (c, 1))) (fun h => h) (R := 0) (duties_send_never m c hR)) $$ [HatS] with HzS
  · isplitr; · iexact HIsnd
    iexact HatS
  imod (Rounds.cell_close ER (haloRd m) (Set.mem_univ (K (c, 2))) (fun h => h) (R := 0 + 1) (duties_later m (recvCell c))) $$ [HatV] with HzV
  · isplitr; · iexact HIrcv
    iexact HatV
  rw [wp_ret]; imodintro
  iapply HK
  unfold bodyPost Φ₁ Dat.owesAt Pipeline.owesWithin
  rw [show (dats m 0 c).owed t₀.succ = 0 from rfl]
  isplitl [HatV_pay1 HzS HzV]
  · isplitl [HatV_pay1]; · iexists _; unfold scrPts; iexact HatV_pay1
    isplitl [HzS]; · iexact HzS
    iexact HzV
  isplitl [HO]
  · iexists (insert (SemLoc.dma recvS.sem, ()) W)
    isplitr; · ipureintro; exact fun _ _ => Or.inl trivial
    iexact HO
  ihave Hx := (Entails.of_eq (xM_pts c fullShare (xstg m c)).symm) $$ Hx
  isplitl [Hx]
  · iexists _; isplitr; · (ipureintro; rfl)
    iexact Hx
  ihave Hk1 := (Entails.of_eq (kM_pts c fullShare (kstg m c)).symm) $$ Hk1
  isplitl [Hk1]
  · iexists _; isplitr; · (ipureintro; rfl)
    iexact Hk1
  ihave Hout := (Entails.of_eq (oM_pts c fullShare _).symm) $$ Hout
  iexists _; isplitr
  swap; · iexact Hout
  ipureintro
  sl_unfold_run_names
  unfold View.readCov
  simp only [View.writes_cons, View.writes_nil]
  unfold outAt; rw [if_pos hL]
  -- rows 0 to 3 are read back off the two half stores, whatever lay under them
  have e1 : W2 g2 (pA m c) (pB m c) = out2 (pA m c) (pB m c) := W2_eq _ _ _
  have e2 : W2 (View.junk (oM : Memref sig .tc .vmem S4x1024x512 .bf16).view) (pA m c) (pB m c) = out2 (pA m c) (pB m c) := W2_eq _ _ _
  show View.write (Elt F) ((oM : Memref sig .tc .vmem S4x1024x512 .bf16).access rFix) (W2 g2 (pA m c) (pB m c))
      (updateSlice ((oM : Memref sig .tc .vmem S4x1024x512 .bf16).view.readAt (Elt F) rFix.toLoadRect
        (W2 (View.junk (oM : Memref sig .tc .vmem S4x1024x512 .bf16).view) (pA m c) (pB m c))) (pC m c) ![0, 0, 0] slices_S4x4x512_S4x3x512_0_0_0) Finset.univ = _
  rw [e1, e2]
  exact W3_eq _ _ _

/-- The body on any shard. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  by_cases hL : 0 < c.val
  · by_cases hR : c.val < 7
    · exact sound_body_mid m K c hL hR Kt
    · exact sound_body_last m K c hL hR Kt
  · exact sound_body_first m K c hL (by omega) Kt

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on shard `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hk1, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Hk1] <;> iassumption
  · iintro H; iexact H

end Body

end Cert.Kernel.Proto

end
-- ==== Proof.RunBits.lean ====
/-
  The launch of the halo exchange on the eight shards, for any float instance, and what every shard's arrays hold when
  every fair execution has ended: the result array at `outAt`, the two argument arrays as they were.
-/
import proofs.«900528_g7700000000000529_dist_gconv1d_seqshard_i_b4_s1024_c512_v7x_i8_bf16_1_alg».proof.Proof.ProtoBits

noncomputable section

namespace Cert.Kernel.Run

open Cert.Kernel Cert.Kernel.Gen Cert.Kernel.Stores Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
/-- The exchange's cells: three per shard. -/
def lineCells : Finset (GSem nD τ sig) := Finset.univ.map ⟨kcell, kcell_injective⟩

/-- A shard's own cells' duty tokens as minted: one per cell, for its one duty of round 0. -/
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def lineToks : Finset (GSem nD τ sig × ℕ × Unit) := Finset.univ.map ⟨tokOf, tokOf_injective⟩

def u₀ : UU :=
  (initOf (Pipeline.cells cfgs cellOf_inj) (Pipeline.launchToks cfgs cellOf_inj), initOf lineCells lineToks)

/-- The duty tokens of shard `c`'s own cells. -/
def toks (c : Dev nD) : sProp 𝕄 :=
  iprop(dutyTok ER (barCell c) 0 () ∗ dutyTok ER (sendCell c) 0 () ∗ dutyTok ER (recvCell c) 0 ())

/-- What the launch element deals shard `c`. -/
def G (c : Dev nD) : sProp 𝕄 :=
  iprop((bigSep Finset.univ fun k : Fin 3 => roundState ER (haloRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_line : BI.own (ER (initOf lineCells lineToks)) ⊢ (|==> bigSep Finset.univ (G m) : sProp 𝕄) := by
  have hX (Φ : GSem nD τ sig → sProp 𝕄) : bigSep lineCells Φ = bigSep Finset.univ fun c : Dev nD => bigSep Finset.univ fun k : Fin 3 => Φ (kcell (c, k)) := by
    unfold lineCells; rw [bigSep_map, bigSep_univ_prod]; rfl
  have hT : bigSep lineToks (fun x => (dutyTok ER x.1 x.2.1 x.2.2 : sProp 𝕄)) = bigSep Finset.univ fun c : Dev nD => toks c := by
    unfold lineToks; rw [bigSep_map, bigSep_univ_prod]
    exact bigSep_congr fun c _ => by unfold toks; rw [bigSep_fin3]; rfl
  iintro HX
  imod (Rounds.fund ER (haloRd m) lineCells lineToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (haloRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (haloRd m) (K ck) (kcell ck) : sProp 𝕄)) ⊢ cellInv ER (haloRd m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with shard `c`: its positions, and the tokens of the duties IT pays: its left neighbour's barrier cell, its
    right neighbour's receive cell, its own send cell. -/
def payToks (c : Dev nD) : sProp 𝕄 :=
  iprop(dutyTok ER (barCell (prv c)) 0 () ∗ dutyTok ER (recvCell (nxt c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost Proto.invs
  iintro ⟨⟨#HI, #HR⟩, ⟨HaB, HaS, HaV⟩, HtBP, HtVN, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (prv c, 0)); iexact HI
    iapply (inv_at m K (nxt c, 2)); iexact HI
  isplitl [HaB]; · iexact HaB
  isplitl [HaS]; · iexact HaS
  isplitl [HaV]; · iexact HaV
  isplitr; · iapply (reached_at (F := F) (prv c, 0)); iexact HR
  isplitr; · iapply (reached_at (F := F) (nxt c, 2)); iexact HR
  isplitr; · iapply (reached_at (F := F) (c, 1)); iexact HR
  isplitr; · iapply (reached_at (F := F) (c, 2)); iexact HR
  isplitl [HtBP]; · iexact HtBP
  isplitl [HtVN]; · iexact HtVN
  iexact HtS

/-- The tokens dealt along the line: a barrier cell's token one shard up (to `nxt`), a receive cell's one shard down
    (to `prv`), a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv ring.symm (fun c : Dev nD => (dutyTok ER (barCell c) 0 () : sProp 𝕄)),
    bigSep_univ_equiv ring (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (haloRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every shard at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What shard `d` owes shard `c`'s barrier cell: its one unit if `d` is `c`'s right neighbour (and has a left one). -/
theorem owed_bar (d c : Dev nD) : O₀ d (barCell c) () = if d = nxt c then bAmt d else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = nxt c
  · subst h; rw [prv_nxt, if_pos ⟨rfl, rfl⟩, if_pos rfl]
  · rw [if_neg (fun ⟨h1, _⟩ => h (by rw [← nxt_prv d]; exact congrArg nxt (bar_eq_iff.mp h1).symm)), if_neg h]

/-- What shard `d` owes shard `c`'s receive cell: the rows if `d` is `c`'s left neighbour (and has a right one). -/
theorem owed_recv (d c : Dev nD) : O₀ d (recvCell c) () = if d = prv c then rAmt d else 0 := by
  unfold O₀ O₁
  rw [Pi.add_apply, Finsupp.add_apply, tallyAt_apply,
    tallyAt_ne_cell (fun h => recv_ne_bar (congrArg Prod.snd h)), Finsupp.zero_apply, Nat.add_zero]
  by_cases h : d = prv c
  · subst h; rw [nxt_prv, if_pos ⟨rfl, rfl⟩, if_pos rfl]
  · rw [if_neg (fun ⟨h1, _⟩ => h (by rw [← prv_nxt d]; exact congrArg prv (recv_eq_iff.mp h1).symm)), if_neg h]

/-- A shard's right neighbour has a left neighbour exactly when the shard has a right one; -/
theorem bAmt_nxt (c : Dev nD) : bAmt (nxt c) = cbAmt c := by
  have h : 0 < (nxt c).val ↔ c.val < 7 := by revert c; decide
  unfold bAmt cbAmt
  by_cases hc : c.val < 7
  · rw [if_pos (h.mpr hc), if_pos hc]
  · rw [if_neg (fun h' => hc (h.mp h')), if_neg hc]
/-- its left neighbour has a right one exactly when the shard has a left one. -/
theorem rAmt_prv (c : Dev nD) : rAmt (prv c) = crAmt c := by
  have h : (prv c).val < 7 ↔ 0 < c.val := by revert c; decide
  unfold rAmt crAmt
  by_cases hc : 0 < c.val
  · rw [if_pos (h.mpr hc), if_pos hc]
  · rw [if_neg (fun h' => hc (h.mp h')), if_neg hc]

theorem launch_bar (c : Dev nD) :
    tallyOn (barCell c) (launchCredit (Pipeline.owing O₀) 0 (barCell c)) = (tallyAt (barCell c) () (cbAmt c) : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nxt c) fun d => bAmt d, if_pos (Finset.mem_univ _), bAmt_nxt]

theorem launch_recv (c : Dev nD) :
    tallyOn (recvCell c) (launchCredit (Pipeline.owing O₀) 0 (recvCell c)) = (tallyAt (recvCell c) () (crAmt c) : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (prv c) fun d => rAmt d, if_pos (Finset.mem_univ _), rAmt_prv]

theorem creds (c : Dev nD) :
    (Pipeline.launchCred O₀ c : sProp 𝕄) ⊢ iprop(cred (tallyAt (barCell c) () (cbAmt c)) ∗ cred (tallyAt (recvCell c) () (crAmt c))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; rw [← scrPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- What the pipeline's arrays hold after the last point. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, for any float values, from any memory with zero counters: every weakly fair
    execution of @main terminates, and every final state has each shard's three arrays at the computed contents. -/
theorem run_main : θ_run defs (onTc (τ := τ) (main (F := F))) ⟨m, fun _ => 0, ρ⟩ (QC m) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_line m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The two argument arrays hold what they held; the result array holds the body's result. -/
theorem finalA_x (c : Dev nD) : finalA m c (0 : Fin 3) = m ((c : Thread nD τ).loc main_arg0) := by
  exact (dats (F := F) m 0 c).arrAt_in (0 : Fin 3) rfl _
theorem finalA_k (c : Dev nD) : finalA m c (1 : Fin 3) = m ((c : Thread nD τ).loc main_arg1) := by
  exact (dats (F := F) m 0 c).arrAt_in (1 : Fin 3) rfl _
theorem finalA_out (c : Dev nD) : finalA m c (2 : Fin 3) = outAt m c := by
  have h := (dats (F := F) m 0 c).read_blk_arrAt_eq_flushed (2 : Fin 3)
    (fun t t' _ _ hne => absurd ((fin_N t).trans (fin_N t').symm) hne) cfg0.N t₀ t₀.isLt (flush0_2 t₀)
  funext i
  have hi := congrFun h i
  refine Eq.trans ?_ (hi.trans ?_)
  · unfold finalA
    symm
    refine congrArg ((dats (F := F) m 0 c).arrAt (2 : Fin 3) cfg0.N) (funext fun a => Fin.ext ?_)
    match a with
    | ⟨0, _⟩ => show 0 * 4 + 1 * (i 0).val = (i 0).val; omega
    | ⟨1, _⟩ => show 0 * 1024 + 1 * (i 1).val = (i 1).val; omega
    | ⟨2, _⟩ => show 0 * 512 + 1 * (i 2).val = (i 2).val; omega
  · rfl

/-- The run in the shape the claims are stated in. -/
theorem run : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun r h c => ⟨(h c (2 : Fin 3)).trans (finalA_out m c), (h c (0 : Fin 3)).trans (finalA_x m c),
    (h c (1 : Fin 3)).trans (finalA_k m c)⟩) (run_main m ρ)

end Cert.Kernel.Run

end
-- ==== Proof.Spec.lean ====
/-
  The scalar mathematics of the halo convolution, with no program in sight.

  For one batch entry and one channel, an output row is SiLU of a four-tap sum
  `p₀·k₀ + p₁·k₁ + p₂·k₂ + p₃·k₃` over four consecutive rows of the sequence padded in front by
  three zero rows. The whole-array program adds the four products onto a zero array, one tap after
  the other; the sharded program adds them without the leading zero, and for the first three rows
  of a shard that has a left neighbour it adds, to the sum over its own rows (padded by zeros), the
  products with the neighbour's last three rows. On the extended reals addition is commutative and
  associative, `0 · k = 0` and `0 + a = a`, so the two sums agree with no finiteness assumed.

  SiLU is written `a / (1 + e^(-a))` on one side and `a · (1 / (1 + e^(0 - a)))` on the other.
  The divisor is at least one, hence not zero, and off zero the quotient is the product with the
  inverse: the two spellings are one function of every extended real.
-/
import Idealize.ShloMosaic.PureOps.Ideal
import Idealize.ShloMosaic.PureOps.Ideal.Laws

noncomputable section

namespace Cert.Spec

open Idealize.ShloMosaic

/-- SiLU as a quotient. -/
def silu (a : EReal) : EReal := Ideal.div a (1 + Ideal.exp (-a))

/-- SiLU as a product with a reciprocal, the negation spelt as a difference from zero. -/
def siluK (a : EReal) : EReal := a * Ideal.div 1 (1 + Ideal.exp (0 - a))

/-- The exponential is nowhere negative: zero at `⊥`, `⊤` at `⊤`, positive in between. -/
theorem exp_nonneg (y : EReal) : 0 ≤ Ideal.exp y := by
  induction y using EReal.rec with
  | bot => rw [Ideal.exp_bot]
  | coe r => rw [Ideal.exp_coe]; exact_mod_cast (Real.exp_pos r).le
  | top => rw [Ideal.exp_top]; exact le_top

/-- One plus an exponential is positive, so it is not zero. -/
theorem one_add_exp_ne_zero (y : EReal) : (1 : EReal) + Ideal.exp y ≠ 0 := by
  have h1 : (0 : EReal) < 1 := by exact_mod_cast (zero_lt_one : (0 : ℝ) < 1)
  have h : (0 : EReal) < 1 + Ideal.exp y :=
    lt_of_lt_of_le h1 (le_add_of_nonneg_right (exp_nonneg y))
  exact ne_of_gt h

/-- The two spellings of SiLU are one function. -/
theorem siluK_eq (a : EReal) : siluK a = silu a := by
  unfold siluK silu
  rw [zero_sub, Ideal.div, Ideal.div, if_neg (one_add_exp_ne_zero _), if_neg (one_add_exp_ne_zero _), one_mul]

/-- The four-tap sum added onto zero, tap after tap. -/
def tapsR (k0 k1 k2 k3 p0 p1 p2 p3 : EReal) : EReal := (((0 + p0 * k0) + p1 * k1) + p2 * k2) + p3 * k3

/-- The four-tap sum without the leading zero. -/
def tapsK (k0 k1 k2 k3 q0 q1 q2 q3 : EReal) : EReal := ((q0 * k0 + q1 * k1) + q2 * k2) + q3 * k3

theorem tapsK_eq (k0 k1 k2 k3 p0 p1 p2 p3 : EReal) : tapsK k0 k1 k2 k3 p0 p1 p2 p3 = tapsR k0 k1 k2 k3 p0 p1 p2 p3 := by
  unfold tapsK tapsR; rw [zero_add]

/-- What the neighbour's last three rows `h₀ h₁ h₂` add to the shard's rows 0, 1 and 2. -/
def miss0 (k0 k1 k2 h0 h1 h2 : EReal) : EReal := (k0 * h0 + k1 * h1) + k2 * h2
def miss1 (k0 k1 h1 h2 : EReal) : EReal := k0 * h1 + k1 * h2
def miss2 (k0 h2 : EReal) : EReal := k0 * h2

/-- Row 0 of a shard with a left neighbour: its own sum sees three padding zeros. -/
theorem halo0 (k0 k1 k2 k3 h0 h1 h2 x0 : EReal) :
    tapsK k0 k1 k2 k3 0 0 0 x0 + miss0 k0 k1 k2 h0 h1 h2 = tapsR k0 k1 k2 k3 h0 h1 h2 x0 := by
  unfold tapsK tapsR miss0
  simp only [zero_mul, zero_add, mul_comm k0, mul_comm k1, mul_comm k2]
  simp only [add_assoc, add_comm, add_left_comm]

/-- Row 1: two padding zeros. -/
theorem halo1 (k0 k1 k2 k3 h1 h2 x0 x1 : EReal) :
    tapsK k0 k1 k2 k3 0 0 x0 x1 + miss1 k0 k1 h1 h2 = tapsR k0 k1 k2 k3 h1 h2 x0 x1 := by
  unfold tapsK tapsR miss1
  simp only [zero_mul, zero_add, mul_comm k0, mul_comm k1]
  simp only [add_assoc, add_comm, add_left_comm]

/-- Row 2: one padding zero. -/
theorem halo2 (k0 k1 k2 k3 h2 x0 x1 x2 : EReal) :
    tapsK k0 k1 k2 k3 0 x0 x1 x2 + miss2 k0 h2 = tapsR k0 k1 k2 k3 h2 x0 x1 x2 := by
  unfold tapsK tapsR miss2
  simp only [zero_mul, zero_add, mul_comm k0]
  simp only [add_assoc, add_comm, add_left_comm]

/-- The two float literals of the sharded program, as extended reals. -/
theorem ofBits_zero_bf16 : Ideal.ofBits .bf16 0x0000#16 = 0 := by simp [Ideal.ofBits, Ideal.ieee]
theorem ofBits_one_bf16 : Ideal.ofBits .bf16 0x3F80#16 = 1 := by simp [Ideal.ofBits, Ideal.ieee, -EReal.coe_mul]; norm_num
/-- The whole-array program's one. -/
theorem ofBits_one_f32 : Ideal.ofBits .f32 0x3F800000#32 = 1 := by simp [Ideal.ofBits, Ideal.ieee, -EReal.coe_mul]; norm_num

end Cert.Spec

end
-- ==== Proof.RefValue.lean ====
/-
  The whole-array program read at one index.

  At batch entry `b`, row `R` and channel `ch` the result is SiLU of the four-tap sum over rows
  `R, R+1, R+2, R+3` of the sequence padded in front by three zero rows, the taps being row 0 to 3
  of the filter at that channel. `padAt` is that padded sequence: zero at the first three
  positions, the array's row `j - 3` afterwards.
-/
import proofs.«900528_g7700000000000529_dist_gconv1d_seqshard_i_b4_s1024_c512_v7x_i8_bf16_1_alg».proof.Defs
import proofs.«900528_g7700000000000529_dist_gconv1d_seqshard_i_b4_s1024_c512_v7x_i8_bf16_1_alg».proof.Proof.Gen.ReferenceIdeal.Read
import proofs.«900528_g7700000000000529_dist_gconv1d_seqshard_i_b4_s1024_c512_v7x_i8_bf16_1_alg».proof.Proof.Spec
import Idealize.ShloMosaic.Lib.ValueIdx
import Idealize.ShloMosaic.Lib.Pipeline.Value

noncomputable section

namespace Cert.RefValue

open Idealize.ShloMosaic Idealize.ShloMosaic.ValueIdx Cert.ReferenceIdeal

/-- The sequence padded in front by three zero rows, at batch entry `b`, padded position `j`, channel `ch`. -/
def padAt (x : (⟨S4x8192x512, .f32⟩ : BufTy).Contents (Elt Ideal)) (b : Fin 4) (j : ℕ) (ch : Fin 512) : EReal :=
  if h : 3 ≤ j ∧ j - 3 < 8192 then x (ix3 b ⟨j - 3, h.2⟩ ch) else 0

/-- The padded array at explicit coordinates: below position 3 it is one of the three zero rows, from position 3
    on it is the argument array three rows earlier. -/
theorem pad_apply (x0 : (⟨S4x8192x512, .f32⟩ : BufTy).Contents (Elt Ideal)) (b : Fin 4) (j : Fin 8195) (ch : Fin 512) :
    Read.val_main_v1 (F := Ideal) x0 (ix3 b j ch) = padAt x0 b j.val ch := by
  unfold Read.val_main_v1
  by_cases hj : j.val < 3
  · refine (concatenate_pair_apply_left (s₁ := S4x3x512) (s₂ := S4x8192x512) (1 : Fin S4x8195x512.rank) _ _ _ (ix3 b j ch) rfl (ix3 b (⟨j.val, hj⟩ : Fin 3) ch : S4x3x512.Idx)
      (fun a => match a with | ⟨0, _⟩ => rfl | ⟨1, _⟩ => rfl | ⟨2, _⟩ => rfl)).trans ?_
    rw [Read.val_main_v0_apply, Read.val_main_cst_apply, Ideal.ofBits_def, Ideal.ofBits_zero_f32]
    unfold padAt
    rw [dif_neg (show ¬ (3 ≤ j.val ∧ j.val - 3 < 8192) by omega)]
  · have hj' : j.val < 8195 := j.isLt
    have h3 : j.val - 3 < 8192 := by omega
    refine (concatenate_pair_apply_right (s₁ := S4x3x512) (s₂ := S4x8192x512) (1 : Fin S4x8195x512.rank) _ _ _ (ix3 b j ch) rfl rfl (ix3 b (⟨j.val - 3, h3⟩ : Fin 8192) ch : S4x8192x512.Idx)
      (fun a => match a with
        | ⟨0, _⟩ => fun _ => rfl
        | ⟨1, _⟩ => fun hne => absurd rfl hne
        | ⟨2, _⟩ => fun _ => rfl)
      (by show j.val - 3 + 3 = j.val; omega)).trans ?_
    unfold padAt
    rw [dif_pos (show 3 ≤ j.val ∧ j.val - 3 < 8192 from ⟨by omega, h3⟩)]

/-- The slice starting at padded row 0, read at `(b, R, ch)`, is the padded sequence at position `R + 0`. -/
theorem slice0 (x0 : (⟨S4x8192x512, .f32⟩ : BufTy).Contents (Elt Ideal)) (b : Fin 4) (R : Fin 8192) (ch : Fin 512) :
    Read.val_main_v3 (F := Ideal) x0 (ix3 b R ch) = padAt x0 b (R.val) ch := by
  have hR : R.val < 8195 := by have := R.isLt; omega
  have e : Read.idx_main_v3 (ix3 b R ch) = ix3 b ⟨R.val, hR⟩ ch :=
    funext fun a => Fin.ext (by
      match a with
      | ⟨0, _⟩ => rfl
      | ⟨1, _⟩ => rfl
      | ⟨2, _⟩ => rfl)
  rw [Read.val_main_v3_apply, e, pad_apply]

/-- The slice starting at padded row 1, read at `(b, R, ch)`, is the padded sequence at position `R + 1`. -/
theorem slice1 (x0 : (⟨S4x8192x512, .f32⟩ : BufTy).Contents (Elt Ideal)) (b : Fin 4) (R : Fin 8192) (ch : Fin 512) :
    Read.val_main_v10 (F := Ideal) x0 (ix3 b R ch) = padAt x0 b (R.val + 1) ch := by
  have hR : R.val + 1 < 8195 := by have := R.isLt; omega
  have e : Read.idx_main_v10 (ix3 b R ch) = ix3 b ⟨R.val + 1, hR⟩ ch :=
    funext fun a => Fin.ext (by
      match a with
      | ⟨0, _⟩ => rfl
      | ⟨1, _⟩ => exact Nat.add_comm 1 R.val
      | ⟨2, _⟩ => rfl)
  rw [Read.val_main_v10_apply, e, pad_apply]

/-- The slice starting at padded row 2, read at `(b, R, ch)`, is the padded sequence at position `R + 2`. -/
theorem slice2 (x0 : (⟨S4x8192x512, .f32⟩ : BufTy).Contents (Elt Ideal)) (b : Fin 4) (R : Fin 8192) (ch : Fin 512) :
    Read.val_main_v17 (F := Ideal) x0 (ix3 b R ch) = padAt x0 b (R.val + 2) ch := by
  have hR : R.val + 2 < 8195 := by have := R.isLt; omega
  have e : Read.idx_main_v17 (ix3 b R ch) = ix3 b ⟨R.val + 2, hR⟩ ch :=
    funext fun a => Fin.ext (by
      match a with
      | ⟨0, _⟩ => rfl
      | ⟨1, _⟩ => exact Nat.add_comm 2 R.val
      | ⟨2, _⟩ => rfl)
  rw [Read.val_main_v17_apply, e, pad_apply]

/-- The slice starting at padded row 3, read at `(b, R, ch)`, is the padded sequence at position `R + 3`. -/
theorem slice3 (x0 : (⟨S4x8192x512, .f32⟩ : BufTy).Contents (Elt Ideal)) (b : Fin 4) (R : Fin 8192) (ch : Fin 512) :
    Read.val_main_v24 (F := Ideal) x0 (ix3 b R ch) = padAt x0 b (R.val + 3) ch := by
  have hR : R.val + 3 < 8195 := by have := R.isLt; omega
  have e : Read.idx_main_v24 (ix3 b R ch) = ix3 b ⟨R.val + 3, hR⟩ ch :=
    funext fun a => Fin.ext (by
      match a with
      | ⟨0, _⟩ => rfl
      | ⟨1, _⟩ => exact Nat.add_comm 3 R.val
      | ⟨2, _⟩ => rfl)
  rw [Read.val_main_v24_apply, e, pad_apply]

/-- Filter row 0, broadcast over batch and rows, read at `(b, R, ch)`, is the filter's entry `(0, ch)`. -/
theorem tap0 (x1 : (⟨S4x512, .f32⟩ : BufTy).Contents (Elt Ideal)) (b : Fin 4) (R : Fin 8192) (ch : Fin 512) :
    Read.val_main_v7 (F := Ideal) x1 (ix3 b R ch) = x1 (ix2 0 ch) := by
  rw [Read.val_main_v7_apply, Read.val_main_v6_apply, Read.val_main_v5_apply, Read.val_main_v4_apply]
  refine congrArg x1 (funext fun a => Fin.ext ?_)
  match a with
  | ⟨0, _⟩ => rfl
  | ⟨1, _⟩ => show ch.val % 512 = ch.val; exact Nat.mod_eq_of_lt ch.isLt

/-- Filter row 1, broadcast over batch and rows, read at `(b, R, ch)`, is the filter's entry `(1, ch)`. -/
theorem tap1 (x1 : (⟨S4x512, .f32⟩ : BufTy).Contents (Elt Ideal)) (b : Fin 4) (R : Fin 8192) (ch : Fin 512) :
    Read.val_main_v14 (F := Ideal) x1 (ix3 b R ch) = x1 (ix2 1 ch) := by
  rw [Read.val_main_v14_apply, Read.val_main_v13_apply, Read.val_main_v12_apply, Read.val_main_v11_apply]
  refine congrArg x1 (funext fun a => Fin.ext ?_)
  match a with
  | ⟨0, _⟩ => rfl
  | ⟨1, _⟩ => show ch.val % 512 = ch.val; exact Nat.mod_eq_of_lt ch.isLt

/-- Filter row 2, broadcast over batch and rows, read at `(b, R, ch)`, is the filter's entry `(2, ch)`. -/
theorem tap2 (x1 : (⟨S4x512, .f32⟩ : BufTy).Contents (Elt Ideal)) (b : Fin 4) (R : Fin 8192) (ch : Fin 512) :
    Read.val_main_v21 (F := Ideal) x1 (ix3 b R ch) = x1 (ix2 2 ch) := by
  rw [Read.val_main_v21_apply, Read.val_main_v20_apply, Read.val_main_v19_apply, Read.val_main_v18_apply]
  refine congrArg x1 (funext fun a => Fin.ext ?_)
  match a with
  | ⟨0, _⟩ => rfl
  | ⟨1, _⟩ => show ch.val % 512 = ch.val; exact Nat.mod_eq_of_lt ch.isLt

/-- Filter row 3, broadcast over batch and rows, read at `(b, R, ch)`, is the filter's entry `(3, ch)`. -/
theorem tap3 (x1 : (⟨S4x512, .f32⟩ : BufTy).Contents (Elt Ideal)) (b : Fin 4) (R : Fin 8192) (ch : Fin 512) :
    Read.val_main_v28 (F := Ideal) x1 (ix3 b R ch) = x1 (ix2 3 ch) := by
  rw [Read.val_main_v28_apply, Read.val_main_v27_apply, Read.val_main_v26_apply, Read.val_main_v25_apply]
  refine congrArg x1 (funext fun a => Fin.ext ?_)
  match a with
  | ⟨0, _⟩ => rfl
  | ⟨1, _⟩ => show ch.val % 512 = ch.val; exact Nat.mod_eq_of_lt ch.isLt

/-- The last stage of the whole-array program at an index. -/
theorem ref_apply (x0 : (⟨S4x8192x512, .f32⟩ : BufTy).Contents (Elt Ideal)) (x1 : (⟨S4x512, .f32⟩ : BufTy).Contents (Elt Ideal))
    (b : Fin 4) (R : Fin 8192) (ch : Fin 512) :
    Cert.ReferenceIdeal.Read.val_main_v36 (F := Ideal) x0 x1 (ix3 b R ch)
      = Cert.Spec.silu (Cert.Spec.tapsR (x1 (ix2 0 ch)) (x1 (ix2 1 ch)) (x1 (ix2 2 ch)) (x1 (ix2 3 ch))
          (padAt x0 b R.val ch) (padAt x0 b (R.val + 1) ch) (padAt x0 b (R.val + 2) ch) (padAt x0 b (R.val + 3) ch)) := by
  rw [Read.val_main_v36_apply, Read.val_main_v35_apply, Read.val_main_v34_apply, Read.val_main_v33_apply,
    Read.val_main_cst_1_apply, Read.val_main_v32_apply, Read.val_main_v31_apply, Read.val_main_v30_apply,
    Read.val_main_v29_apply, Read.val_main_v23_apply, Read.val_main_v22_apply, Read.val_main_v16_apply,
    Read.val_main_v15_apply, Read.val_main_v9_apply, Read.val_main_v8_apply, Read.val_main_v2_apply,
    Read.val_main_cst_0_apply, slice0, slice1, slice2, slice3, tap0, tap1, tap2, tap3]
  simp only [Ideal.truncf_def, Ideal.hostDivf_def, Ideal.addf_def, Ideal.mulf_def, Ideal.hostUnary_exp_def,
    Ideal.hostNegf_def, Ideal.negf_def, Ideal.ofBits_def, Ideal.ofBits_zero_f32, Cert.Spec.ofBits_one_f32]
  rfl

end Cert.RefValue

end
-- ==== Proof.PayValue.lean ====
/-
  What the sharded program stores, read at one index of the extended reals.

  Rows 0 to 511 of a shard are SiLU of the four-tap sum over the shard's own rows padded in front
  by three zeros (`padA`); rows 512 to 1023 the same sum over the 515 rows loaded from row 509 on;
  and, on a shard with a left neighbour, rows 0, 1 and 2 are SiLU of the first sum plus the
  products of the leading taps with the neighbour's last rows `h₀ h₁ h₂`.
-/
import proofs.«900528_g7700000000000529_dist_gconv1d_seqshard_i_b4_s1024_c512_v7x_i8_bf16_1_alg».proof.Proof.Gen.KernelIdeal.Skeleton
import proofs.«900528_g7700000000000529_dist_gconv1d_seqshard_i_b4_s1024_c512_v7x_i8_bf16_1_alg».proof.Proof.Spec
import Idealize.ShloMosaic.Lib.ValueIdx
import Idealize.ShloMosaic.Lib.ValueLayout
import Idealize.ShloMosaic.Lib.Pipeline.Value

noncomputable section

namespace Cert.PayValue

open Idealize.ShloMosaic Idealize.ShloMosaic.ValueIdx Cert.KernelIdeal Cert.KernelIdeal.Gen

/-- The shard's first 512 rows padded in front by three zero rows. -/
def padA (v10 : Vec Ideal S4x512x512 .f32) (b : Fin 4) (j : ℕ) (ch : Fin 512) : EReal :=
  if h : 3 ≤ j ∧ j - 3 < 512 then v10 (ix3 b ⟨j - 3, h.2⟩ ch) else 0

/-- The four-tap sum over the padded first half, at row `r`. -/
def accA (v7 : Vec Ideal S4x512 .f32) (v10 : Vec Ideal S4x512x512 .f32) (b : Fin 4) (r : ℕ) (ch : Fin 512) : EReal :=
  Cert.Spec.tapsK (v7 (ix2 0 ch)) (v7 (ix2 1 ch)) (v7 (ix2 2 ch)) (v7 (ix2 3 ch))
    (padA v10 b r ch) (padA v10 b (r + 1) ch) (padA v10 b (r + 2) ch) (padA v10 b (r + 3) ch)

/-! ## The layout operations of the payloads, each read at explicit coordinates -/

/-- The filter as the kernel holds it (a same-shape cast and a format change) is the filter. -/
theorem pay8_apply (v7 : Vec Ideal S4x512 .f32) (i : S4x512.Idx) : k0_pay8 (F := Ideal) v7 i = v7 i := by
  unfold k0_pay8
  show shapeCast S4x512 v7 shapeCasts_S4x512_S4x512 i = v7 i
  rw [shapeCast_self]

/-- Row `t` of the filter, cut out, flattened, given two leading unit axes and broadcast over a
    [4,512,512] block, reads at `(b, r, ch)` the filter's entry `(t, ch)`. -/
theorem filt3_apply (v9 : FVec Ideal S4x512 .bf16) (t : ℕ) (ht : t < 4) (hs : S4x512.Slices ![t, 0] S1x512)
    (b : Fin 4) (r : Fin 512) (ch : Fin 512) :
    broadcastTo S4x512x512 (shapeCast S1x1x512 (shapeCast S512 (extractStridedSlice S1x512 ![t, 0] v9 hs)
      shapeCasts_S1x512_S512) shapeCasts_S512_S1x1x512) broadcasts_S1x1x512_S4x512x512 (ix3 b r ch)
      = v9 (ix2 ⟨t, ht⟩ ch) := by
  refine (broadcastTo_apply _ _ (ix3 b r ch) (ix3 (0 : Fin 1) (0 : Fin 1) ch) (fun a => ?_)).trans ?_
  · match a with
    | ⟨0, _⟩ => rfl
    | ⟨1, _⟩ => rfl
    | ⟨2, _⟩ => rfl
  refine (shapeCast_apply _ _ (ix3 (0 : Fin 1) (0 : Fin 1) ch) (ix1 ch) ?_).trans ?_
  · rw [Shape.rowMajor_val_one, Shape.rowMajor_val_three]
    show ch.val = (0 * 1 + 0) * 512 + ch.val
    omega
  refine (shapeCast_1a_a_apply _ _ ch).trans ?_
  exact slice2_axis0_apply t v9 hs (0 : Fin 1) ch ⟨t, ht⟩ (by simp)

/-- The same row given one leading unit axis and broadcast over a [4,512] block reads at `(b, ch)`
    the filter's entry `(t, ch)`. -/
theorem filt2_apply (v9 : FVec Ideal S4x512 .bf16) (t : ℕ) (ht : t < 4) (hs : S4x512.Slices ![t, 0] S1x512)
    (b : Fin 4) (ch : Fin 512) :
    broadcastTo S4x512 (shapeCast S1x512 (shapeCast S512 (extractStridedSlice S1x512 ![t, 0] v9 hs)
      shapeCasts_S1x512_S512) shapeCasts_S512_S1x512) broadcasts_S1x512_S4x512 (ix2 b ch)
      = v9 (ix2 ⟨t, ht⟩ ch) := by
  refine (broadcastTo_1b_ab_apply _ _ b ch).trans ?_
  refine (shapeCast_a_1a_apply _ _ (0 : Fin 1) ch).trans ?_
  refine (shapeCast_1a_a_apply _ _ ch).trans ?_
  exact slice2_axis0_apply t v9 hs (0 : Fin 1) ch ⟨t, ht⟩ (by simp)

/-- The 515 loaded rows (a same-shape cast and a format change) cut from row `o` read at `(b, r, ch)`
    the loaded row `o + r`. -/
theorem dataB_apply (v56 : Vec Ideal S4x515x512 .f32) (o : ℕ) (hs : S4x515x512.Slices ![0, o, 0] S4x512x512)
    (b : Fin 4) (r : Fin 512) (ch : Fin 512) (k : Fin 515) (hk : k.val = o + r.val) :
    extractStridedSlice S4x512x512 ![0, o, 0]
      (truncf .bf16 (shapeCast S4x515x512 v56 shapeCasts_S4x515x512_S4x515x512) bitsLt_bf16_f32 : FVec Ideal S4x515x512 .bf16)
      hs (ix3 b r ch) = v56 (ix3 b k ch) := by
  refine (slice3_axis1_apply o _ hs b r ch k hk).trans ?_
  show shapeCast S4x515x512 v56 shapeCasts_S4x515x512_S4x515x512 (ix3 b k ch) = v56 (ix3 b k ch)
  rw [shapeCast_self]

/-! ## The pointwise part: a four-tap sum and the SiLU tail, read at an index -/

/-- Four products summed left to right read at an index the kernel's four-tap sum of what the
    eight operands read there. -/
theorem tapsK_read {s : Shape} (A0 A1 A2 A3 B0 B1 B2 B3 : FVec Ideal s .bf16) (i : s.Idx)
    {k0 k1 k2 k3 q0 q1 q2 q3 : EReal}
    (hq0 : A0 i = q0) (hk0 : B0 i = k0) (hq1 : A1 i = q1) (hk1 : B1 i = k1)
    (hq2 : A2 i = q2) (hk2 : B2 i = k2) (hq3 : A3 i = q3) (hk3 : B3 i = k3) :
    addf (addf (addf (mulf A0 B0) (mulf A1 B1)) (mulf A2 B2)) (mulf A3 B3) i
      = Cert.Spec.tapsK k0 k1 k2 k3 q0 q1 q2 q3 := by
  subst hq0 hk0 hq1 hk1 hq2 hk2 hq3 hk3
  rfl

/-- `x · (1 / (1 + exp (0 − x)))` with the literals `0` and `1` given by their bf16 words is the
    kernel's SiLU of what `x` reads. -/
theorem siluK_read {s : Shape} (X : FVec Ideal s .bf16) (i : s.Idx) {a : EReal} (hX : X i = a) :
    X i * Ideal.div (Ideal.ofBits .bf16 0x3F80#16)
        (Ideal.ofBits .bf16 0x3F80#16 + Ideal.exp (Ideal.ofBits .bf16 0x0000#16 - X i))
      = Cert.Spec.siluK a := by
  rw [Cert.Spec.ofBits_one_bf16, Cert.Spec.ofBits_zero_bf16, hX]
  rfl

/-! ## Rows 512 to 1023 -/

/-- The second half's four-tap sum over the 515 loaded rows. -/
theorem pay13_apply (v7 : Vec Ideal S4x512 .f32) (v56 : Vec Ideal S4x515x512 .f32) (b : Fin 4) (r : Fin 512) (ch : Fin 512) :
    k0_pay13 (F := Ideal) (k0_pay8 v7) v56 (ix3 b r ch)
      = Cert.Spec.tapsK (v7 (ix2 0 ch)) (v7 (ix2 1 ch)) (v7 (ix2 2 ch)) (v7 (ix2 3 ch))
          (v56 (ix3 b ⟨r.val, by omega⟩ ch)) (v56 (ix3 b ⟨r.val + 1, by omega⟩ ch))
          (v56 (ix3 b ⟨r.val + 2, by omega⟩ ch)) (v56 (ix3 b ⟨r.val + 3, by omega⟩ ch)) := by
  unfold k0_pay13
  exact tapsK_read _ _ _ _ _ _ _ _ _
    (dataB_apply v56 0 _ b r ch _ (Nat.zero_add _).symm)
    ((filt3_apply _ 0 (by omega) _ b r ch).trans (pay8_apply v7 _))
    (dataB_apply v56 1 _ b r ch _ (Nat.add_comm _ _))
    ((filt3_apply _ 1 (by omega) _ b r ch).trans (pay8_apply v7 _))
    (dataB_apply v56 2 _ b r ch _ (Nat.add_comm _ _))
    ((filt3_apply _ 2 (by omega) _ b r ch).trans (pay8_apply v7 _))
    (dataB_apply v56 3 _ b r ch _ (Nat.add_comm _ _))
    ((filt3_apply _ 3 (by omega) _ b r ch).trans (pay8_apply v7 _))

/-! ## Rows 0 to 511: the padded block -/

/-- Three zero rows in front of the shard's first 512 rows, read at `(b, k, ch)`: zero on the first
    three rows, the shard's row `k − 3` after them. -/
theorem padBlock_apply (v10 : Vec Ideal S4x512x512 .f32) (b : Fin 4) (k : Fin 515) (ch : Fin 512) :
    concatenate S4x515x512 1
      [⟨S4x3x512, broadcast S4x3x512 (Scalar.ofBits .bf16 0x0000#16 : Ideal .bf16)⟩,
       ⟨S4x512x512, (truncf .bf16 (shapeCast S4x512x512 v10 shapeCasts_S4x512x512_S4x512x512) bitsLt_bf16_f32 : FVec Ideal S4x512x512 .bf16)⟩]
      concatenates_S4x3x512_S4x512x512_S4x515x512_d1 (ix3 b k ch) = padA v10 b k.val ch := by
  by_cases hk : k.val < 3
  · refine (concatenate_pair_apply_left (t := S4x515x512) (s₁ := S4x3x512) (s₂ := S4x512x512) 1 _ _ _ (ix3 b k ch) rfl (ix3 b (⟨k.val, hk⟩ : Fin 3) ch) (fun a => ?_)).trans ?_
    · match a with
      | ⟨0, _⟩ => rfl
      | ⟨1, _⟩ => rfl
      | ⟨2, _⟩ => rfl
    · unfold padA
      rw [dif_neg (by omega)]
      exact Cert.Spec.ofBits_zero_bf16
  · have hk3 : 3 ≤ k.val ∧ k.val - 3 < 512 := ⟨by omega, by have := k.isLt; omega⟩
    refine (concatenate_pair_apply_right (t := S4x515x512) (s₁ := S4x3x512) (s₂ := S4x512x512) 1 _ _ _ (ix3 b k ch) rfl rfl (ix3 b (⟨k.val - 3, hk3.2⟩ : Fin 512) ch)
      (fun a ha => ?_) ?_).trans ?_
    · match a with
      | ⟨0, _⟩ => rfl
      | ⟨1, _⟩ => exact absurd (Fin.ext rfl) ha
      | ⟨2, _⟩ => rfl
    · show k.val - 3 + 3 = k.val
      omega
    · unfold padA
      rw [dif_pos hk3]
      show shapeCast S4x512x512 v10 shapeCasts_S4x512x512_S4x512x512 (ix3 b (⟨k.val - 3, hk3.2⟩ : Fin 512) ch) = _
      rw [shapeCast_self]

/-- The padded block cut from row `o` reads at `(b, r, ch)` its row `r + o`. -/
theorem dataA_apply (v10 : Vec Ideal S4x512x512 .f32) (o : ℕ) (hs : S4x515x512.Slices ![0, o, 0] S4x512x512)
    (b : Fin 4) (r : Fin 512) (ch : Fin 512) (ho : r.val + o < 515) :
    extractStridedSlice S4x512x512 ![0, o, 0]
      (concatenate S4x515x512 1
        [⟨S4x3x512, broadcast S4x3x512 (Scalar.ofBits .bf16 0x0000#16 : Ideal .bf16)⟩,
         ⟨S4x512x512, (truncf .bf16 (shapeCast S4x512x512 v10 shapeCasts_S4x512x512_S4x512x512) bitsLt_bf16_f32 : FVec Ideal S4x512x512 .bf16)⟩]
        concatenates_S4x3x512_S4x512x512_S4x515x512_d1)
      hs (ix3 b r ch) = padA v10 b (r.val + o) ch :=
  (slice3_axis1_apply o _ hs b r ch ⟨r.val + o, ho⟩ (Nat.add_comm _ _)).trans (padBlock_apply v10 b ⟨r.val + o, ho⟩ ch)

/-- The first half's four-tap sum over the padded block. -/
theorem pay9_apply (v7 : Vec Ideal S4x512 .f32) (v10 : Vec Ideal S4x512x512 .f32) (b : Fin 4) (r : Fin 512) (ch : Fin 512) :
    k0_pay9 (F := Ideal) v7 v10 (ix3 b r ch) = accA v7 v10 b r.val ch := by
  unfold k0_pay9 accA
  exact tapsK_read _ _ _ _ _ _ _ _ _
    (dataA_apply v10 0 _ b r ch (by omega))
    ((filt3_apply _ 0 (by omega) _ b r ch).trans (pay8_apply v7 _))
    (dataA_apply v10 1 _ b r ch (by omega))
    ((filt3_apply _ 1 (by omega) _ b r ch).trans (pay8_apply v7 _))
    (dataA_apply v10 2 _ b r ch (by omega))
    ((filt3_apply _ 2 (by omega) _ b r ch).trans (pay8_apply v7 _))
    (dataA_apply v10 3 _ b r ch (by omega))
    ((filt3_apply _ 3 (by omega) _ b r ch).trans (pay8_apply v7 _))

/-- Rows 0 to 511. -/
theorem payA_apply (v7 : Vec Ideal S4x512 .f32) (v10 : Vec Ideal S4x512x512 .f32) (b : Fin 4) (r : Fin 512) (ch : Fin 512) :
    k0_pay12 (F := Ideal) (k0_pay9 v7 v10) (k0_pay10 v7 v10) k0_pay11 (ix3 b r ch) = Cert.Spec.siluK (accA v7 v10 b r.val ch) := by
  unfold k0_pay12 k0_pay10 k0_pay11
  exact siluK_read (k0_pay9 (F := Ideal) v7 v10) (ix3 b r ch) (pay9_apply v7 v10 b r ch)

/-- Rows 512 to 1023, over the 515 rows loaded from row 509 on. -/
theorem payB_apply (v7 : Vec Ideal S4x512 .f32) (v56 : Vec Ideal S4x515x512 .f32) (b : Fin 4) (r : Fin 512) (ch : Fin 512) :
    k0_pay1 (F := Ideal) (k0_pay13 (k0_pay8 v7) v56) (k0_pay14 (k0_pay8 v7) v56) (ix3 b r ch)
      = Cert.Spec.siluK (Cert.Spec.tapsK (v7 (ix2 0 ch)) (v7 (ix2 1 ch)) (v7 (ix2 2 ch)) (v7 (ix2 3 ch))
          (v56 (ix3 b ⟨r.val, by omega⟩ ch)) (v56 (ix3 b ⟨r.val + 1, by omega⟩ ch))
          (v56 (ix3 b ⟨r.val + 2, by omega⟩ ch)) (v56 (ix3 b ⟨r.val + 3, by omega⟩ ch))) := by
  unfold k0_pay1 k0_pay14
  exact siluK_read (k0_pay13 (F := Ideal) (k0_pay8 v7) v56) (ix3 b r ch) (pay13_apply v7 v56 b r ch)

/-! ## Rows 0, 1 and 2 of a shard with a left neighbour -/

/-- A [4,512] array given a middle unit axis reads at `(b, u, ch)` the operand at `(b, ch)`. -/
theorem cast_ab_a1b_apply (x : FVec Ideal S4x512 .bf16) (b : Fin 4) (u : Fin 1) (ch : Fin 512) :
    shapeCast S4x1x512 x shapeCasts_S4x512_S4x1x512 (ix3 b u ch) = x (ix2 b ch) :=
  shapeCast_apply x _ _ _ (by
    have hu : u.val = 0 := by omega
    rw [Shape.rowMajor_val_two, Shape.rowMajor_val_three]
    show b.val * 512 + ch.val = (b.val * 1 + u.val) * 512 + ch.val
    rw [hu]
    omega)

/-- A [4,1,512] array with its middle unit axis dropped reads at `(b, ch)` the operand at `(b, 0, ch)`. -/
theorem cast_a1b_ab_apply (x : FVec Ideal S4x1x512 .bf16) (b : Fin 4) (ch : Fin 512) :
    shapeCast S4x512 x shapeCasts_S4x1x512_S4x512 (ix2 b ch) = x (ix3 b (0 : Fin 1) ch) :=
  shapeCast_apply x _ _ _ (by
    rw [Shape.rowMajor_val_three, Shape.rowMajor_val_two]
    show (b.val * 1 + 0) * 512 + ch.val = b.val * 512 + ch.val
    omega)

/-- Row `t` of the neighbour's three rows (a format change), cut out and flattened to [4,512], reads
    at `(b, ch)` the neighbour's entry `(b, t, ch)`. -/
theorem dataC_apply (v104 : Vec Ideal S4x3x512 .f32) (t : ℕ) (ht : t < 3) (hs : S4x3x512.Slices ![0, t, 0] S4x1x512)
    (b : Fin 4) (ch : Fin 512) :
    shapeCast S4x512 (extractStridedSlice S4x1x512 ![0, t, 0] (k0_pay3 (F := Ideal) v104) hs)
      shapeCasts_S4x1x512_S4x512 (ix2 b ch) = v104 (ix3 b ⟨t, ht⟩ ch) := by
  refine (cast_a1b_ab_apply _ b ch).trans ?_
  refine (slice3_axis1_apply t _ hs b (0 : Fin 1) ch (⟨t, ht⟩ : Fin 3) rfl).trans ?_
  unfold k0_pay3
  rfl

/-- Three products summed left to right read at an index the first missing-rows sum. -/
theorem miss0_read {s : Shape} (B0 A0 B1 A1 B2 A2 : FVec Ideal s .bf16) (i : s.Idx) {k0 k1 k2 h0 h1 h2 : EReal}
    (hk0 : B0 i = k0) (hh0 : A0 i = h0) (hk1 : B1 i = k1) (hh1 : A1 i = h1) (hk2 : B2 i = k2) (hh2 : A2 i = h2) :
    addf (addf (mulf B0 A0) (mulf B1 A1)) (mulf B2 A2) i = Cert.Spec.miss0 k0 k1 k2 h0 h1 h2 := by
  subst hk0 hh0 hk1 hh1 hk2 hh2
  rfl

/-- Two products summed read at an index the second missing-rows sum. -/
theorem miss1_read {s : Shape} (B0 A1 B1 A2 : FVec Ideal s .bf16) (i : s.Idx) {k0 k1 h1 h2 : EReal}
    (hk0 : B0 i = k0) (hh1 : A1 i = h1) (hk1 : B1 i = k1) (hh2 : A2 i = h2) :
    addf (mulf B0 A1) (mulf B1 A2) i = Cert.Spec.miss1 k0 k1 h1 h2 := by
  subst hk0 hh1 hk1 hh2
  rfl

/-- One product reads at an index the third missing-rows term. -/
theorem miss2_read {s : Shape} (B0 A2 : FVec Ideal s .bf16) (i : s.Idx) {k0 h2 : EReal}
    (hk0 : B0 i = k0) (hh2 : A2 i = h2) :
    mulf B0 A2 i = Cert.Spec.miss2 k0 h2 := by
  subst hk0 hh2
  rfl

/-- A sum of two vectors reads at an index the sum of what they read. -/
theorem add_read {s : Shape} (X Y : FVec Ideal s .bf16) (i : s.Idx) {x y : EReal} (hX : X i = x) (hY : Y i = y) :
    addf X Y i = x + y := by
  subst hX hY
  rfl

/-- The first piece: the products of the three leading taps with the neighbour's three rows. -/
theorem pay4_apply (v7 : Vec Ideal S4x512 .f32) (v104 : Vec Ideal S4x3x512 .f32) (b : Fin 4) (u : Fin 1) (ch : Fin 512) :
    k0_pay4 (F := Ideal) (k0_pay8 v7) v104 (ix3 b u ch)
      = Cert.Spec.miss0 (v7 (ix2 0 ch)) (v7 (ix2 1 ch)) (v7 (ix2 2 ch)) (v104 (ix3 b 0 ch)) (v104 (ix3 b 1 ch)) (v104 (ix3 b 2 ch)) := by
  unfold k0_pay4
  refine (cast_ab_a1b_apply _ b u ch).trans ?_
  exact miss0_read _ _ _ _ _ _ _
    ((filt2_apply _ 0 (by omega) _ b ch).trans (pay8_apply v7 _)) (dataC_apply v104 0 (by omega) _ b ch)
    ((filt2_apply _ 1 (by omega) _ b ch).trans (pay8_apply v7 _)) (dataC_apply v104 1 (by omega) _ b ch)
    ((filt2_apply _ 2 (by omega) _ b ch).trans (pay8_apply v7 _)) (dataC_apply v104 2 (by omega) _ b ch)

/-- The second piece: the two leading taps with the neighbour's last two rows. -/
theorem pay5_apply (v7 : Vec Ideal S4x512 .f32) (v104 : Vec Ideal S4x3x512 .f32) (b : Fin 4) (u : Fin 1) (ch : Fin 512) :
    k0_pay5 (F := Ideal) (k0_pay8 v7) v104 (ix3 b u ch)
      = Cert.Spec.miss1 (v7 (ix2 0 ch)) (v7 (ix2 1 ch)) (v104 (ix3 b 1 ch)) (v104 (ix3 b 2 ch)) := by
  unfold k0_pay5
  refine (cast_ab_a1b_apply _ b u ch).trans ?_
  exact miss1_read _ _ _ _ _
    ((filt2_apply _ 0 (by omega) _ b ch).trans (pay8_apply v7 _)) (dataC_apply v104 1 (by omega) _ b ch)
    ((filt2_apply _ 1 (by omega) _ b ch).trans (pay8_apply v7 _)) (dataC_apply v104 2 (by omega) _ b ch)

/-- The third piece: the leading tap with the neighbour's last row. -/
theorem pay67_apply (v7 : Vec Ideal S4x512 .f32) (v104 : Vec Ideal S4x3x512 .f32) (b : Fin 4) (u : Fin 1) (ch : Fin 512) :
    shapeCast S4x1x512 (mulf (k0_pay7 (F := Ideal) (k0_pay8 v7)) (k0_pay6 v104)) shapeCasts_S4x512_S4x1x512 (ix3 b u ch)
      = Cert.Spec.miss2 (v7 (ix2 0 ch)) (v104 (ix3 b 2 ch)) := by
  refine (cast_ab_a1b_apply _ b u ch).trans ?_
  refine miss2_read _ _ _ ?_ ?_
  · unfold k0_pay7
    exact (filt2_apply _ 0 (by omega) _ b ch).trans (pay8_apply v7 _)
  · unfold k0_pay6
    exact dataC_apply v104 2 (by omega) _ b ch

/-- Three [4,1,512] rows stacked along axis 1 read at `(b, 0, ch)` the first row … -/
theorem cat3_apply_0 (P0 P1 P2 : FVec Ideal S4x1x512 .bf16) (b : Fin 4) (ch : Fin 512) :
    concatenate S4x3x512 1 [⟨S4x1x512, P0⟩, ⟨S4x1x512, P1⟩, ⟨S4x1x512, P2⟩]
      concatenates_S4x1x512_S4x1x512_S4x1x512_S4x3x512_d1 (ix3 b 0 ch) = P0 (ix3 b (0 : Fin 1) ch) :=
  concatenate_apply_piece (t := S4x3x512) 1 _ _ (ix3 b 0 ch) 0 (by show (0 : ℕ) < 3; omega) S4x1x512 P0 rfl rfl 0 rfl
    (ix3 b (0 : Fin 1) ch)
    (fun a ha => match a with
      | ⟨0, _⟩ => rfl
      | ⟨1, _⟩ => absurd (Fin.ext rfl) ha
      | ⟨2, _⟩ => rfl)
    rfl

/-- … at `(b, 1, ch)` the second … -/
theorem cat3_apply_1 (P0 P1 P2 : FVec Ideal S4x1x512 .bf16) (b : Fin 4) (ch : Fin 512) :
    concatenate S4x3x512 1 [⟨S4x1x512, P0⟩, ⟨S4x1x512, P1⟩, ⟨S4x1x512, P2⟩]
      concatenates_S4x1x512_S4x1x512_S4x1x512_S4x3x512_d1 (ix3 b 1 ch) = P1 (ix3 b (0 : Fin 1) ch) :=
  concatenate_apply_piece (t := S4x3x512) 1 _ _ (ix3 b 1 ch) 1 (by show (1 : ℕ) < 3; omega) S4x1x512 P1 rfl rfl 1 rfl
    (ix3 b (0 : Fin 1) ch)
    (fun a ha => match a with
      | ⟨0, _⟩ => rfl
      | ⟨1, _⟩ => absurd (Fin.ext rfl) ha
      | ⟨2, _⟩ => rfl)
    rfl

/-- … and at `(b, 2, ch)` the third. -/
theorem cat3_apply_2 (P0 P1 P2 : FVec Ideal S4x1x512 .bf16) (b : Fin 4) (ch : Fin 512) :
    concatenate S4x3x512 1 [⟨S4x1x512, P0⟩, ⟨S4x1x512, P1⟩, ⟨S4x1x512, P2⟩]
      concatenates_S4x1x512_S4x1x512_S4x1x512_S4x3x512_d1 (ix3 b 2 ch) = P2 (ix3 b (0 : Fin 1) ch) :=
  concatenate_apply_piece (t := S4x3x512) 1 _ _ (ix3 b 2 ch) 2 (by show (2 : ℕ) < 3; omega) S4x1x512 P2 rfl rfl 2 rfl
    (ix3 b (0 : Fin 1) ch)
    (fun a ha => match a with
      | ⟨0, _⟩ => rfl
      | ⟨1, _⟩ => absurd (Fin.ext rfl) ha
      | ⟨2, _⟩ => rfl)
    rfl

/-- The first three rows of the first half's sum. -/
theorem headA_apply (v7 : Vec Ideal S4x512 .f32) (v10 : Vec Ideal S4x512x512 .f32) (b : Fin 4) (t : Fin 3) (ch : Fin 512) :
    extractStridedSlice S4x3x512 ![0, 0, 0] (k0_pay9 (F := Ideal) v7 v10) slices_S4x512x512_o0_0_0_S4x3x512 (ix3 b t ch)
      = accA v7 v10 b t.val ch :=
  (slice3_axis1_apply 0 _ _ b t ch (⟨t.val, by omega⟩ : Fin 512) (Nat.zero_add _).symm).trans
    (pay9_apply v7 v10 b ⟨t.val, by omega⟩ ch)

/-- Row 0 of a shard with a left neighbour. -/
theorem payC0_apply (v7 : Vec Ideal S4x512 .f32) (v10 : Vec Ideal S4x512x512 .f32) (v104 : Vec Ideal S4x3x512 .f32) (b : Fin 4) (ch : Fin 512) :
    k0_pay2 (F := Ideal) (k0_pay9 v7 v10) (k0_pay4 (k0_pay8 v7) v104) (k0_pay5 (k0_pay8 v7) v104) (k0_pay6 v104) (k0_pay7 (k0_pay8 v7)) (ix3 b 0 ch)
      = Cert.Spec.siluK (accA v7 v10 b 0 ch
          + Cert.Spec.miss0 (v7 (ix2 0 ch)) (v7 (ix2 1 ch)) (v7 (ix2 2 ch)) (v104 (ix3 b 0 ch)) (v104 (ix3 b 1 ch)) (v104 (ix3 b 2 ch))) := by
  unfold k0_pay2
  exact siluK_read _ _ (add_read _ _ (ix3 b 0 ch) (headA_apply v7 v10 b 0 ch)
    ((cat3_apply_0 _ _ _ b ch).trans (pay4_apply v7 v104 b 0 ch)))

/-- Row 1. -/
theorem payC1_apply (v7 : Vec Ideal S4x512 .f32) (v10 : Vec Ideal S4x512x512 .f32) (v104 : Vec Ideal S4x3x512 .f32) (b : Fin 4) (ch : Fin 512) :
    k0_pay2 (F := Ideal) (k0_pay9 v7 v10) (k0_pay4 (k0_pay8 v7) v104) (k0_pay5 (k0_pay8 v7) v104) (k0_pay6 v104) (k0_pay7 (k0_pay8 v7)) (ix3 b 1 ch)
      = Cert.Spec.siluK (accA v7 v10 b 1 ch
          + Cert.Spec.miss1 (v7 (ix2 0 ch)) (v7 (ix2 1 ch)) (v104 (ix3 b 1 ch)) (v104 (ix3 b 2 ch))) := by
  unfold k0_pay2
  exact siluK_read _ _ (add_read _ _ (ix3 b 1 ch) (headA_apply v7 v10 b 1 ch)
    ((cat3_apply_1 _ _ _ b ch).trans (pay5_apply v7 v104 b 0 ch)))

/-- Row 2. -/
theorem payC2_apply (v7 : Vec Ideal S4x512 .f32) (v10 : Vec Ideal S4x512x512 .f32) (v104 : Vec Ideal S4x3x512 .f32) (b : Fin 4) (ch : Fin 512) :
    k0_pay2 (F := Ideal) (k0_pay9 v7 v10) (k0_pay4 (k0_pay8 v7) v104) (k0_pay5 (k0_pay8 v7) v104) (k0_pay6 v104) (k0_pay7 (k0_pay8 v7)) (ix3 b 2 ch)
      = Cert.Spec.siluK (accA v7 v10 b 2 ch
          + Cert.Spec.miss2 (v7 (ix2 0 ch)) (v104 (ix3 b 2 ch))) := by
  unfold k0_pay2
  exact siluK_read _ _ (add_read _ _ (ix3 b 2 ch) (headA_apply v7 v10 b 2 ch)
    ((cat3_apply_2 _ _ _ b ch).trans (pay67_apply v7 v104 b 0 ch)))

end Cert.PayValue

end
-- ==== Proof.Bridge.lean ====
/-
  A shard's result is its block of the whole-array result, on the extended reals.

  Shard `c` holds rows `1024c` to `1024c + 1023` of the sequence and the whole filter. Its result at local row `r` is
  SiLU of the four-tap sum over padded rows `r .. r+3`, where the padding of a shard with a left neighbour is that
  neighbour's last three rows; that is the whole-array result at row `1024c + r`.
-/
import proofs.«900528_g7700000000000529_dist_gconv1d_seqshard_i_b4_s1024_c512_v7x_i8_bf16_1_alg».proof.Proof.Proto
import proofs.«900528_g7700000000000529_dist_gconv1d_seqshard_i_b4_s1024_c512_v7x_i8_bf16_1_alg».proof.Proof.RefValue
import proofs.«900528_g7700000000000529_dist_gconv1d_seqshard_i_b4_s1024_c512_v7x_i8_bf16_1_alg».proof.Proof.PayValue
import Idealize.ShloMosaic.Lib.Layout
import Idealize.ShloMosaic.Lib.ValueIdx

noncomputable section

namespace Cert.Bridge

open Idealize.ShloMosaic Idealize.ShloMosaic.ValueIdx Idealize.ShloMosaic.TcCoe

section Pieces

open Cert.KernelIdeal Cert.KernelIdeal.Gen Cert.KernelIdeal.Stores Cert.KernelIdeal.Proto Cert.PayValue Cert.RefValue

variable (m : (ℓ : Loc nD τ sig) → Buf (Elt Ideal) ℓ)

/-! ## The staging buffers are the argument arrays -/

/-- The block of a window with no grid is the whole array: the staged shard is the shard. -/
theorem xstg_apply (c : Dev nD) (i : S4x1024x512.Idx) :
    xstg (F := Ideal) m c i = m ((c.tc : Thread nD τ).loc main_arg0) i := by
  unfold xstg
  refine congrArg (m ((c.tc : Thread nD τ).loc main_arg0)) (funext fun a => Fin.ext ?_)
  match a with
  | ⟨0, _⟩ => show 0 * 4 + 1 * (i 0).val = (i 0).val; omega
  | ⟨1, _⟩ => show 0 * 1024 + 1 * (i 1).val = (i 1).val; omega
  | ⟨2, _⟩ => show 0 * 512 + 1 * (i 2).val = (i 2).val; omega

/-- The staged filter is the filter. -/
theorem kstg_apply (c : Dev nD) (i : S4x512.Idx) :
    kstg (F := Ideal) m c i = m ((c.tc : Thread nD τ).loc main_arg1) i := by
  unfold kstg
  refine congrArg (m ((c.tc : Thread nD τ).loc main_arg1)) (funext fun a => Fin.ext ?_)
  match a with
  | ⟨0, _⟩ => show 0 * 4 + 1 * (i 0).val = (i 0).val; omega
  | ⟨1, _⟩ => show 0 * 512 + 1 * (i 1).val = (i 1).val; omega

/-- The filter as loaded is the staged filter. -/
theorem vK_apply (c : Dev nD) (i : S4x512.Idx) : vK (F := Ideal) m c i = kstg (F := Ideal) m c i := by
  unfold vK
  refine congrArg (kstg (F := Ideal) m c) (funext fun a => Fin.ext ?_)
  match a with
  | ⟨0, _⟩ => show 0 + 1 * (i 0).val = (i 0).val; omega
  | ⟨1, _⟩ => show 0 + 1 * (i 1).val = (i 1).val; omega

variable (x0 : (⟨Cert.ReferenceIdeal.S4x8192x512, .f32⟩ : BufTy).Contents (Elt Ideal))
  (x1 : (⟨Cert.ReferenceIdeal.S4x512, .f32⟩ : BufTy).Contents (Elt Ideal))

/-! ## Rows of a shard as rows of the whole sequence -/

/-- Where block `c`'s index `(b, r, ch)` sits in the whole array: row `1024c + r`. -/
theorem tiles_idx (h : Layout.Tiles ⟨3, ![4, 1024, 512]⟩ ⟨3, ![4, 8192, 512]⟩ 1 8) (c : Fin 8) (b : Fin 4) (r : Fin 1024) (ch : Fin 512) :
    h.idx c (ix3 b r ch) = ix3 b (⟨1024 * c.val + r.val, by have := c.isLt; have := r.isLt; omega⟩ : Fin 8192) ch := by
  funext a
  apply Fin.ext
  match a with
  | ⟨0, _⟩ => rfl
  | ⟨1, _⟩ => show c.val * 1024 + r.val = 1024 * c.val + r.val; omega
  | ⟨2, _⟩ => rfl

/-- The staged shard's row `r` is the whole sequence's row `1024c + r`. -/
theorem xrow (hx : ∀ c : Dev nD, m ((c.tc : Thread nD τ).loc main_arg0) = Layout.block ⟨3, ![4, 1024, 512]⟩ ⟨3, ![4, 8192, 512]⟩ 1 8 c x0) (c : Dev nD) (b : Fin 4) (r : Fin 1024) (ch : Fin 512) :
    xstg (F := Ideal) m c (ix3 b r ch)
      = x0 (ix3 b (⟨1024 * c.val + r.val, by have h8 : c.val < 8 := c.isLt; have := r.isLt; omega⟩ : Fin 8192) ch) := by
  rw [xstg_apply, hx c, Layout.block_apply, tiles_idx]

/-- The loaded filter is the whole filter. -/
theorem kx (hk : ∀ c : Dev nD, m ((c.tc : Thread nD τ).loc main_arg1) = x1) (c : Dev nD) (i : S4x512.Idx) : vK (F := Ideal) m c i = x1 i :=
  (vK_apply m c i).trans ((kstg_apply m c i).trans (congrFun (hk c) i))

/-- The whole-array result at block `c`'s index `(b, r, ch)`. -/
theorem ref_row (c : Dev nD) (b : Fin 4) (r : Fin 1024) (ch : Fin 512) :
    (Layout.block ⟨3, ![4, 1024, 512]⟩ ⟨3, ![4, 8192, 512]⟩ 1 8 c (Cert.ReferenceIdeal.Read.val_main_v36 (F := Ideal) x0 x1)) (ix3 b r ch)
      = Cert.Spec.silu (Cert.Spec.tapsR (x1 (ix2 0 ch)) (x1 (ix2 1 ch)) (x1 (ix2 2 ch)) (x1 (ix2 3 ch))
          (padAt x0 b (1024 * c.val + r.val) ch) (padAt x0 b (1024 * c.val + r.val + 1) ch)
          (padAt x0 b (1024 * c.val + r.val + 2) ch) (padAt x0 b (1024 * c.val + r.val + 3) ch)) := by
  rw [Layout.block_apply, tiles_idx, ref_apply]

/-- The shard's first half padded by three zero rows is the padded whole sequence from row `1024c` on: on the first
    shard both are zero below row 3, elsewhere both are the sequence's row `1024c + j - 3`. -/
theorem padA_eq (hx : ∀ c : Dev nD, m ((c.tc : Thread nD τ).loc main_arg0) = Layout.block ⟨3, ![4, 1024, 512]⟩ ⟨3, ![4, 8192, 512]⟩ 1 8 c x0) (c : Dev nD) (b : Fin 4) (ch : Fin 512)
    (j : ℕ) (hj : j < 515) (hc : c.val = 0 ∨ 3 ≤ j) (q : ℕ) (hq : q = 1024 * c.val + j) :
    padA (vLo (F := Ideal) m c) b j ch = padAt x0 b q ch := by
  subst hq
  have hc8 : c.val < 8 := c.isLt
  unfold padA padAt
  by_cases h3 : 3 ≤ j
  · rw [dif_pos (show 3 ≤ j ∧ j - 3 < 512 from ⟨h3, by omega⟩),
      dif_pos (show 3 ≤ 1024 * c.val + j ∧ 1024 * c.val + j - 3 < 8192 from ⟨by omega, by omega⟩)]
    exact (read_lo (F := Ideal) (xstg (F := Ideal) m c) b (⟨j - 3, by omega⟩ : Fin 512) ch).trans
      ((xrow m x0 hx c b (⟨j - 3, by omega⟩ : Fin 1024) ch).trans
        (congrArg (fun p => x0 (ix3 b p ch)) (Fin.ext (show 1024 * c.val + (j - 3) = 1024 * c.val + j - 3 by omega))))
  · rw [dif_neg (show ¬ (3 ≤ j ∧ j - 3 < 512) by omega),
      dif_neg (show ¬ (3 ≤ 1024 * c.val + j ∧ 1024 * c.val + j - 3 < 8192) by omega)]

/-- Below row 3 the padded first half is zero. -/
theorem padA_zero (v : Vec Ideal S4x512x512 .f32) (b : Fin 4) (ch : Fin 512) (j : ℕ) (hj : j < 3) : padA v b j ch = 0 := by
  unfold padA
  rw [dif_neg (show ¬ (3 ≤ j ∧ j - 3 < 512) by omega)]

/-- The 515 rows loaded from row 509 on are the whole sequence's rows from `1024c + 509` on. -/
theorem mid_eq (hx : ∀ c : Dev nD, m ((c.tc : Thread nD τ).loc main_arg0) = Layout.block ⟨3, ![4, 1024, 512]⟩ ⟨3, ![4, 8192, 512]⟩ 1 8 c x0) (c : Dev nD) (b : Fin 4) (ch : Fin 512)
    (j : ℕ) (hj : j < 515) (q : ℕ) (hq : q = 1024 * c.val + 512 + j) :
    vMid (F := Ideal) m c (ix3 b (⟨j, hj⟩ : Fin 515) ch) = padAt x0 b q ch := by
  subst hq
  have hc8 : c.val < 8 := c.isLt
  unfold padAt
  rw [dif_pos (show 3 ≤ 1024 * c.val + 512 + j ∧ 1024 * c.val + 512 + j - 3 < 8192 from ⟨by omega, by omega⟩)]
  exact (read_mid (F := Ideal) (xstg (F := Ideal) m c) b (⟨j, hj⟩ : Fin 515) ch).trans
    ((xrow m x0 hx c b (⟨509 + j, by omega⟩ : Fin 1024) ch).trans
      (congrArg (fun p => x0 (ix3 b p ch)) (Fin.ext (show 1024 * c.val + (509 + j) = 1024 * c.val + 512 + j - 3 by omega))))

/-- The halo buffer of a shard with a left neighbour holds the whole sequence's rows `1024c - 3` to `1024c - 1`. -/
theorem halo_eq (hx : ∀ c : Dev nD, m ((c.tc : Thread nD τ).loc main_arg0) = Layout.block ⟨3, ![4, 1024, 512]⟩ ⟨3, ![4, 8192, 512]⟩ 1 8 c x0) (c : Dev nD) (hc : 0 < c.val) (b : Fin 4) (ch : Fin 512)
    (j : ℕ) (hj : j < 3) (q : ℕ) (hq : q = 1024 * c.val + j) :
    vH (F := Ideal) m c (ix3 b (⟨j, hj⟩ : Fin 3) ch) = padAt x0 b q ch := by
  subst hq
  have hc8 : c.val < 8 := c.isLt
  have hp : (prv c).val = c.val - 1 := prv_val c hc
  unfold padAt
  rw [dif_pos (show 3 ≤ 1024 * c.val + j ∧ 1024 * c.val + j - 3 < 8192 from ⟨by omega, by omega⟩)]
  have e1 : vH (F := Ideal) m c (ix3 b (⟨j, hj⟩ : Fin 3) ch) = landed (F := Ideal) m c (ix3 b (⟨j, hj⟩ : Fin 3) ch) := by
    unfold vH
    exact congrFun (read_halo (F := Ideal) (landed (F := Ideal) m c)) _
  refine e1.trans ?_
  unfold landed
  exact (read_tail (F := Ideal) (xstg (F := Ideal) m (prv c)) b (⟨j, hj⟩ : Fin 3) ch).trans
    ((xrow m x0 hx (prv c) b (⟨1021 + j, by omega⟩ : Fin 1024) ch).trans
      (congrArg (fun p => x0 (ix3 b p ch)) (Fin.ext (show 1024 * (prv c).val + (1021 + j) = 1024 * c.val + j - 3 by omega))))

/-! ## The result buffer at an index, by region of rows -/

theorem out2_lo (A B : Vec Ideal S4x512x512 .bf16) (b : Fin 4) (r : Fin 1024) (ch : Fin 512) (h : r.val < 512) :
    out2 A B (ix3 b r ch) = A (ix3 b (⟨r.val, h⟩ : Fin 512) ch) := by
  unfold out2; exact dif_pos h
theorem out2_hi (A B : Vec Ideal S4x512x512 .bf16) (b : Fin 4) (r : Fin 1024) (ch : Fin 512) (h : 512 ≤ r.val) :
    out2 A B (ix3 b r ch) = B (ix3 b (⟨r.val - 512, by have := r.isLt; omega⟩ : Fin 512) ch) := by
  unfold out2; exact dif_neg (Nat.not_lt.2 h)
theorem out3_lo (A B : Vec Ideal S4x512x512 .bf16) (C : Vec Ideal S4x3x512 .bf16) (b : Fin 4) (r : Fin 1024) (ch : Fin 512) (h : r.val < 3) :
    out3 A B C (ix3 b r ch) = C (ix3 b (⟨r.val, h⟩ : Fin 3) ch) := by
  unfold out3; exact dif_pos h
theorem out3_hi (A B : Vec Ideal S4x512x512 .bf16) (C : Vec Ideal S4x3x512 .bf16) (b : Fin 4) (r : Fin 1024) (ch : Fin 512) (h : 3 ≤ r.val) :
    out3 A B C (ix3 b r ch) = out2 A B (ix3 b r ch) := by
  unfold out3; exact dif_neg (Nat.not_lt.2 h)

/-- Rows 512 to 1023: the second half's payload. -/
theorem outAt_hi (c : Dev nD) (b : Fin 4) (r : Fin 1024) (ch : Fin 512) (h : 512 ≤ r.val) :
    outAt (F := Ideal) m c (ix3 b r ch) = pB (F := Ideal) m c (ix3 b (⟨r.val - 512, by have := r.isLt; omega⟩ : Fin 512) ch) := by
  unfold outAt
  by_cases h0 : 0 < c.val
  · rw [if_pos h0, out3_hi _ _ _ b r ch (by omega), out2_hi _ _ b r ch h]
  · rw [if_neg h0, out2_hi _ _ b r ch h]

/-- Rows 0 to 511 that the halo store leaves alone: the first half's payload. -/
theorem outAt_lo (c : Dev nD) (b : Fin 4) (r : Fin 1024) (ch : Fin 512) (h : r.val < 512) (hc : c.val = 0 ∨ 3 ≤ r.val) :
    outAt (F := Ideal) m c (ix3 b r ch) = pA (F := Ideal) m c (ix3 b (⟨r.val, h⟩ : Fin 512) ch) := by
  unfold outAt
  by_cases h0 : 0 < c.val
  · rw [if_pos h0, out3_hi _ _ _ b r ch (by omega), out2_lo _ _ b r ch h]
  · rw [if_neg h0, out2_lo _ _ b r ch h]

/-- Rows 0 to 2 of a shard with a left neighbour: the halo payload. -/
theorem outAt_halo (c : Dev nD) (h0 : 0 < c.val) (b : Fin 4) (r : Fin 1024) (ch : Fin 512) (h : r.val < 3) :
    outAt (F := Ideal) m c (ix3 b r ch) = pC (F := Ideal) m c (ix3 b (⟨r.val, h⟩ : Fin 3) ch) := by
  unfold outAt
  rw [if_pos h0, out3_lo _ _ _ b r ch h]

/-! ## Sums with equal entries -/

theorem tapsR_congr {k0 k1 k2 k3 p0 p1 p2 p3 k0' k1' k2' k3' p0' p1' p2' p3' : EReal}
    (e0 : k0 = k0') (e1 : k1 = k1') (e2 : k2 = k2') (e3 : k3 = k3') (f0 : p0 = p0') (f1 : p1 = p1') (f2 : p2 = p2') (f3 : p3 = p3') :
    Cert.Spec.tapsR k0 k1 k2 k3 p0 p1 p2 p3 = Cert.Spec.tapsR k0' k1' k2' k3' p0' p1' p2' p3' := by
  rw [e0, e1, e2, e3, f0, f1, f2, f3]
theorem tapsK_congr {k0 k1 k2 k3 p0 p1 p2 p3 k0' k1' k2' k3' p0' p1' p2' p3' : EReal}
    (e0 : k0 = k0') (e1 : k1 = k1') (e2 : k2 = k2') (e3 : k3 = k3') (f0 : p0 = p0') (f1 : p1 = p1') (f2 : p2 = p2') (f3 : p3 = p3') :
    Cert.Spec.tapsK k0 k1 k2 k3 p0 p1 p2 p3 = Cert.Spec.tapsK k0' k1' k2' k3' p0' p1' p2' p3' := by
  rw [e0, e1, e2, e3, f0, f1, f2, f3]
theorem miss0_congr {k0 k1 k2 h0 h1 h2 k0' k1' k2' h0' h1' h2' : EReal}
    (e0 : k0 = k0') (e1 : k1 = k1') (e2 : k2 = k2') (f0 : h0 = h0') (f1 : h1 = h1') (f2 : h2 = h2') :
    Cert.Spec.miss0 k0 k1 k2 h0 h1 h2 = Cert.Spec.miss0 k0' k1' k2' h0' h1' h2' := by
  rw [e0, e1, e2, f0, f1, f2]
theorem miss1_congr {k0 k1 h1 h2 k0' k1' h1' h2' : EReal} (e0 : k0 = k0') (e1 : k1 = k1') (f1 : h1 = h1') (f2 : h2 = h2') :
    Cert.Spec.miss1 k0 k1 h1 h2 = Cert.Spec.miss1 k0' k1' h1' h2' := by
  rw [e0, e1, f1, f2]
theorem miss2_congr {k0 h2 k0' h2' : EReal} (e0 : k0 = k0') (f2 : h2 = h2') :
    Cert.Spec.miss2 k0 h2 = Cert.Spec.miss2 k0' h2' := by
  rw [e0, f2]

/-! ## The join -/

/-- Shard `c`'s result at `(b, r, ch)` is the whole-array result at row `1024c + r`. -/
theorem bridge_apply (hx : ∀ c : Dev nD, m ((c.tc : Thread nD τ).loc main_arg0) = Layout.block ⟨3, ![4, 1024, 512]⟩ ⟨3, ![4, 8192, 512]⟩ 1 8 c x0) (hk : ∀ c : Dev nD, m ((c.tc : Thread nD τ).loc main_arg1) = x1) (c : Dev nD) (i : S4x1024x512.Idx) :
    outAt (F := Ideal) m c i
      = (Layout.block ⟨3, ![4, 1024, 512]⟩ ⟨3, ![4, 8192, 512]⟩ 1 8 c (Cert.ReferenceIdeal.Read.val_main_v36 (F := Ideal) x0 x1)) i := by
  obtain ⟨b, r, ch, rfl⟩ : ∃ (b : Fin 4) (r : Fin 1024) (ch : Fin 512), i = ix3 b r ch := ⟨i 0, i 1, i 2, eq_ix3 i⟩
  have hc8 : c.val < 8 := c.isLt
  have hr : r.val < 1024 := r.isLt
  have k : ∀ t : Fin 4, vK (F := Ideal) m c (ix2 t ch) = x1 (ix2 t ch) := fun t => kx m x1 hk c _
  rw [ref_row]
  by_cases h512 : 512 ≤ r.val
  · -- rows 512 to 1023: the second half, over the rows loaded from row 509 on
    rw [outAt_hi m c b r ch h512]
    unfold pB
    rw [payB_apply, Cert.Spec.siluK_eq, Cert.Spec.tapsK_eq]
    exact congrArg Cert.Spec.silu (tapsR_congr (k 0) (k 1) (k 2) (k 3)
      (mid_eq m x0 hx c b ch (r.val - 512) (by omega) _ (by omega))
      (mid_eq m x0 hx c b ch (r.val - 512 + 1) (by omega) _ (by omega))
      (mid_eq m x0 hx c b ch (r.val - 512 + 2) (by omega) _ (by omega))
      (mid_eq m x0 hx c b ch (r.val - 512 + 3) (by omega) _ (by omega)))
  · by_cases hA : c.val = 0 ∨ 3 ≤ r.val
    · -- rows 0 to 511 of the first shard, rows 3 to 511 of the others: the first half, padded by zeros
      have h5 : r.val < 512 := by omega
      rw [outAt_lo m c b r ch h5 hA]
      unfold pA
      rw [payA_apply, Cert.Spec.siluK_eq]
      unfold accA
      rw [Cert.Spec.tapsK_eq]
      exact congrArg Cert.Spec.silu (tapsR_congr (k 0) (k 1) (k 2) (k 3)
        (padA_eq m x0 hx c b ch r.val (by omega) (by omega) _ (by omega))
        (padA_eq m x0 hx c b ch (r.val + 1) (by omega) (by omega) _ (by omega))
        (padA_eq m x0 hx c b ch (r.val + 2) (by omega) (by omega) _ (by omega))
        (padA_eq m x0 hx c b ch (r.val + 3) (by omega) (by omega) _ (by omega)))
    · -- rows 0 to 2 of a shard with a left neighbour: the zeros of the padding are the neighbour's last rows
      have h0 : 0 < c.val := by omega
      have h3 : r.val < 3 := by omega
      rw [outAt_halo m c h0 b r ch h3]
      have hcases : r.val = 0 ∨ r.val = 1 ∨ r.val = 2 := by omega
      rcases hcases with e | e | e
      · -- row 0
        rw [show (⟨r.val, h3⟩ : Fin 3) = 0 from Fin.ext e]
        unfold pC
        rw [payC0_apply]
        have E : accA (vK (F := Ideal) m c) (vLo (F := Ideal) m c) b 0 ch
            = Cert.Spec.tapsK (x1 (ix2 0 ch)) (x1 (ix2 1 ch)) (x1 (ix2 2 ch)) (x1 (ix2 3 ch)) 0 0 0 (padAt x0 b (1024 * c.val + r.val + 3) ch) := by
          unfold accA
          exact tapsK_congr (k 0) (k 1) (k 2) (k 3) (padA_zero _ b ch _ (by omega)) (padA_zero _ b ch _ (by omega)) (padA_zero _ b ch _ (by omega)) (padA_eq m x0 hx c b ch _ (by omega) (by omega) _ (by omega))
        have M : Cert.Spec.miss0 (vK (F := Ideal) m c (ix2 0 ch)) (vK (F := Ideal) m c (ix2 1 ch)) (vK (F := Ideal) m c (ix2 2 ch)) (vH (F := Ideal) m c (ix3 b 0 ch)) (vH (F := Ideal) m c (ix3 b 1 ch)) (vH (F := Ideal) m c (ix3 b 2 ch))
            = Cert.Spec.miss0 (x1 (ix2 0 ch)) (x1 (ix2 1 ch)) (x1 (ix2 2 ch)) (padAt x0 b (1024 * c.val + r.val) ch) (padAt x0 b (1024 * c.val + r.val + 1) ch) (padAt x0 b (1024 * c.val + r.val + 2) ch) :=
          miss0_congr (k 0) (k 1) (k 2) (halo_eq m x0 hx c h0 b ch 0 (by omega) _ (by omega)) (halo_eq m x0 hx c h0 b ch 1 (by omega) _ (by omega)) (halo_eq m x0 hx c h0 b ch 2 (by omega) _ (by omega))
        rw [E, M, Cert.Spec.halo0, Cert.Spec.siluK_eq]
      · -- row 1
        rw [show (⟨r.val, h3⟩ : Fin 3) = 1 from Fin.ext e]
        unfold pC
        rw [payC1_apply]
        have E : accA (vK (F := Ideal) m c) (vLo (F := Ideal) m c) b 1 ch
            = Cert.Spec.tapsK (x1 (ix2 0 ch)) (x1 (ix2 1 ch)) (x1 (ix2 2 ch)) (x1 (ix2 3 ch)) 0 0 (padAt x0 b (1024 * c.val + r.val + 2) ch) (padAt x0 b (1024 * c.val + r.val + 3) ch) := by
          unfold accA
          exact tapsK_congr (k 0) (k 1) (k 2) (k 3) (padA_zero _ b ch _ (by omega)) (padA_zero _ b ch _ (by omega)) (padA_eq m x0 hx c b ch _ (by omega) (by omega) _ (by omega)) (padA_eq m x0 hx c b ch _ (by omega) (by omega) _ (by omega))
        have M : Cert.Spec.miss1 (vK (F := Ideal) m c (ix2 0 ch)) (vK (F := Ideal) m c (ix2 1 ch)) (vH (F := Ideal) m c (ix3 b 1 ch)) (vH (F := Ideal) m c (ix3 b 2 ch))
            = Cert.Spec.miss1 (x1 (ix2 0 ch)) (x1 (ix2 1 ch)) (padAt x0 b (1024 * c.val + r.val) ch) (padAt x0 b (1024 * c.val + r.val + 1) ch) :=
          miss1_congr (k 0) (k 1) (halo_eq m x0 hx c h0 b ch 1 (by omega) _ (by omega)) (halo_eq m x0 hx c h0 b ch 2 (by omega) _ (by omega))
        rw [E, M, Cert.Spec.halo1, Cert.Spec.siluK_eq]
      · -- row 2
        rw [show (⟨r.val, h3⟩ : Fin 3) = 2 from Fin.ext e]
        unfold pC
        rw [payC2_apply]
        have E : accA (vK (F := Ideal) m c) (vLo (F := Ideal) m c) b 2 ch
            = Cert.Spec.tapsK (x1 (ix2 0 ch)) (x1 (ix2 1 ch)) (x1 (ix2 2 ch)) (x1 (ix2 3 ch)) 0 (padAt x0 b (1024 * c.val + r.val + 1) ch) (padAt x0 b (1024 * c.val + r.val + 2) ch) (padAt x0 b (1024 * c.val + r.val + 3) ch) := by
          unfold accA
          exact tapsK_congr (k 0) (k 1) (k 2) (k 3) (padA_zero _ b ch _ (by omega)) (padA_eq m x0 hx c b ch _ (by omega) (by omega) _ (by omega)) (padA_eq m x0 hx c b ch _ (by omega) (by omega) _ (by omega)) (padA_eq m x0 hx c b ch _ (by omega) (by omega) _ (by omega))
        have M : Cert.Spec.miss2 (vK (F := Ideal) m c (ix2 0 ch)) (vH (F := Ideal) m c (ix3 b 2 ch))
            = Cert.Spec.miss2 (x1 (ix2 0 ch)) (padAt x0 b (1024 * c.val + r.val) ch) :=
          miss2_congr (k 0) (halo_eq m x0 hx c h0 b ch 2 (by omega) _ (by omega))
        rw [E, M, Cert.Spec.halo2, Cert.Spec.siluK_eq]

end Pieces

/-- Shard `c`'s result buffer after the body is block `c` of the whole-array program's last stage, when every shard's
    argument buffers hold their block of the sequence and the whole filter. -/
theorem bridge (m : (ℓ : Loc Cert.KernelIdeal.nD Cert.KernelIdeal.τ Cert.KernelIdeal.sig) → Buf (Elt Ideal) ℓ)
    (x0 : (⟨Cert.ReferenceIdeal.S4x8192x512, .f32⟩ : BufTy).Contents (Elt Ideal)) (x1 : (⟨Cert.ReferenceIdeal.S4x512, .f32⟩ : BufTy).Contents (Elt Ideal))
    (hx : ∀ c : Dev Cert.KernelIdeal.nD,
      m ((c.tc : Thread Cert.KernelIdeal.nD Cert.KernelIdeal.τ).loc Cert.KernelIdeal.main_arg0) = Layout.block ⟨3, ![4, 1024, 512]⟩ ⟨3, ![4, 8192, 512]⟩ 1 8 c x0)
    (hk : ∀ c : Dev Cert.KernelIdeal.nD,
      m ((c.tc : Thread Cert.KernelIdeal.nD Cert.KernelIdeal.τ).loc Cert.KernelIdeal.main_arg1) = x1)
    (c : Dev Cert.KernelIdeal.nD) :
    Cert.KernelIdeal.Proto.outAt (F := Ideal) m c
      = Layout.block ⟨3, ![4, 1024, 512]⟩ ⟨3, ![4, 8192, 512]⟩ 1 8 c (Cert.ReferenceIdeal.Read.val_main_v36 (F := Ideal) x0 x1) := by
  exact funext (bridge_apply m x0 x1 hx hk c)

end Cert.Bridge

end
-- ==== Proof.Claims.lean ====
/-
  The five claims, assembled.

  Each sharded program's frame is its run with the results dropped; the whole-array program's frame is its run read
  back. The idealization rewrote nothing, so there is nothing to preserve. For the value claim the whole-array result
  is the last stage of the whole-array program at its argument arrays; each shard's result buffer ends as its block of
  that array, and the whole-array run ends at it.
-/
import proofs.«900528_g7700000000000529_dist_gconv1d_seqshard_i_b4_s1024_c512_v7x_i8_bf16_1_alg».proof.Defs
import proofs.«900528_g7700000000000529_dist_gconv1d_seqshard_i_b4_s1024_c512_v7x_i8_bf16_1_alg».proof.Proof.Run
import proofs.«900528_g7700000000000529_dist_gconv1d_seqshard_i_b4_s1024_c512_v7x_i8_bf16_1_alg».proof.Proof.RunBits
import proofs.«900528_g7700000000000529_dist_gconv1d_seqshard_i_b4_s1024_c512_v7x_i8_bf16_1_alg».proof.Proof.Bridge
import proofs.«900528_g7700000000000529_dist_gconv1d_seqshard_i_b4_s1024_c512_v7x_i8_bf16_1_alg».proof.Proof.Gen.ReferenceIdeal.Read
import proofs.«900528_g7700000000000529_dist_gconv1d_seqshard_i_b4_s1024_c512_v7x_i8_bf16_1_alg».proof.Proof.Gen.Pre_finite_inputs_Kernel
import proofs.«900528_g7700000000000529_dist_gconv1d_seqshard_i_b4_s1024_c512_v7x_i8_bf16_1_alg».proof.Proof.Gen.Pre_finite_inputs_ReferenceIdeal

noncomputable section

namespace Cert.Proof.Claims

open Idealize.ShloMosaic Idealize.SL.Sem

theorem frame_k : Cert.frame_Kernel := fun m ρ _ =>
  (θ_run Cert.Kernel.defs _ _).mono (fun _ h c => (h c).2) (Cert.Kernel.Run.run (F := Bits) m ρ)

theorem frame_ki : Cert.frame_KernelIdeal := fun m ρ _ =>
  (θ_run Cert.KernelIdeal.defs _ _).mono (fun _ h c => (h c).2) (Cert.KernelIdeal.Run.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨Cert.ReferenceIdeal.Read.val_main_v36 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h c).1.trans (Cert.Bridge.bridge m _ _ (fun c => (hagree c).1) (fun c => (hagree c).2) c), (h c).2⟩)
      (Cert.KernelIdeal.Run.run (F := Ideal) m ρ)
  · exact (θ_run Cert.ReferenceIdeal.defs _ _).mono
      (fun _ h => ⟨(h 0).1.trans (Cert.ReferenceIdeal.Read.val_main_v36_eq m' 0), (h 0).2⟩)
      (Cert.ReferenceIdeal.Value.run (F := Ideal) m' ρ')

end Cert.Proof.Claims

end
-- ==== Proof.lean ====
/- The proof of `Cert.Claim`: a four-tap convolution along the sequence followed by SiLU, the sequence cut into eight
   shards that exchange their last three rows with the right neighbour, against the same computation on the whole
   arrays. Proof/Spec.lean has the scalar laws; Proof/RefValue.lean, Proof/PayValue.lean and Proof/Stores.lean read both
   programs at an index; Proof/Proto.lean is the exchange as a protocol of rounds with the body of one shard;
   Proof/Run.lean launches it on the eight shards; Proof/Bridge.lean joins a shard's result to its block of the whole
   result; Proof/Claims.lean assembles the five claims. -/
import proofs.«900528_g7700000000000529_dist_gconv1d_seqshard_i_b4_s1024_c512_v7x_i8_bf16_1_alg».proof.Defs
import proofs.«900528_g7700000000000529_dist_gconv1d_seqshard_i_b4_s1024_c512_v7x_i8_bf16_1_alg».proof.Proof.Gen.Kernel
import proofs.«900528_g7700000000000529_dist_gconv1d_seqshard_i_b4_s1024_c512_v7x_i8_bf16_1_alg».proof.Proof.Gen.Kernel.Skeleton
import proofs.«900528_g7700000000000529_dist_gconv1d_seqshard_i_b4_s1024_c512_v7x_i8_bf16_1_alg».proof.Proof.Gen.Kernel.Launch
import proofs.«900528_g7700000000000529_dist_gconv1d_seqshard_i_b4_s1024_c512_v7x_i8_bf16_1_alg».proof.Proof.Gen.Kernel.Points
import proofs.«900528_g7700000000000529_dist_gconv1d_seqshard_i_b4_s1024_c512_v7x_i8_bf16_1_alg».proof.Proof.Gen.Kernel.Frame
import proofs.«900528_g7700000000000529_dist_gconv1d_seqshard_i_b4_s1024_c512_v7x_i8_bf16_1_alg».proof.Proof.Gen.KernelIdeal
import proofs.«900528_g7700000000000529_dist_gconv1d_seqshard_i_b4_s1024_c512_v7x_i8_bf16_1_alg».proof.Proof.Gen.KernelIdeal.Skeleton
import proofs.«900528_g7700000000000529_dist_gconv1d_seqshard_i_b4_s1024_c512_v7x_i8_bf16_1_alg».proof.Proof.Gen.KernelIdeal.Launch
import proofs.«900528_g7700000000000529_dist_gconv1d_seqshard_i_b4_s1024_c512_v7x_i8_bf16_1_alg».proof.Proof.Gen.KernelIdeal.Points
import proofs.«900528_g7700000000000529_dist_gconv1d_seqshard_i_b4_s1024_c512_v7x_i8_bf16_1_alg».proof.Proof.Gen.KernelIdeal.Frame
import proofs.«900528_g7700000000000529_dist_gconv1d_seqshard_i_b4_s1024_c512_v7x_i8_bf16_1_alg».proof.Proof.Gen.ReferenceIdeal
import proofs.«900528_g7700000000000529_dist_gconv1d_seqshard_i_b4_s1024_c512_v7x_i8_bf16_1_alg».proof.Proof.Gen.Pre_finite_inputs_Kernel
import proofs.«900528_g7700000000000529_dist_gconv1d_seqshard_i_b4_s1024_c512_v7x_i8_bf16_1_alg».proof.Proof.Gen.Pre_finite_inputs_ReferenceIdeal
import proofs.«900528_g7700000000000529_dist_gconv1d_seqshard_i_b4_s1024_c512_v7x_i8_bf16_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_k, Claims.frame_ki, Claims.frame_ri, Claims.preserves, Claims.algebraic⟩

end Cert.Proof

end
